-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![64, 64, 64]⟩ ⟨3, ![128, 128, 128]⟩ (Layout.meshBlock [2, 2, 2] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![64, 64, 64]⟩ ⟨3, ![128, 128, 128]⟩ (Layout.meshBlock [2, 2, 2] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S64x64x64 : Shape := ⟨3, ![64, 64, 64]⟩
abbrev S_ : Shape := ⟨0, ![]⟩

class Facts : Prop where
  bcast_S_S64x64x64 : S_.BroadcastsInDim S64x64x64 (![] : Fin 0 → Fin S64x64x64.rank)
  reducesTo_S64x64x64_S_d0_1_2 : S64x64x64.ReducesTo [0, 1, 2] S_
  h_S_ : 0 < S_.numel

variable [Facts]

def fn {F : FTy → Type} [FloatOps F] (main_arg0 : FVec F S64x64x64 .f32) : IVec S_ 1 :=
  let main_v0 : FVec F S64x64x64 .f32 := Host.absf main_arg0
  let main_cst : FVec F S_ .f32 := constant S_ .f32 0x7F800000#32
  let main_v1 : FVec F S64x64x64 .f32 := broadcastInDim S64x64x64 ![] bcast_S_S64x64x64 main_cst
  let main_v2 : IVec S64x64x64 1 := cmpf .olt main_v0 main_v1
  let main_c : IVec S_ 1 := constantI S_ 1 1#1
  let main_v3 : IVec S_ 1 := (fun x v => Host.reduce IntOp.andi x v reducesTo_S64x64x64_S_d0_1_2 h_S_) main_v2 main_c
  main_v3
-- ==== Pre_finite_inputs_ReferenceIdeal.lean ====
abbrev S128x128x128 : Shape := ⟨3, ![128, 128, 128]⟩
abbrev S_ : Shape := ⟨0, ![]⟩

class Facts : Prop where
  bcast_S_S128x128x128 : S_.BroadcastsInDim S128x128x128 (![] : Fin 0 → Fin S128x128x128.rank)
  reducesTo_S128x128x128_S_d0_1_2 : S128x128x128.ReducesTo [0, 1, 2] S_
  h_S_ : 0 < S_.numel

variable [Facts]

def fn {F : FTy → Type} [FloatOps F] (main_arg0 : FVec F S128x128x128 .f32) : IVec S_ 1 :=
  let main_v0 : FVec F S128x128x128 .f32 := Host.absf main_arg0
  let main_cst : FVec F S_ .f32 := constant S_ .f32 0x7F800000#32
  let main_v1 : FVec F S128x128x128 .f32 := broadcastInDim S128x128x128 ![] bcast_S_S128x128x128 main_cst
  let main_v2 : IVec S128x128x128 1 := cmpf .olt main_v0 main_v1
  let main_c : IVec S_ 1 := constantI S_ 1 1#1
  let main_v3 : IVec S_ 1 := (fun x v => Host.reduce IntOp.andi x v reducesTo_S128x128x128_S_d0_1_2 h_S_) main_v2 main_c
  main_v3
-- ==== Kernel.lean ====
abbrev S64x64x64 : Shape := ⟨3, ![64, 64, 64]⟩
abbrev S64x64 : Shape := ⟨2, ![64, 64]⟩
abbrev S3 : Shape := ⟨1, ![3]⟩
abbrev S2 : Shape := ⟨1, ![2]⟩
abbrev S_ : Shape := ⟨0, ![]⟩
abbrev S1x64x64 : Shape := ⟨3, ![1, 64, 64]⟩
abbrev S64x1x64 : Shape := ⟨3, ![64, 1, 64]⟩
abbrev S64x64x1 : Shape := ⟨3, ![64, 64, 1]⟩
abbrev S1 : Shape := ⟨1, ![1]⟩
abbrev S63x64x64 : Shape := ⟨3, ![63, 64, 64]⟩
abbrev S64x63x64 : Shape := ⟨3, ![64, 63, 64]⟩
abbrev S64x64x63 : Shape := ⟨3, ![64, 64, 63]⟩
abbrev S64x2x64 : Shape := ⟨3, ![64, 2, 64]⟩

abbrev nBuf : Space → Nat
  | .hbm => 2
  | .vmem => 8
  | .smem => 0
  | _ => 0

abbrev bufTy : (tb : Table) → Fin (tcTables nBuf tb) → BufTy
  | .hbm, ⟨0, _⟩ => ⟨S64x64x64, .f32⟩
  | .hbm, ⟨1, _⟩ => ⟨S64x64x64, .bf16⟩
  | .local _ .vmem, ⟨0, _⟩ => ⟨S64x64x64, .f32⟩
  | .local _ .vmem, ⟨1, _⟩ => ⟨S64x64x64, .bf16⟩
  | .local _ .vmem, ⟨2, _⟩ => ⟨S64x64, .bf16⟩
  | .local _ .vmem, ⟨3, _⟩ => ⟨S64x64, .bf16⟩
  | .local _ .vmem, ⟨4, _⟩ => ⟨S64x64, .bf16⟩
  | .local _ .vmem, ⟨5, _⟩ => ⟨S64x64, .bf16⟩
  | .local _ .vmem, ⟨6, _⟩ => ⟨S64x64, .bf16⟩
  | .local _ .vmem, ⟨7, _⟩ => ⟨S64x64, .bf16⟩
  | _, _ => ⟨S64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_dev4 (d0 : Dev nD) : Nat :=
  let c0_i32_37 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_36 : BitVec 32 := 4#32
  let v52 : BitVec 32 := Scalar.muli v9 c4_i32_36
  let v53 : BitVec 32 := Scalar.addi c0_i32_37 v52
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v54 : BitVec 32 := Scalar.muli v5 c2_i32_38
  let v55 : BitVec 32 := Scalar.addi v53 v54
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v56 : BitVec 32 := Scalar.muli v8 c1_i32_39
  let v57 : BitVec 32 := Scalar.addi v55 v56
  v57.toNat
def k0_dev5 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v62 : BitVec 32 := Scalar.muli v2 c4_i32_42
  let v63 : BitVec 32 := Scalar.addi c0_i32_43 v62
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_44 : BitVec 32 := 2#32
  let v64 : BitVec 32 := Scalar.muli v10 c2_i32_44
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v66 : BitVec 32 := Scalar.muli v8 c1_i32_45
  let v67 : BitVec 32 := Scalar.addi v65 v66
  v67.toNat
def k0_dev6 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v72 : BitVec 32 := Scalar.muli v2 c4_i32_48
  let v73 : BitVec 32 := Scalar.addi c0_i32_49 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v74 : BitVec 32 := Scalar.muli v5 c2_i32_50
  let v75 : BitVec 32 := Scalar.addi v73 v74
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_51 : BitVec 32 := 1#32
  let v76 : BitVec 32 := Scalar.muli v11 c1_i32_51
  let v77 : BitVec 32 := Scalar.addi v75 v76
  v77.toNat
def k0_off1 (d0 : Dev nD) : Fin 3 → Nat :=
  let c1_i32_83 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v140 : BitVec 32 := Scalar.subi c1_i32_83 v2
  let c63_i32 : BitVec 32 := 63#32
  let v141 : BitVec 32 := Scalar.muli v140 c63_i32
  let v172 : Index := Scalar.indexCast v141
  let c0_97 : Index := 0#32
  let c0_98 : Index := 0#32
  ![v172.toNat, 0, 0]
def k0_off2 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c63_i32_84 : BitVec 32 := 63#32
  let v142 : BitVec 32 := Scalar.muli v2 c63_i32_84
  let v181 : Index := Scalar.indexCast v142
  let c0_101 : Index := 0#32
  let c0_102 : Index := 0#32
  ![v181.toNat, 0, 0]
abbrev stage0_0 : Fin 1 → Memref sig .tc .vmem S64x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S64x64x64_S64x64x64_0_0_0 : ∀ a, (![0, 0, 0] : Fin 3 → Nat) a + S64x64x64.size a ≤ S64x64x64.size a
  h_S64x64x64 : 0 < S64x64x64.numel
  shapeCasts_S64x64x64_S64x64x64 : S64x64x64.ShapeCasts S64x64x64
  bitsLt_bf16_f32 : FTy.bits .bf16 < FTy.bits .f32
  slices_S64x64x64_o63_0_0_S1x64x64 : S64x64x64.Slices ![63, 0, 0] S1x64x64
  shapeCasts_S1x64x64_S64x64 : S1x64x64.ShapeCasts S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S64x64_S64x64_0_0 : (Rect.unit (s := S64x64) ![0, 0] S64x64.size inb_S64x64_S64x64_0_0).PackedRows (EltTy.packing .bf16)
  slices_S64x64x64_o0_0_0_S1x64x64 : S64x64x64.Slices ![0, 0, 0] S1x64x64
  slices_S64x64x64_o0_63_0_S64x1x64 : S64x64x64.Slices ![0, 63, 0] S64x1x64
  shapeCasts_S64x1x64_S64x64 : S64x1x64.ShapeCasts S64x64
  slices_S64x64x64_o0_0_0_S64x1x64 : S64x64x64.Slices ![0, 0, 0] S64x1x64
  slices_S64x64x64_o0_0_63_S64x64x1 : S64x64x64.Slices ![0, 0, 63] S64x64x1
  shapeCasts_S64x64x1_S64x64 : S64x64x1.ShapeCasts S64x64
  slices_S64x64x64_o0_0_0_S64x64x1 : S64x64x64.Slices ![0, 0, 0] S64x64x1
  hamt_3 : (3#32 : BitVec 32).msb = false
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  slices_S64x64x64_o0_0_0_S63x64x64 : S64x64x64.Slices ![0, 0, 0] S63x64x64
  concatenates_S1x64x64_S63x64x64_S64x64x64_d0 : Shape.Concatenates [S1x64x64, S63x64x64] S64x64x64 0
  slices_S64x64x64_o1_0_0_S63x64x64 : S64x64x64.Slices ![1, 0, 0] S63x64x64
  concatenates_S63x64x64_S1x64x64_S64x64x64_d0 : Shape.Concatenates [S63x64x64, S1x64x64] S64x64x64 0
  shapeCasts_S1x64x64_S64x1x64 : S1x64x64.ShapeCasts S64x1x64
  slices_S64x64x64_o0_0_0_S64x63x64 : S64x64x64.Slices ![0, 0, 0] S64x63x64
  concatenates_S64x1x64_S64x63x64_S64x64x64_d1 : Shape.Concatenates [S64x1x64, S64x63x64] S64x64x64 1
  slices_S64x64x64_o0_1_0_S64x63x64 : S64x64x64.Slices ![0, 1, 0] S64x63x64
  concatenates_S64x63x64_S64x1x64_S64x64x64_d1 : Shape.Concatenates [S64x63x64, S64x1x64] S64x64x64 1
  shapeCasts_S1x64x64_S64x64x1 : S1x64x64.ShapeCasts S64x64x1
  slices_S64x64x64_o0_0_0_S64x64x63 : S64x64x64.Slices ![0, 0, 0] S64x64x63
  concatenates_S64x64x1_S64x64x63_S64x64x64_d2 : Shape.Concatenates [S64x64x1, S64x64x63] S64x64x64 2
  slices_S64x64x64_o0_0_1_S64x64x63 : S64x64x64.Slices ![0, 0, 1] S64x64x63
  concatenates_S64x64x63_S64x64x1_S64x64x64_d2 : Shape.Concatenates [S64x64x63, S64x64x1] S64x64x64 2
  packedbf16_S64x64x64_S64x64x64_0_0_0 : (Rect.unit (s := S64x64x64) ![0, 0, 0] S64x64x64.size inb_S64x64x64_S64x64x64_0_0_0).PackedRows (EltTy.packing .bf16)
  iota_S64x64_d0_w32 : S64x64.Iotas .tc 32 [0]
  iota_S64x64_d1_w32 : S64x64.Iotas .tc 32 [1]
  h_S1x64x64 : 0 < S1x64x64.numel
  shapeCasts_S64x64_S1x64x64 : S64x64.ShapeCasts S1x64x64
  shapeCasts_S1x64x64_S1x64x64 : S1x64x64.ShapeCasts S1x64x64
  inb_S64x64x64_S64x1x64_0_0_0 : ∀ a, (![0, 0, 0] : Fin 3 → Nat) a + S64x1x64.size a ≤ S64x64x64.size a
  h_S64x1x64 : 0 < S64x1x64.numel
  shapeCasts_S64x64_S64x1x64 : S64x64.ShapeCasts S64x1x64
  inb_S64x64x64_S64x2x64_0_0_0 : ∀ a, (![0, 0, 0] : Fin 3 → Nat) a + S64x2x64.size a ≤ S64x64x64.size a
  h_S64x2x64 : 0 < S64x2x64.numel
  slices_S64x2x64_S64x1x64_0_0_0 : S64x2x64.Slices ![0, 0, 0] S64x1x64
  packedbf16_S64x64x64_S64x2x64_0_0_0 : (Rect.unit (s := S64x64x64) ![0, 0, 0] S64x2x64.size inb_S64x64x64_S64x2x64_0_0_0).PackedRows (EltTy.packing .bf16)
  inb_S64x64x64_S64x1x64_0_63_0 : ∀ a, (![0, 63, 0] : Fin 3 → Nat) a + S64x1x64.size a ≤ S64x64x64.size a
  inb_S64x64x64_S64x2x64_0_62_0 : ∀ a, (![0, 62, 0] : Fin 3 → Nat) a + S64x2x64.size a ≤ S64x64x64.size a
  slices_S64x2x64_S64x1x64_0_1_0 : S64x2x64.Slices ![0, 1, 0] S64x1x64
  packedbf16_S64x64x64_S64x2x64_0_62_0 : (Rect.unit (s := S64x64x64) ![0, 62, 0] S64x2x64.size inb_S64x64x64_S64x2x64_0_62_0).PackedRows (EltTy.packing .bf16)
  inb_S64x64x64_S64x64x1_0_0_0 : ∀ a, (![0, 0, 0] : Fin 3 → Nat) a + S64x64x1.size a ≤ S64x64x64.size a
  h_S64x64x1 : 0 < S64x64x1.numel
  shapeCasts_S64x64_S64x64x1 : S64x64.ShapeCasts S64x64x1
  packedbf16_S64x64x64_S64x64x1_0_0_0 : (Rect.unit (s := S64x64x64) ![0, 0, 0] S64x64x1.size inb_S64x64x64_S64x64x1_0_0_0).PackedRows (EltTy.packing .bf16)
  inb_S64x64x64_S64x64x1_0_0_63 : ∀ a, (![0, 0, 63] : Fin 3 → Nat) a + S64x64x1.size a ≤ S64x64x64.size a
  packedbf16_S64x64x64_S64x64x1_0_0_63 : (Rect.unit (s := S64x64x64) ![0, 0, 63] S64x64x1.size inb_S64x64x64_S64x64x1_0_0_63).PackedRows (EltTy.packing .bf16)
  inb_S2_S1_0 : ∀ a, (![0] : Fin 1 → Nat) a + S1.size a ≤ S2.size a
  hcc0_scratch7 : 1 + S3.numel ≤ 9
  hcc0_scratch8 : 4 + S3.numel ≤ 9
  hcc0_scratch9 : 7 + S2.numel ≤ 9
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off1_inb : ∀ d0 : Dev nD, ∀ a, (k0_off1 d0) a + S1x64x64.size a ≤ S64x64x64.size a
  k0_off1_packedbf16 : ∀ d0 : Dev nD, (Rect.unit (s := S64x64x64) (k0_off1 d0) S1x64x64.size (k0_off1_inb d0)).PackedRows (EltTy.packing .bf16)
  k0_off2_inb : ∀ d0 : Dev nD, ∀ a, (k0_off2 d0) a + S1x64x64.size a ≤ S64x64x64.size a
  k0_off2_packedbf16 : ∀ d0 : Dev nD, (Rect.unit (s := S64x64x64) (k0_off2 d0) S1x64x64.size (k0_off2_inb d0)).PackedRows (EltTy.packing .bf16)
  hstage0_0 : ∀ j, (stage0_0 j).IsWhole

variable [Facts₀]

abbrev cc0_scratch7 : DmaSems sig S3 := SemArray.consecutive 1 S3 hcc0_scratch7
abbrev cc0_scratch8 : DmaSems sig S3 := SemArray.consecutive 4 S3 hcc0_scratch8
abbrev cc0_scratch9 : DmaSems sig S2 := SemArray.consecutive 7 S2 hcc0_scratch9

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S128x128x128 : Shape := ⟨3, ![128, 128, 128]⟩
abbrev S_ : Shape := ⟨0, ![]⟩
abbrev S126x126x126 : Shape := ⟨3, ![126, 126, 126]⟩
abbrev S1 : Shape := ⟨1, ![1]⟩
abbrev S3 : Shape := ⟨1, ![3]⟩

abbrev nBuf : Space → Nat
  | .hbm => 28
  | .vmem => 0
  | .smem => 0
  | _ => 0

abbrev bufTy : (tb : Table) → Fin (tcTables nBuf tb) → BufTy
  | .hbm, ⟨0, _⟩ => ⟨S128x128x128, .f32⟩
  | .hbm, ⟨1, _⟩ => ⟨S_, .f32⟩
  | .hbm, ⟨2, _⟩ => ⟨S128x128x128, .f32⟩
  | .hbm, ⟨3, _⟩ => ⟨S126x126x126, .f32⟩
  | .hbm, ⟨4, _⟩ => ⟨S126x126x126, .f32⟩
  | .hbm, ⟨5, _⟩ => ⟨S126x126x126, .f32⟩
  | .hbm, ⟨6, _⟩ => ⟨S126x126x126, .f32⟩
  | .hbm, ⟨7, _⟩ => ⟨S126x126x126, .f32⟩
  | .hbm, ⟨8, _⟩ => ⟨S126x126x126, .f32⟩
  | .hbm, ⟨9, _⟩ => ⟨S126x126x126, .f32⟩
  | .hbm, ⟨10, _⟩ => ⟨S126x126x126, .f32⟩
  | .hbm, ⟨11, _⟩ => ⟨S126x126x126, .f32⟩
  | .hbm, ⟨12, _⟩ => ⟨S126x126x126, .f32⟩
  | .hbm, ⟨13, _⟩ => ⟨S126x126x126, .f32⟩
  | .hbm, ⟨14, _⟩ => ⟨S126x126x126, .f32⟩
  | .hbm, ⟨15, _⟩ => ⟨S_, .f32⟩
  | .hbm, ⟨16, _⟩ => ⟨S126x126x126, .f32⟩
  | .hbm, ⟨17, _⟩ => ⟨S126x126x126, .f32⟩
  | .hbm, ⟨18, _⟩ => ⟨S126x126x126, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S128x128x128, .f32⟩
  | .hbm, ⟨27, _⟩ => ⟨S128x128x128, .bf16⟩
  | _, _ => ⟨S128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  bcast_S_S128x128x128 : S_.BroadcastsInDim S128x128x128 (![] : Fin 0 → Fin S128x128x128.rank)
  slices_S128x128x128_S126x126x126_0_1_1 : S128x128x128.Slices ![0, 1, 1] S126x126x126
  slices_S128x128x128_S126x126x126_2_1_1 : S128x128x128.Slices ![2, 1, 1] S126x126x126
  slices_S128x128x128_S126x126x126_1_0_1 : S128x128x128.Slices ![1, 0, 1] S126x126x126
  slices_S128x128x128_S126x126x126_1_2_1 : S128x128x128.Slices ![1, 2, 1] S126x126x126
  slices_S128x128x128_S126x126x126_1_1_0 : S128x128x128.Slices ![1, 1, 0] S126x126x126
  slices_S128x128x128_S126x126x126_1_1_2 : S128x128x128.Slices ![1, 1, 2] S126x126x126
  slices_S128x128x128_S126x126x126_1_1_1 : S128x128x128.Slices ![1, 1, 1] S126x126x126
  bcast_S_S126x126x126 : S_.BroadcastsInDim S126x126x126 (![] : Fin 0 → Fin S126x126x126.rank)
  bcast_S_S1 : S_.BroadcastsInDim S1 (![] : Fin 0 → Fin S1.rank)
  concatenates_S1_S1_S1_S3_d0 : Shape.Concatenates [S1, S1, S1] S3 0
  bitsLt_bf16_f32 : FTy.bits .bf16 < FTy.bits .f32
  scatter_S128x128x128_S3_S126x126x126_012_n_012_0_wf : ScatterDims.WF S128x128x128 S3 S126x126x126 [0, 1, 2] [] [0, 1, 2] 0

variable [Facts₀]

def scatter_S128x128x128_S3_S126x126x126_012_n_012_0 : ScatterDims S128x128x128 S3 S126x126x126 where
  updateWindowDims := [0, 1, 2]
  insertedWindowDims := []
  scatterDimsToOperandDims := [0, 1, 2]
  indexVectorDim := 0
  wf := scatter_S128x128x128_S3_S126x126x126_012_n_012_0_wf

class Facts : Prop extends Facts₀ where

variable [Facts]
-- ==== Proof.Sched.lean ====
/-
  The halo exchange's protocol on the 2 × 2 × 2 mesh. A device has three neighbours, one across each cut
  (`peer a c`: the device whose coordinate on axis `a` is the other one; an involution). Every device signals its
  three neighbours' barrier semaphore, waits for three units on its own, sends the face plane that borders neighbour
  `a` into that neighbour's receive plane `a`, and waits for its three departures and its three arrivals.
  Seven semaphore cells a device: the barrier (three duties, one paid by each neighbour, each handing over that
  neighbour's receive plane for the axis and the fact that the neighbour stands at round 0 of its receive cell),
  three departure cells (the source plane comes back) and three arrival cells (the receive plane, holding the
  neighbour's face plane). What a device owes at launch: a unit to each neighbour's barrier, a plane's credit to each
  neighbour's arrival cell. Levels: arrival cells above barrier cells above everything else.
-/
import proofs.«900807_g7700000000000808_dist_halo3d_v7x_xyz2x2x2_s64_bf16_1_alg».proof.Proof.Gen.KernelIdeal
import proofs.«900807_g7700000000000808_dist_halo3d_v7x_xyz2x2x2_s64_bf16_1_alg».proof.Proof.Gen.KernelIdeal.Skeleton
import proofs.«900807_g7700000000000808_dist_halo3d_v7x_xyz2x2x2_s64_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by axis) -/

abbrev UB : Type := URounds (GSem nD τ sig) (Fin 3)
/-- Three components side by side: the pipeline library's copy, the exchange's, and the exclusive counters the
    result copy's flight takes its tokens from. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb

instance ER_landsIn : (ER (F := F)).LandsIn (upEmb : UEmb _ (MT nD τ sig Unit (Elt F) ℕ UU ℕ)) := by
  unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The neighbour across the cut of axis `a`: device numbers are row-major over (x, y, z), so the x-neighbour is
    four away, the y-neighbour two, the z-neighbour one. -/
def peer (a : Fin 3) (c : Dev nD) : Dev nD :=
  (![![4, 5, 6, 7, 0, 1, 2, 3], ![2, 3, 0, 1, 6, 7, 4, 5], ![1, 0, 3, 2, 5, 4, 7, 6]] : Fin 3 → Fin 8 → Fin 8) a c

theorem peer_peer (a : Fin 3) (c : Dev nD) : peer a (peer a c) = c := by revert a c; decide

/-- The kernel's `device_id` chains: the three signals and the three transfers name the three neighbours in axis order. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

def swap (a : Fin 3) : Dev nD ≃ Dev nD := ⟨peer a, peer a, peer_peer a, peer_peer a⟩

/-! ## The memrefs and cells -/

abbrev xM : Memref sig .tc .vmem S64x64x64 .f32 := Memref.whole cc0_stg0_0
abbrev oM : Memref sig .tc .hbm S64x64x64 .bf16 := Memref.whole main_v1
abbrev vM : Memref sig .tc .vmem S64x64x64 .bf16 := Memref.whole cc0_scratch0
/-- The plane sent along axis `a` and the plane received along it. -/
abbrev sM : Fin 3 → Memref sig .tc .vmem S64x64 .bf16
  | 0 => Memref.whole cc0_scratch1 | 1 => Memref.whole cc0_scratch2 | 2 => Memref.whole cc0_scratch3
abbrev rM : Fin 3 → Memref sig .tc .vmem S64x64 .bf16
  | 0 => Memref.whole cc0_scratch4 | 1 => Memref.whole cc0_scratch5 | 2 => Memref.whole cc0_scratch6

/-- The runtime's barrier semaphore of collective id 0 (unscoped); the departure and arrival DMA semaphores of axis `a`. -/
abbrev barS : Sem sig := (SemArray.scalar (sig.barrier 0 rfl) : Sems sig S_).sem
abbrev sendS : Fin 3 → DmaSem sig
  | 0 => ((cc0_scratch7.slice (Rect.unit (s := S3) ![0] S1.size inb_S3_S1_0)).squeeze S_ squeezes_S1_S_).sem
  | 1 => ((cc0_scratch7.slice (Rect.unit (s := S3) ![1] S1.size inb_S3_S1_1)).squeeze S_ squeezes_S1_S_).sem
  | 2 => ((cc0_scratch7.slice (Rect.unit (s := S3) ![2] S1.size inb_S3_S1_2)).squeeze S_ squeezes_S1_S_).sem
abbrev recvS : Fin 3 → DmaSem sig
  | 0 => ((cc0_scratch8.slice (Rect.unit (s := S3) ![0] S1.size inb_S3_S1_0)).squeeze S_ squeezes_S1_S_).sem
  | 1 => ((cc0_scratch8.slice (Rect.unit (s := S3) ![1] S1.size inb_S3_S1_1)).squeeze S_ squeezes_S1_S_).sem
  | 2 => ((cc0_scratch8.slice (Rect.unit (s := S3) ![2] S1.size inb_S3_S1_2)).squeeze S_ squeezes_S1_S_).sem
/-- The semaphore of the copy of the finished block out to the result array. -/
abbrev outS : DmaSem sig := ((cc0_scratch9.slice (Rect.unit (s := S2) ![0] S1.size inb_S2_S1_0)).squeeze S_ squeezes_S1_S_).sem

abbrev barCell (c : Dev nD) : GSem nD τ sig := ((c : Thread nD τ), .reg barS)
abbrev sendCell (a : Fin 3) (c : Dev nD) : GSem nD τ sig := ((c : Thread nD τ), .dma (sendS a))
abbrev recvCell (a : Fin 3) (c : Dev nD) : GSem nD τ sig := ((c : Thread nD τ), .dma (recvS a))

theorem sendS_val (a : Fin 3) : (sendS a).val = 1 + a.val := by revert a; decide
theorem recvS_val (a : Fin 3) : (recvS a).val = 4 + a.val := by revert a; decide

abbrev N : ℕ := (rM 0 : Memref sig .tc .vmem S64x64 .bf16).view.dmaCredit
theorem N_pos : 0 < N := View.dmaCredit_pos _ (by decide)

/-! ## Contents -/

/-- A device's block of the argument, as the pipeline stages it. -/
def xblk (c : Dev nD) : (cc0_stg0_0 : Ref sig .tc).ty.Contents (Elt F) :=
  (win0_0.blk (0 : Fin 1)).view.read (Elt F) ((s₀ m ρ).mem ((c : Thread nD τ).loc main_arg0))

/-- The face plane a device sends along axis `a`: of its converted block, the last plane along the axis for a device in
    the lower half of the mesh along it (the plane that borders the neighbour above), the first plane for one in the upper. -/
def sPlane (a : Fin 3) (c : Dev nD) : FVec F S64x64 .bf16 :=
  match a with
  | 0 => if c.val / 4 = 0 then k0_pay12 (xblk m ρ c) else k0_pay13 (xblk m ρ c)
  | 1 => if c.val / 2 % 2 = 0 then k0_pay14 (xblk m ρ c) else k0_pay15 (xblk m ρ c)
  | 2 => if c.val % 2 = 0 then k0_pay16 (xblk m ρ c) else k0_pay17 (xblk m ρ c)

/-- What lands in a device's receive plane `a`: its neighbour's face plane. -/
def landed (a : Fin 3) (c : Dev nD) : FVec F S64x64 .bf16 := sPlane m ρ a (peer a c)

/-- The send plane of axis `a` on device `c`, whole, holding `f`; the receive plane likewise. -/
def sPts (a : Fin 3) (c : Dev nD) (f : FVec F S64x64 .bf16) : sProp 𝕄 :=
  match a with
  | 0 => (sM 0 : Memref sig .tc .vmem S64x64 .bf16).view.loc (c : Thread nD τ) ↦[(sM 0 : Memref sig .tc .vmem S64x64 .bf16).view.set]{fullShare} f
  | 1 => (sM 1 : Memref sig .tc .vmem S64x64 .bf16).view.loc (c : Thread nD τ) ↦[(sM 1 : Memref sig .tc .vmem S64x64 .bf16).view.set]{fullShare} f
  | 2 => (sM 2 : Memref sig .tc .vmem S64x64 .bf16).view.loc (c : Thread nD τ) ↦[(sM 2 : Memref sig .tc .vmem S64x64 .bf16).view.set]{fullShare} f
def rPts (a : Fin 3) (c : Dev nD) (f : FVec F S64x64 .bf16) : sProp 𝕄 :=
  match a with
  | 0 => (rM 0 : Memref sig .tc .vmem S64x64 .bf16).view.loc (c : Thread nD τ) ↦[(rM 0 : Memref sig .tc .vmem S64x64 .bf16).view.set]{fullShare} f
  | 1 => (rM 1 : Memref sig .tc .vmem S64x64 .bf16).view.loc (c : Thread nD τ) ↦[(rM 1 : Memref sig .tc .vmem S64x64 .bf16).view.set]{fullShare} f
  | 2 => (rM 2 : Memref sig .tc .vmem S64x64 .bf16).view.loc (c : Thread nD τ) ↦[(rM 2 : Memref sig .tc .vmem S64x64 .bf16).view.set]{fullShare} f

omit [FloatOps F] in
instance sPts_storable (a : Fin 3) (c : Dev nD) (f) : BI.Storable (upEmb : UEmb _ 𝕄) (sPts (F := F) a c f) := by
  unfold sPts; split <;> infer_instance
omit [FloatOps F] in
instance rPts_storable (a : Fin 3) (c : Dev nD) (f) : BI.Storable (upEmb : UEmb _ 𝕄) (rPts (F := F) a c f) := by
  unfold rPts; split <;> infer_instance

/-! ## The schedule -/

/-- What neighbour `peer a c`'s signal (duty `a` of `c`'s barrier cell) hands `c`: that neighbour's receive plane of
    the axis, at some contents, and that the neighbour has reached round 0 of its arrival cell of the axis. -/
def barPay (a : Fin 3) (c : Dev nD) : sProp 𝕄 := iprop((∃ f, rPts a (peer a c) f) ∗ reached ER (recvCell a (peer a c)) 0)
/-- An arrival hands over the receive plane holding the neighbour's face plane; a departure the send plane back. -/
def recvPay (a : Fin 3) (c : Dev nD) : sProp 𝕄 := rPts a c (landed m ρ a c)
def sendPay (a : Fin 3) (c : Dev nD) : sProp 𝕄 := sPts a c (sPlane m ρ a c)

/-- One round, round 0. A TensorCore's regular semaphore is the barrier: three duties, one a neighbour, a unit each.
    Its DMA semaphores 1 to 3 are the departure cells and 4 to 6 the arrival cells, one duty each of a plane's credit. -/
def ringRd : Rounds.Schedule (GSem nD τ sig) (Fin 3) 𝕄 where
  duties g r :=
    if r = 0 ∧ g.1.2 = .tc then
      (match g.2 with
        | .reg _ => Finset.univ
        | .dma q => if 1 ≤ q.val ∧ q.val ≤ 6 then {0} else ∅)
    else ∅
  unitless _ := False
  amount g _ _ := match g.2 with | .reg _ => 1 | .dma _ => N
  payload g _ d :=
    match g.2 with
    | .reg _ => barPay d g.1.1
    | .dma q =>
      if q.val = 1 then sendPay m ρ 0 g.1.1 else if q.val = 2 then sendPay m ρ 1 g.1.1 else if q.val = 3 then sendPay m ρ 2 g.1.1
      else if q.val = 4 then recvPay m ρ 0 g.1.1 else if q.val = 5 then recvPay m ρ 1 g.1.1 else if q.val = 6 then recvPay m ρ 2 g.1.1
      else iprop(emp)
  amount_pos g _ _ _ := by
    cases g.2 with
    | reg _ => exact Nat.one_pos
    | dma _ => exact N_pos

instance ringRd_payload_storable (g : GSem nD τ sig) (r : ℕ) (d : Fin 3) :
    BI.Storable (upEmb : UEmb _ 𝕄) ((ringRd (F := F) m ρ).payload g r d) := by
  show BI.Storable upEmb (match g.2 with
    | .reg _ => barPay d g.1.1
    | .dma q =>
      if q.val = 1 then sendPay m ρ 0 g.1.1 else if q.val = 2 then sendPay m ρ 1 g.1.1 else if q.val = 3 then sendPay m ρ 2 g.1.1
      else if q.val = 4 then recvPay m ρ 0 g.1.1 else if q.val = 5 then recvPay m ρ 1 g.1.1 else if q.val = 6 then recvPay m ρ 2 g.1.1
      else iprop(emp))
  unfold barPay recvPay sendPay
  (repeat' split) <;> infer_instance

section Sched
variable (c : Dev nD)

theorem duties_bar : (ringRd (F := F) m ρ).duties (barCell c) 0 = Finset.univ := rfl
theorem duties_send (a : Fin 3) : (ringRd (F := F) m ρ).duties (sendCell a c) 0 = {0} := by fin_cases a <;> rfl
theorem duties_recv (a : Fin 3) : (ringRd (F := F) m ρ).duties (recvCell a c) 0 = {0} := by fin_cases a <;> rfl
theorem duties_later (g : GSem nD τ sig) : ∀ r, 1 ≤ r → (ringRd (F := F) m ρ).duties g r = ∅ :=
  fun r hr => by dsimp only [ringRd]; rw [if_neg fun h => by omega]

theorem amount_bar (d : Fin 3) : (ringRd (F := F) m ρ).amount (barCell c) 0 d = 1 := rfl
theorem amount_send (a d : Fin 3) : (ringRd (F := F) m ρ).amount (sendCell a c) 0 d = N := rfl
theorem amount_recv (a d : Fin 3) : (ringRd (F := F) m ρ).amount (recvCell a c) 0 d = N := rfl

theorem expect_bar : (ringRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (a : Fin 3) : (ringRd (F := F) m ρ).expect (sendCell a c) 0 = N := by
  unfold Schedule.expect Schedule.amountOf; rw [duties_send, Finset.sum_singleton, amount_send]
theorem expect_recv (a : Fin 3) : (ringRd (F := F) m ρ).expect (recvCell a c) 0 = N := by
  unfold Schedule.expect Schedule.amountOf; rw [duties_recv, Finset.sum_singleton, amount_recv]

theorem payload_bar (d : Fin 3) : (ringRd (F := F) m ρ).payload (barCell c) 0 d = barPay d c := rfl
theorem payload_send (a d : Fin 3) : (ringRd (F := F) m ρ).payload (sendCell a c) 0 d = sendPay m ρ a c := by fin_cases a <;> rfl
theorem payload_recv (a d : Fin 3) : (ringRd (F := F) m ρ).payload (recvCell a c) 0 d = recvPay m ρ a c := by fin_cases a <;> rfl

/-- The rest of the barrier cell's round, no duty taken: the three neighbours' payloads. -/
theorem rest_bar : bigSep ((ringRd (F := F) m ρ).duties (barCell c) 0 \ ∅) (fun d => (ringRd (F := F) m ρ).payload (barCell c) 0 d)
    = iprop(barPay 0 c ∗ barPay 1 c ∗ barPay 2 c) := by
  rw [Finset.sdiff_empty, duties_bar, bigSep_univ_eq_bigSepL [0, 1, 2] (by decide) (by decide)]
  rfl
theorem rest_send (a : Fin 3) : bigSep ((ringRd (F := F) m ρ).duties (sendCell a c) 0 \ ∅) (fun d => (ringRd (F := F) m ρ).payload (sendCell a c) 0 d) = sendPay m ρ a c := by
  rw [Finset.sdiff_empty, duties_send, bigSep_singleton, payload_send]
theorem rest_recv (a : Fin 3) : bigSep ((ringRd (F := F) m ρ).duties (recvCell a c) 0 \ ∅) (fun d => (ringRd (F := F) m ρ).payload (recvCell a c) 0 d) = recvPay m ρ a c := by
  rw [Finset.sdiff_empty, duties_recv, bigSep_singleton, payload_recv]

end Sched

/-! ## What each device owes at launch; the levels -/

/-- A device owes each neighbour's arrival cell a plane's credit and each neighbour's barrier cell a unit — summed so
    that the signals, in axis order, peel the last three summands one after the other, and then the transfers, in
    axis order, the next three. -/
def O₃ (c : Dev nD) : CellTallies nD τ sig Unit :=
  tallyAt (recvCell 2 (peer 2 c)) () N + tallyAt (recvCell 1 (peer 1 c)) () N + tallyAt (recvCell 0 (peer 0 c)) () N
def O₂ (c : Dev nD) : CellTallies nD τ sig Unit := O₃ c + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1

def L (g : GSem nD τ sig) : Finset Unit := if g.1.2 = .tc then {()} else ∅
/-- Barrier cells at 1, arrival cells (DMA semaphores 4 to 6) at 2, everything else at 0. -/
def lv (g : GSem nD τ sig) (_ : Unit) : ℕ := match g.2 with | .reg _ => 1 | .dma q => if 4 ≤ q.val ∧ q.val ≤ 6 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (a : Fin 3) (c : Dev nD) : lv (recvCell a c) () = 2 := by fin_cases a <;> rfl

theorem tally_pos {g' g : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

/-- A cell the three arrival credits touch is a neighbour's arrival cell. -/
theorem O₃_pos {c : Dev nD} {g : GSem nD τ sig} {u : Unit} (h : 0 < O₃ c g u) : ∃ a, g = recvCell a (peer a c) := by
  unfold O₃ at h
  rcases Pipeline.add_pos_cases h with h | h
  · rcases Pipeline.add_pos_cases h with h | h
    · exact ⟨2, tally_pos h⟩
    · exact ⟨1, tally_pos h⟩
  · exact ⟨0, tally_pos h⟩

/-- A cell anything owed at launch touches is a neighbour's arrival cell or a neighbour's barrier cell. -/
theorem O₀_pos {c : Dev nD} {g : GSem nD τ sig} {u : Unit} (h : 0 < O₀ c g u) :
    (∃ a, g = recvCell a (peer a c)) ∨ (∃ a, g = barCell (peer a c)) := by
  unfold O₀ O₁ O₂ at h
  rcases Pipeline.add_pos_cases h with h | h
  · rcases Pipeline.add_pos_cases h with h | h
    · rcases Pipeline.add_pos_cases h with h | h
      · exact Or.inl (O₃_pos h)
      · exact Or.inr ⟨2, tally_pos h⟩
    · exact Or.inr ⟨1, tally_pos h⟩
  · exact Or.inr ⟨0, tally_pos h⟩

omit [FloatOps F] in
/-- A wait on a cell of level 0 (a staging, departure or result-copy cell) is allowed whatever of the launch's dues is
    still owed, or nothing. -/
theorem mayWait_low (c : Dev nD) (q : DmaSem sig) (hq : ¬ (4 ≤ q.val ∧ q.val ≤ 6)) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have hlow : lv ((c : Thread nD τ), SemLoc.dma q) () = 0 := by dsimp only [lv]; rw [if_neg hq]
    rcases O₀_pos hg with ⟨a, rfl⟩ | ⟨a, rfl⟩
    · exact ⟨by rw [L_tc]; exact Finset.mem_singleton_self _, by rw [hlow, lv_recv]; decide⟩
    · exact ⟨by rw [L_tc]; exact Finset.mem_singleton_self _, by rw [hlow, lv_bar]; decide⟩
  · rw [MayWait_zero]; iintro -; iempintro

omit [FloatOps F] in
/-- At its barrier wait a device owes the three arrival credits only: arrival cells, above its barrier cell. -/
theorem mayWait_bar (c : Dev nD) :
    (levAts L lv : sProp 𝕄) ⊢ MayWait (c : Thread nD τ) (.reg barS) () (O₃ c) :=
  Pipeline.mayWait_of_levAts (by rw [L_tc]; exact Finset.mem_singleton_self _) fun g i hg => by
    obtain ⟨a, rfl⟩ := O₃_pos hg
    exact ⟨by rw [L_tc]; exact Finset.mem_singleton_self _, by rw [lv_recv]; show (1 : ℕ) < 2; decide⟩

/-! ## The result copy's semaphores; the variants -/

/-- The two semaphores of the result copy's array (the copy uses the first). -/
abbrev out2S : DmaSem sig := ⟨8, by decide⟩
abbrev outCell (c : Dev nD) : GSem nD τ sig := ((c : Thread nD τ), .dma outS)
abbrev out2Cell (c : Dev nD) : GSem nD τ sig := ((c : Thread nD τ), .dma out2S)

abbrev 𝒱₀ : Variants := Variants.none

end Cert.KernelIdeal.Halo

end
-- ==== Proof.Tables.lean ====
/-
  The schedule's tables at each axis, with the planes spelt as the buffers they are and each axis's departure and
  arrival cell named by itself: what a duty of each cell hands over, seen from the device that pays it and from the
  device that waits for it.
-/
import proofs.«900807_g7700000000000808_dist_halo3d_v7x_xyz2x2x2_s64_bf16_1_alg».proof.Proof.Sched

noncomputable section

namespace Cert.KernelIdeal.Halo

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

theorem duties_bar3 (c : Dev nD) : (ringRd (F := F) m ρ).duties (barCell c) 0 = {0, 1, 2} := by
  rw [duties_bar]; decide

/-! ### Axis 0 -/

/-- The departure and the arrival semaphore of axis 0, and their cells on a device. -/
abbrev sendS0 : DmaSem sig := ((cc0_scratch7.slice (Rect.unit (s := S3) ![0] S1.size inb_S3_S1_0)).squeeze S_ squeezes_S1_S_).sem
abbrev recvS0 : DmaSem sig := ((cc0_scratch8.slice (Rect.unit (s := S3) ![0] S1.size inb_S3_S1_0)).squeeze S_ squeezes_S1_S_).sem
abbrev sendCell0 (c : Dev nD) : GSem nD τ sig := ((c : Thread nD τ), .dma sendS0)
abbrev recvCell0 (c : Dev nD) : GSem nD τ sig := ((c : Thread nD τ), .dma recvS0)
theorem sendCell0_eq (c : Dev nD) : sendCell0 c = sendCell 0 c := rfl
theorem recvCell0_eq (c : Dev nD) : recvCell0 c = recvCell 0 c := rfl

theorem duties_send0 (c : Dev nD) : (ringRd (F := F) m ρ).duties (sendCell0 c) 0 = {0} := duties_send m ρ c 0
theorem duties_recv0 (c : Dev nD) : (ringRd (F := F) m ρ).duties (recvCell0 c) 0 = {0} := duties_recv m ρ c 0
theorem amount_send0 (c : Dev nD) (d : Fin 3) : (ringRd (F := F) m ρ).amount (sendCell0 c) 0 d = N := amount_send m ρ c 0 d
theorem amount_recv0 (c : Dev nD) (d : Fin 3) : (ringRd (F := F) m ρ).amount (recvCell0 c) 0 d = N := amount_recv m ρ c 0 d
theorem expect_send0 (c : Dev nD) : (ringRd (F := F) m ρ).expect (sendCell0 c) 0 = N := expect_send m ρ c 0
theorem expect_recv0 (c : Dev nD) : (ringRd (F := F) m ρ).expect (recvCell0 c) 0 = N := expect_recv m ρ c 0

theorem bar_pay_peer0 (c : Dev nD) : (ringRd (F := F) m ρ).payload (barCell (peer 0 c)) 0 0
    = iprop((∃ f, ((Memref.whole cc0_scratch4 : Memref sig .tc .vmem S64x64 .bf16).view.loc (c : Thread nD τ) ↦[(Memref.whole cc0_scratch4 : Memref sig .tc .vmem S64x64 .bf16).view.set]{fullShare} f)) ∗ reached ER (recvCell0 c) 0) := by
  rw [payload_bar]; unfold barPay; rw [peer_peer]; rfl
theorem bar_pay0 (c : Dev nD) : (ringRd (F := F) m ρ).payload (barCell c) 0 0
    = iprop((∃ f, ((Memref.whole cc0_scratch4 : Memref sig .tc .vmem S64x64 .bf16).view.loc (peer 0 c : Thread nD τ) ↦[(Memref.whole cc0_scratch4 : Memref sig .tc .vmem S64x64 .bf16).view.set]{fullShare} f)) ∗ reached ER (recvCell0 (peer 0 c)) 0) := by
  rw [payload_bar]; rfl
theorem send_pay0 (c : Dev nD) : (ringRd (F := F) m ρ).payload (sendCell0 c) 0 0
    = ((Memref.whole cc0_scratch1 : Memref sig .tc .vmem S64x64 .bf16).view.loc (c : Thread nD τ) ↦[(Memref.whole cc0_scratch1 : Memref sig .tc .vmem S64x64 .bf16).view.set]{fullShare} sPlane m ρ 0 c) := by
  show (ringRd (F := F) m ρ).payload (sendCell 0 c) 0 0 = _
  rw [payload_send]; rfl
theorem recv_pay0 (c : Dev nD) : (ringRd (F := F) m ρ).payload (recvCell0 c) 0 0
    = ((Memref.whole cc0_scratch4 : Memref sig .tc .vmem S64x64 .bf16).view.loc (c : Thread nD τ) ↦[(Memref.whole cc0_scratch4 : Memref sig .tc .vmem S64x64 .bf16).view.set]{fullShare} landed m ρ 0 c) := by
  show (ringRd (F := F) m ρ).payload (recvCell 0 c) 0 0 = _
  rw [payload_recv]; rfl
theorem recv_pay_peer0 (c : Dev nD) : (ringRd (F := F) m ρ).payload (recvCell0 (peer 0 c)) 0 0
    = ((Memref.whole cc0_scratch4 : Memref sig .tc .vmem S64x64 .bf16).view.loc (peer 0 c : Thread nD τ) ↦[(Memref.whole cc0_scratch4 : Memref sig .tc .vmem S64x64 .bf16).view.set]{fullShare} sPlane m ρ 0 c) := by
  show (ringRd (F := F) m ρ).payload (recvCell 0 (peer 0 c)) 0 0 = _
  rw [payload_recv]; unfold recvPay landed; rw [peer_peer]; rfl

/-! ### Axis 1 -/

/-- The departure and the arrival semaphore of axis 1, and their cells on a device. -/
abbrev sendS1 : DmaSem sig := ((cc0_scratch7.slice (Rect.unit (s := S3) ![1] S1.size inb_S3_S1_1)).squeeze S_ squeezes_S1_S_).sem
abbrev recvS1 : DmaSem sig := ((cc0_scratch8.slice (Rect.unit (s := S3) ![1] S1.size inb_S3_S1_1)).squeeze S_ squeezes_S1_S_).sem
abbrev sendCell1 (c : Dev nD) : GSem nD τ sig := ((c : Thread nD τ), .dma sendS1)
abbrev recvCell1 (c : Dev nD) : GSem nD τ sig := ((c : Thread nD τ), .dma recvS1)
theorem sendCell1_eq (c : Dev nD) : sendCell1 c = sendCell 1 c := rfl
theorem recvCell1_eq (c : Dev nD) : recvCell1 c = recvCell 1 c := rfl

theorem duties_send1 (c : Dev nD) : (ringRd (F := F) m ρ).duties (sendCell1 c) 0 = {0} := duties_send m ρ c 1
theorem duties_recv1 (c : Dev nD) : (ringRd (F := F) m ρ).duties (recvCell1 c) 0 = {0} := duties_recv m ρ c 1
theorem amount_send1 (c : Dev nD) (d : Fin 3) : (ringRd (F := F) m ρ).amount (sendCell1 c) 0 d = N := amount_send m ρ c 1 d
theorem amount_recv1 (c : Dev nD) (d : Fin 3) : (ringRd (F := F) m ρ).amount (recvCell1 c) 0 d = N := amount_recv m ρ c 1 d
theorem expect_send1 (c : Dev nD) : (ringRd (F := F) m ρ).expect (sendCell1 c) 0 = N := expect_send m ρ c 1
theorem expect_recv1 (c : Dev nD) : (ringRd (F := F) m ρ).expect (recvCell1 c) 0 = N := expect_recv m ρ c 1

theorem bar_pay_peer1 (c : Dev nD) : (ringRd (F := F) m ρ).payload (barCell (peer 1 c)) 0 1
    = iprop((∃ f, ((Memref.whole cc0_scratch5 : Memref sig .tc .vmem S64x64 .bf16).view.loc (c : Thread nD τ) ↦[(Memref.whole cc0_scratch5 : Memref sig .tc .vmem S64x64 .bf16).view.set]{fullShare} f)) ∗ reached ER (recvCell1 c) 0) := by
  rw [payload_bar]; unfold barPay; rw [peer_peer]; rfl
theorem bar_pay1 (c : Dev nD) : (ringRd (F := F) m ρ).payload (barCell c) 0 1
    = iprop((∃ f, ((Memref.whole cc0_scratch5 : Memref sig .tc .vmem S64x64 .bf16).view.loc (peer 1 c : Thread nD τ) ↦[(Memref.whole cc0_scratch5 : Memref sig .tc .vmem S64x64 .bf16).view.set]{fullShare} f)) ∗ reached ER (recvCell1 (peer 1 c)) 0) := by
  rw [payload_bar]; rfl
theorem send_pay1 (c : Dev nD) : (ringRd (F := F) m ρ).payload (sendCell1 c) 0 0
    = ((Memref.whole cc0_scratch2 : Memref sig .tc .vmem S64x64 .bf16).view.loc (c : Thread nD τ) ↦[(Memref.whole cc0_scratch2 : Memref sig .tc .vmem S64x64 .bf16).view.set]{fullShare} sPlane m ρ 1 c) := by
  show (ringRd (F := F) m ρ).payload (sendCell 1 c) 0 0 = _
  rw [payload_send]; rfl
theorem recv_pay1 (c : Dev nD) : (ringRd (F := F) m ρ).payload (recvCell1 c) 0 0
    = ((Memref.whole cc0_scratch5 : Memref sig .tc .vmem S64x64 .bf16).view.loc (c : Thread nD τ) ↦[(Memref.whole cc0_scratch5 : Memref sig .tc .vmem S64x64 .bf16).view.set]{fullShare} landed m ρ 1 c) := by
  show (ringRd (F := F) m ρ).payload (recvCell 1 c) 0 0 = _
  rw [payload_recv]; rfl
theorem recv_pay_peer1 (c : Dev nD) : (ringRd (F := F) m ρ).payload (recvCell1 (peer 1 c)) 0 0
    = ((Memref.whole cc0_scratch5 : Memref sig .tc .vmem S64x64 .bf16).view.loc (peer 1 c : Thread nD τ) ↦[(Memref.whole cc0_scratch5 : Memref sig .tc .vmem S64x64 .bf16).view.set]{fullShare} sPlane m ρ 1 c) := by
  show (ringRd (F := F) m ρ).payload (recvCell 1 (peer 1 c)) 0 0 = _
  rw [payload_recv]; unfold recvPay landed; rw [peer_peer]; rfl

/-! ### Axis 2 -/

/-- The departure and the arrival semaphore of axis 2, and their cells on a device. -/
abbrev sendS2 : DmaSem sig := ((cc0_scratch7.slice (Rect.unit (s := S3) ![2] S1.size inb_S3_S1_2)).squeeze S_ squeezes_S1_S_).sem
abbrev recvS2 : DmaSem sig := ((cc0_scratch8.slice (Rect.unit (s := S3) ![2] S1.size inb_S3_S1_2)).squeeze S_ squeezes_S1_S_).sem
abbrev sendCell2 (c : Dev nD) : GSem nD τ sig := ((c : Thread nD τ), .dma sendS2)
abbrev recvCell2 (c : Dev nD) : GSem nD τ sig := ((c : Thread nD τ), .dma recvS2)
theorem sendCell2_eq (c : Dev nD) : sendCell2 c = sendCell 2 c := rfl
theorem recvCell2_eq (c : Dev nD) : recvCell2 c = recvCell 2 c := rfl

theorem duties_send2 (c : Dev nD) : (ringRd (F := F) m ρ).duties (sendCell2 c) 0 = {0} := duties_send m ρ c 2
theorem duties_recv2 (c : Dev nD) : (ringRd (F := F) m ρ).duties (recvCell2 c) 0 = {0} := duties_recv m ρ c 2
theorem amount_send2 (c : Dev nD) (d : Fin 3) : (ringRd (F := F) m ρ).amount (sendCell2 c) 0 d = N := amount_send m ρ c 2 d
theorem amount_recv2 (c : Dev nD) (d : Fin 3) : (ringRd (F := F) m ρ).amount (recvCell2 c) 0 d = N := amount_recv m ρ c 2 d
theorem expect_send2 (c : Dev nD) : (ringRd (F := F) m ρ).expect (sendCell2 c) 0 = N := expect_send m ρ c 2
theorem expect_recv2 (c : Dev nD) : (ringRd (F := F) m ρ).expect (recvCell2 c) 0 = N := expect_recv m ρ c 2

theorem bar_pay_peer2 (c : Dev nD) : (ringRd (F := F) m ρ).payload (barCell (peer 2 c)) 0 2
    = iprop((∃ f, ((Memref.whole cc0_scratch6 : Memref sig .tc .vmem S64x64 .bf16).view.loc (c : Thread nD τ) ↦[(Memref.whole cc0_scratch6 : Memref sig .tc .vmem S64x64 .bf16).view.set]{fullShare} f)) ∗ reached ER (recvCell2 c) 0) := by
  rw [payload_bar]; unfold barPay; rw [peer_peer]; rfl
theorem bar_pay2 (c : Dev nD) : (ringRd (F := F) m ρ).payload (barCell c) 0 2
    = iprop((∃ f, ((Memref.whole cc0_scratch6 : Memref sig .tc .vmem S64x64 .bf16).view.loc (peer 2 c : Thread nD τ) ↦[(Memref.whole cc0_scratch6 : Memref sig .tc .vmem S64x64 .bf16).view.set]{fullShare} f)) ∗ reached ER (recvCell2 (peer 2 c)) 0) := by
  rw [payload_bar]; rfl
theorem send_pay2 (c : Dev nD) : (ringRd (F := F) m ρ).payload (sendCell2 c) 0 0
    = ((Memref.whole cc0_scratch3 : Memref sig .tc .vmem S64x64 .bf16).view.loc (c : Thread nD τ) ↦[(Memref.whole cc0_scratch3 : Memref sig .tc .vmem S64x64 .bf16).view.set]{fullShare} sPlane m ρ 2 c) := by
  show (ringRd (F := F) m ρ).payload (sendCell 2 c) 0 0 = _
  rw [payload_send]; rfl
theorem recv_pay2 (c : Dev nD) : (ringRd (F := F) m ρ).payload (recvCell2 c) 0 0
    = ((Memref.whole cc0_scratch6 : Memref sig .tc .vmem S64x64 .bf16).view.loc (c : Thread nD τ) ↦[(Memref.whole cc0_scratch6 : Memref sig .tc .vmem S64x64 .bf16).view.set]{fullShare} landed m ρ 2 c) := by
  show (ringRd (F := F) m ρ).payload (recvCell 2 c) 0 0 = _
  rw [payload_recv]; rfl
theorem recv_pay_peer2 (c : Dev nD) : (ringRd (F := F) m ρ).payload (recvCell2 (peer 2 c)) 0 0
    = ((Memref.whole cc0_scratch6 : Memref sig .tc .vmem S64x64 .bf16).view.loc (peer 2 c : Thread nD τ) ↦[(Memref.whole cc0_scratch6 : Memref sig .tc .vmem S64x64 .bf16).view.set]{fullShare} sPlane m ρ 2 c) := by
  show (ringRd (F := F) m ρ).payload (recvCell 2 (peer 2 c)) 0 0 = _
  rw [payload_recv]; unfold recvPay landed; rw [peer_peer]; rfl
end Cert.KernelIdeal.Halo

end
-- ==== Proof.Body.lean ====
import proofs.«900807_g7700000000000808_dist_halo3d_v7x_xyz2x2x2_s64_bf16_1_alg».proof.Proof.Tables
import proofs.«900807_g7700000000000808_dist_halo3d_v7x_xyz2x2x2_s64_bf16_1_alg».proof.Proof.Gen.KernelIdeal.Points

noncomputable section

namespace Cert.KernelIdeal.Halo

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_rounds] duties_bar3 amount_bar expect_bar
  duties_send0 duties_recv0 amount_send0 amount_recv0 expect_send0 expect_recv0 bar_pay0 send_pay0 recv_pay0
  duties_send1 duties_recv1 amount_send1 amount_recv1 expect_send1 expect_recv1 bar_pay1 send_pay1 recv_pay1
  duties_send2 duties_recv2 amount_send2 amount_recv2 expect_send2 expect_recv2 bar_pay2 send_pay2 recv_pay2
attribute [local sl_rounds high] bar_pay_peer0 bar_pay_peer1 bar_pay_peer2 recv_pay_peer0 recv_pay_peer1 recv_pay_peer2
attribute [local sl_canon] dev1_eq dev2_eq dev3_eq dev4_eq dev5_eq dev6_eq
attribute [local irreducible] peer

theorem mayWait_bar' (c : Dev nD) :
    (levAts L lv : sProp 𝕄) ⊢ MayWait (c : Thread nD τ) (.reg barS) ()
      (tallyAt (recvCell2 (peer 2 c)) () N + tallyAt (recvCell1 (peer 1 c)) () N + tallyAt (recvCell0 (peer 0 c)) () N) := mayWait_bar c

/-! ## The device's mesh coordinates as the kernel computes them, and its guards -/

/-- The coordinate words: the device's logical id divided by the product of the later axes' sizes, modulo two. -/
def wX (c : Dev nD) : BitVec 32 := Scalar.remsi (Scalar.divsi (Dev.word c) 4#32) 2#32
def wY (c : Dev nD) : BitVec 32 := Scalar.remsi (Scalar.divsi (Dev.word c) 2#32) 2#32
def wZ (c : Dev nD) : BitVec 32 := Scalar.remsi (Scalar.divsi (Dev.word c) 1#32) 2#32
/-- A guard "this coordinate word is `k`", as printed: the comparison's bit widened and compared with zero. -/
def isW (w k : BitVec 32) : BitVec 1 := Scalar.cmpi .ne (Scalar.extui (Scalar.cmpi .eq w k)) 0#32

theorem gx0 (c : Dev nD) : Iff (isW (wX c) 0#32 = 1#1) (c.val / 4 = 0) := by revert c; decide +kernel
theorem gx1 (c : Dev nD) : Iff (isW (wX c) 1#32 = 1#1) (¬ c.val / 4 = 0) := by revert c; decide +kernel
theorem gy0 (c : Dev nD) : Iff (isW (wY c) 0#32 = 1#1) (c.val / 2 % 2 = 0) := by revert c; decide +kernel
theorem gy1 (c : Dev nD) : Iff (isW (wY c) 1#32 = 1#1) (¬ c.val / 2 % 2 = 0) := by revert c; decide +kernel
theorem gz0 (c : Dev nD) : Iff (isW (wZ c) 0#32 = 1#1) (c.val % 2 = 0) := by revert c; decide +kernel
theorem gz1 (c : Dev nD) : Iff (isW (wZ c) 1#32 = 1#1) (¬ c.val % 2 = 0) := by revert c; decide +kernel

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

/-- The staged block read whole is the block. -/
theorem read_x (c : Dev nD) :
    (Memref.whole cc0_stg0_0 : Memref sig .tc .vmem S64x64x64 .f32).view.readAt (Elt F)
      (Rect.unit (s := S64x64x64) ![0, 0, 0] S64x64x64.size inb_S64x64x64_S64x64x64_0_0_0).toLoadRect (xblk m ρ c) = xblk m ρ c :=
  Memref.readAt_unit_zero (Elt F) cc0_stg0_0 hz3 _ _

/-- The two guarded stores of axis 0's send plane, joined: exactly one of the two guards holds, and the plane then
    holds the face plane that guard stores, whatever it held before. -/
theorem plane_join0 {P Q : Prop} [Decidable P] [Decidable Q] {C : Prop} [Decidable C] (hP : P ↔ C) (hQ : Q ↔ ¬C)
    (f A B : (cc0_scratch1 : Ref sig .tc).ty.Contents (Elt F)) :
    (if hc : Q then
        (Memref.whole cc0_scratch1 : Memref sig .tc .vmem S64x64 .bf16).view.writes (Elt F)
          (if hc : P then (Memref.whole cc0_scratch1 : Memref sig .tc .vmem S64x64 .bf16).view.writes (Elt F) f
              [⟨Rect.unit (s := S64x64) ![0, 0] S64x64.size inb_S64x64_S64x64_0_0, A⟩] else f)
          [⟨Rect.unit (s := S64x64) ![0, 0] S64x64.size inb_S64x64_S64x64_0_0, B⟩]
      else if hc : P then (Memref.whole cc0_scratch1 : Memref sig .tc .vmem S64x64 .bf16).view.writes (Elt F) f
          [⟨Rect.unit (s := S64x64) ![0, 0] S64x64.size inb_S64x64_S64x64_0_0, A⟩] else f)
      = if C then A else B := by
  by_cases h : C
  · rw [dif_neg (fun q => (hQ.mp q) h), dif_pos (hP.mpr h), if_pos h, View.writes_singleton]
    exact Memref.write_access_unit_zero_univ (Elt F) cc0_scratch1 hz2 _ f A
  · rw [dif_pos (hQ.mpr h), if_neg h, View.writes_singleton]
    exact Memref.write_access_unit_zero_univ (Elt F) cc0_scratch1 hz2 _ _ B

/-- The two guarded stores of axis 1's send plane, joined: exactly one of the two guards holds, and the plane then
    holds the face plane that guard stores, whatever it held before. -/
theorem plane_join1 {P Q : Prop} [Decidable P] [Decidable Q] {C : Prop} [Decidable C] (hP : P ↔ C) (hQ : Q ↔ ¬C)
    (f A B : (cc0_scratch2 : Ref sig .tc).ty.Contents (Elt F)) :
    (if hc : Q then
        (Memref.whole cc0_scratch2 : Memref sig .tc .vmem S64x64 .bf16).view.writes (Elt F)
          (if hc : P then (Memref.whole cc0_scratch2 : Memref sig .tc .vmem S64x64 .bf16).view.writes (Elt F) f
              [⟨Rect.unit (s := S64x64) ![0, 0] S64x64.size inb_S64x64_S64x64_0_0, A⟩] else f)
          [⟨Rect.unit (s := S64x64) ![0, 0] S64x64.size inb_S64x64_S64x64_0_0, B⟩]
      else if hc : P then (Memref.whole cc0_scratch2 : Memref sig .tc .vmem S64x64 .bf16).view.writes (Elt F) f
          [⟨Rect.unit (s := S64x64) ![0, 0] S64x64.size inb_S64x64_S64x64_0_0, A⟩] else f)
      = if C then A else B := by
  by_cases h : C
  · rw [dif_neg (fun q => (hQ.mp q) h), dif_pos (hP.mpr h), if_pos h, View.writes_singleton]
    exact Memref.write_access_unit_zero_univ (Elt F) cc0_scratch2 hz2 _ f A
  · rw [dif_pos (hQ.mpr h), if_neg h, View.writes_singleton]
    exact Memref.write_access_unit_zero_univ (Elt F) cc0_scratch2 hz2 _ _ B

/-- The two guarded stores of axis 2's send plane, joined: exactly one of the two guards holds, and the plane then
    holds the face plane that guard stores, whatever it held before. -/
theorem plane_join2 {P Q : Prop} [Decidable P] [Decidable Q] {C : Prop} [Decidable C] (hP : P ↔ C) (hQ : Q ↔ ¬C)
    (f A B : (cc0_scratch3 : Ref sig .tc).ty.Contents (Elt F)) :
    (if hc : Q then
        (Memref.whole cc0_scratch3 : Memref sig .tc .vmem S64x64 .bf16).view.writes (Elt F)
          (if hc : P then (Memref.whole cc0_scratch3 : Memref sig .tc .vmem S64x64 .bf16).view.writes (Elt F) f
              [⟨Rect.unit (s := S64x64) ![0, 0] S64x64.size inb_S64x64_S64x64_0_0, A⟩] else f)
          [⟨Rect.unit (s := S64x64) ![0, 0] S64x64.size inb_S64x64_S64x64_0_0, B⟩]
      else if hc : P then (Memref.whole cc0_scratch3 : Memref sig .tc .vmem S64x64 .bf16).view.writes (Elt F) f
          [⟨Rect.unit (s := S64x64) ![0, 0] S64x64.size inb_S64x64_S64x64_0_0, A⟩] else f)
      = if C then A else B := by
  by_cases h : C
  · rw [dif_neg (fun q => (hQ.mp q) h), dif_pos (hP.mpr h), if_pos h, View.writes_singleton]
    exact Memref.write_access_unit_zero_univ (Elt F) cc0_scratch3 hz2 _ f A
  · rw [dif_pos (hQ.mpr h), if_neg h, View.writes_singleton]
    exact Memref.write_access_unit_zero_univ (Elt F) cc0_scratch3 hz2 _ _ B

/-- The staged block as the body's load reads it. -/
abbrev xRd (c : Dev nD) : Vec F S64x64x64 .f32 :=
  (Memref.whole cc0_stg0_0 : Memref sig .tc .vmem S64x64x64 .f32).view.readAt (Elt F)
    (Rect.unit (s := S64x64x64) ![0, 0, 0] S64x64x64.size inb_S64x64x64_S64x64x64_0_0_0).toLoadRect (xblk m ρ c)

theorem plane0_eq (c : Dev nD) : (if c.val / 4 = 0 then k0_pay12 (xRd m ρ c) else k0_pay13 (xRd m ρ c)) = sPlane m ρ 0 c := by
  unfold xRd; rw [read_x]; rfl
theorem plane1_eq (c : Dev nD) : (if c.val / 2 % 2 = 0 then k0_pay14 (xRd m ρ c) else k0_pay15 (xRd m ρ c)) = sPlane m ρ 1 c := by
  unfold xRd; rw [read_x]; rfl
theorem plane2_eq (c : Dev nD) : (if c.val % 2 = 0 then k0_pay16 (xRd m ρ c) else k0_pay17 (xRd m ρ c)) = sPlane m ρ 2 c := by
  unfold xRd; rw [read_x]; rfl

/-- What a device holds when its body has run: its scratch buffers at some contents, its six exchange cells closed
    and the result copy's two semaphores at zero, its block of the result holding `w`, nothing owed, and its staged
    block of the argument as it was. -/
def bodyDone (c : Dev nD) (w : (main_v1 : Ref sig .tc).ty.Contents (Elt F)) : sProp 𝕄 :=
  iprop((∃ f, ((Memref.whole cc0_scratch0 : Memref sig .tc .vmem S64x64x64 .bf16).view.loc (c : Thread nD τ) ↦[(Memref.whole cc0_scratch0 : Memref sig .tc .vmem S64x64x64 .bf16).view.set]{fullShare} f))
    ∗ (∃ f, ((Memref.whole cc0_scratch1 : Memref sig .tc .vmem S64x64 .bf16).view.loc (c : Thread nD τ) ↦[(Memref.whole cc0_scratch1 : Memref sig .tc .vmem S64x64 .bf16).view.set]{fullShare} f))
    ∗ (∃ f, ((Memref.whole cc0_scratch2 : Memref sig .tc .vmem S64x64 .bf16).view.loc (c : Thread nD τ) ↦[(Memref.whole cc0_scratch2 : Memref sig .tc .vmem S64x64 .bf16).view.set]{fullShare} f))
    ∗ (∃ f, ((Memref.whole cc0_scratch3 : Memref sig .tc .vmem S64x64 .bf16).view.loc (c : Thread nD τ) ↦[(Memref.whole cc0_scratch3 : Memref sig .tc .vmem S64x64 .bf16).view.set]{fullShare} f))
    ∗ (∃ f, ((Memref.whole cc0_scratch4 : Memref sig .tc .vmem S64x64 .bf16).view.loc (c : Thread nD τ) ↦[(Memref.whole cc0_scratch4 : Memref sig .tc .vmem S64x64 .bf16).view.set]{fullShare} f))
    ∗ (∃ f, ((Memref.whole cc0_scratch5 : Memref sig .tc .vmem S64x64 .bf16).view.loc (c : Thread nD τ) ↦[(Memref.whole cc0_scratch5 : Memref sig .tc .vmem S64x64 .bf16).view.set]{fullShare} f))
    ∗ (∃ f, ((Memref.whole cc0_scratch6 : Memref sig .tc .vmem S64x64 .bf16).view.loc (c : Thread nD τ) ↦[(Memref.whole cc0_scratch6 : Memref sig .tc .vmem S64x64 .bf16).view.set]{fullShare} f))
    ∗ semVal (sendCell0 c) 0
    ∗ semVal (sendCell1 c) 0
    ∗ semVal (sendCell2 c) 0
    ∗ semVal (recvCell0 c) 0
    ∗ semVal (recvCell1 c) 0
    ∗ semVal (recvCell2 c) 0
    ∗ semVal (outCell c) 0
    ∗ semVal (out2Cell c) 0
    ∗ ((Memref.whole main_v1 : Memref sig .tc .hbm S64x64x64 .bf16).view.loc (c : Thread nD τ) ↦[(Memref.whole main_v1 : Memref sig .tc .hbm S64x64x64 .bf16).view.set]{fullShare} w)
    ∗ (∃ W' : Waits sig Unit, owes (c : Thread nD τ) (0 : CellTallies nD τ sig Unit) W')
    ∗ ((Memref.whole cc0_stg0_0 : Memref sig .tc .vmem S64x64x64 .f32).view.loc (c : Thread nD τ) ↦[(Memref.whole cc0_stg0_0 : Memref sig .tc .vmem S64x64x64 .f32).view.set]{fullShare} (xblk m ρ c)))

set_option maxHeartbeats 4000000 in
/-- One device's run of the body, from what the launch hands it (the cells' invariants, its positions, tokens and
    credit, its buffers, what it owes) to `bodyDone`, with the finished block FOUND: a term of the device's block of
    the argument and of its three neighbours' face planes only. -/
def bodyRun (c : Dev nD) :
    { w : (main_v1 : Ref sig .tc).ty.Contents (Elt F) //
      ∀ (K : Dev nD × Fin 7 → ℕ) (Kt : PUnit → sProp 𝕄) (W : Waits sig Unit)
    (fo : Buf (Elt F) ((c : Thread nD τ).loc main_v1)) (fv : Buf (Elt F) ((c : Thread nD τ).loc cc0_scratch0))
    (fs0 : Buf (Elt F) ((c : Thread nD τ).loc cc0_scratch1)) (fs1 : Buf (Elt F) ((c : Thread nD τ).loc cc0_scratch2)) (fs2 : Buf (Elt F) ((c : Thread nD τ).loc cc0_scratch3))
    (fr0 : Buf (Elt F) ((c : Thread nD τ).loc cc0_scratch4)) (fr1 : Buf (Elt F) ((c : Thread nD τ).loc cc0_scratch5)) (fr2 : Buf (Elt F) ((c : Thread nD τ).loc cc0_scratch6)) (t : Fin cfg0.N),
        iprop(cellInv ER (ringRd m ρ) (K (c, 0)) (barCell c)
        ∗ cellInv ER (ringRd m ρ) (K (c, 1)) (sendCell0 c)
        ∗ cellInv ER (ringRd m ρ) (K (c, 2)) (sendCell1 c)
        ∗ cellInv ER (ringRd m ρ) (K (c, 3)) (sendCell2 c)
        ∗ cellInv ER (ringRd m ρ) (K (c, 4)) (recvCell0 c)
        ∗ cellInv ER (ringRd m ρ) (K (c, 5)) (recvCell1 c)
        ∗ cellInv ER (ringRd m ρ) (K (c, 6)) (recvCell2 c)
        ∗ cellInv ER (ringRd m ρ) (K (peer 0 c, 0)) (barCell (peer 0 c))
        ∗ cellInv ER (ringRd m ρ) (K (peer 1 c, 0)) (barCell (peer 1 c))
        ∗ cellInv ER (ringRd m ρ) (K (peer 2 c, 0)) (barCell (peer 2 c))
        ∗ cellInv ER (ringRd m ρ) (K (peer 0 c, 4)) (recvCell0 (peer 0 c))
        ∗ cellInv ER (ringRd m ρ) (K (peer 1 c, 5)) (recvCell1 (peer 1 c))
        ∗ cellInv ER (ringRd m ρ) (K (peer 2 c, 6)) (recvCell2 (peer 2 c))
        ∗ reached ER (barCell (peer 0 c)) 0
        ∗ reached ER (barCell (peer 1 c)) 0
        ∗ reached ER (barCell (peer 2 c)) 0
        ∗ reached ER (recvCell0 (peer 0 c)) 0
        ∗ reached ER (recvCell1 (peer 1 c)) 0
        ∗ reached ER (recvCell2 (peer 2 c)) 0
        ∗ reached ER (sendCell0 c) 0
        ∗ reached ER (sendCell1 c) 0
        ∗ reached ER (sendCell2 c) 0
        ∗ reached ER (recvCell0 c) 0
        ∗ reached ER (recvCell1 c) 0
        ∗ reached ER (recvCell2 c) 0
        ∗ levAts L lv
        ∗ atPos ER (barCell c) 0 ∅ 0
        ∗ atPos ER (sendCell0 c) 0 ∅ 0
        ∗ atPos ER (sendCell1 c) 0 ∅ 0
        ∗ atPos ER (sendCell2 c) 0 ∅ 0
        ∗ atPos ER (recvCell0 c) 0 ∅ 0
        ∗ atPos ER (recvCell1 c) 0 ∅ 0
        ∗ atPos ER (recvCell2 c) 0 ∅ 0
        ∗ dutyTok ER (barCell (peer 0 c)) 0 (0 : Fin 3)
        ∗ dutyTok ER (barCell (peer 1 c)) 0 (1 : Fin 3)
        ∗ dutyTok ER (barCell (peer 2 c)) 0 (2 : Fin 3)
        ∗ dutyTok ER (recvCell0 (peer 0 c)) 0 (0 : Fin 3)
        ∗ dutyTok ER (recvCell1 (peer 1 c)) 0 (0 : Fin 3)
        ∗ dutyTok ER (recvCell2 (peer 2 c)) 0 (0 : Fin 3)
        ∗ dutyTok ER (sendCell0 c) 0 (0 : Fin 3)
        ∗ dutyTok ER (sendCell1 c) 0 (0 : Fin 3)
        ∗ dutyTok ER (sendCell2 c) 0 (0 : Fin 3)
        ∗ cred (tallyAt (barCell c) () 3)
        ∗ cred (tallyAt (recvCell0 c) () N)
        ∗ cred (tallyAt (recvCell1 c) () N)
        ∗ cred (tallyAt (recvCell2 c) () N)
        ∗ semVal (outCell c) 0
        ∗ semVal (out2Cell c) 0
        ∗ ((Memref.whole main_v1 : Memref sig .tc .hbm S64x64x64 .bf16).view.loc (c : Thread nD τ) ↦[(Memref.whole main_v1 : Memref sig .tc .hbm S64x64x64 .bf16).view.set]{fullShare} fo)
        ∗ ((Memref.whole cc0_scratch0 : Memref sig .tc .vmem S64x64x64 .bf16).view.loc (c : Thread nD τ) ↦[(Memref.whole cc0_scratch0 : Memref sig .tc .vmem S64x64x64 .bf16).view.set]{fullShare} fv)
        ∗ ((Memref.whole cc0_scratch1 : Memref sig .tc .vmem S64x64 .bf16).view.loc (c : Thread nD τ) ↦[(Memref.whole cc0_scratch1 : Memref sig .tc .vmem S64x64 .bf16).view.set]{fullShare} fs0)
        ∗ ((Memref.whole cc0_scratch2 : Memref sig .tc .vmem S64x64 .bf16).view.loc (c : Thread nD τ) ↦[(Memref.whole cc0_scratch2 : Memref sig .tc .vmem S64x64 .bf16).view.set]{fullShare} fs1)
        ∗ ((Memref.whole cc0_scratch3 : Memref sig .tc .vmem S64x64 .bf16).view.loc (c : Thread nD τ) ↦[(Memref.whole cc0_scratch3 : Memref sig .tc .vmem S64x64 .bf16).view.set]{fullShare} fs2)
        ∗ ((Memref.whole cc0_scratch4 : Memref sig .tc .vmem S64x64 .bf16).view.loc (c : Thread nD τ) ↦[(Memref.whole cc0_scratch4 : Memref sig .tc .vmem S64x64 .bf16).view.set]{fullShare} fr0)
        ∗ ((Memref.whole cc0_scratch5 : Memref sig .tc .vmem S64x64 .bf16).view.loc (c : Thread nD τ) ↦[(Memref.whole cc0_scratch5 : Memref sig .tc .vmem S64x64 .bf16).view.set]{fullShare} fr1)
        ∗ ((Memref.whole cc0_scratch6 : Memref sig .tc .vmem S64x64 .bf16).view.loc (c : Thread nD τ) ↦[(Memref.whole cc0_scratch6 : Memref sig .tc .vmem S64x64 .bf16).view.set]{fullShare} fr2)
        ∗ ((Memref.whole cc0_stg0_0 : Memref sig .tc .vmem S64x64x64 .f32).view.loc (c : Thread nD τ) ↦[(Memref.whole cc0_stg0_0 : Memref sig .tc .vmem S64x64x64 .f32).view.set]{fullShare} (xblk m ρ c))
        ∗ owes (c : Thread nD τ) (tallyAt (recvCell2 (peer 2 c)) () N + tallyAt (recvCell1 (peer 1 c)) () N + tallyAt (recvCell0 (peer 0 c)) () N
            + tallyAt (barCell (peer 2 c)) () 1 + tallyAt (barCell (peer 1 c)) () 1 + tallyAt (barCell (peer 0 c)) () 1) W
        ∗ (bodyDone m ρ c w -∗ Kt ⟨⟩))
      ⊢ wp frame (wpE (defs₀ (F := F)) 𝒱₀ c none) Set.univ (bodyAt0 t) Kt } := by
  refine ⟨?_, fun K Kt W fo fv fs0 fs1 fs2 fr0 fr1 fr2 t => ?run⟩
  case run =>
  iintro ⟨#HIb, #HIs0, #HIs1, #HIs2, #HIr0, #HIr1, #HIr2, #HIbp0, #HIbp1, #HIbp2, #HIrp0, #HIrp1, #HIrp2, #Hrbp0, #Hrbp1, #Hrbp2, #Hrrp0, #Hrrp1, #Hrrp2, #Hrs0, #Hrs1, #Hrs2, #Hrr0, #Hrr1, #Hrr2, #Hlev, HaB, HaS0, HaS1, HaS2, HaR0, HaR1, HaR2, HtB0, HtB1, HtB2, HtR0, HtR1, HtR2, HtS0, HtS1, HtS2, HcB, HcR0, HcR1, HcR2, Hz1, Hz2, Hout, Hov, Hs0, Hs1, Hs2, Hr0, Hr1, Hr2, Hx, HO, Hk⟩
  have hmw := mayWait_bar' (F := F) c
  unfold bodyAt0
  rw [cc0_body_eq_skeleton]; unfold cc0_body_skel
  -- the signals, the block read, the face planes stored under their guards, the barrier wait
  sl_exec (disch := simp only [dev1_eq, dev2_eq, dev3_eq, dev4_eq, dev5_eq, dev6_eq])
  -- which guard holds is the device's mesh coordinate: each send plane holds the device's face plane
  have q36 : Iff (_root_.Cert.KernelIdeal.Halo.bodyRun.sl.v36 c = 1#1) (c.val / 4 = 0) := gx0 c
  have q39 : Iff (_root_.Cert.KernelIdeal.Halo.bodyRun.sl.v39 c = 1#1) (¬ c.val / 4 = 0) := gx1 c
  have q42 : Iff (_root_.Cert.KernelIdeal.Halo.bodyRun.sl.v42 c = 1#1) (c.val / 2 % 2 = 0) := gy0 c
  have q45 : Iff (_root_.Cert.KernelIdeal.Halo.bodyRun.sl.v45 c = 1#1) (¬ c.val / 2 % 2 = 0) := gy1 c
  have q48 : Iff (_root_.Cert.KernelIdeal.Halo.bodyRun.sl.v48 c = 1#1) (c.val % 2 = 0) := gz0 c
  have q51 : Iff (_root_.Cert.KernelIdeal.Halo.bodyRun.sl.v51 c = 1#1) (¬ c.val % 2 = 0) := gz1 c
  have e0 := (plane_join0 (F := F) q36 q39 fs0 (k0_pay12 (xRd m ρ c)) (k0_pay13 (xRd m ρ c))).trans (plane0_eq m ρ c)
  have e1 := (plane_join1 (F := F) q42 q45 fs1 (k0_pay14 (xRd m ρ c)) (k0_pay15 (xRd m ρ c))).trans (plane1_eq m ρ c)
  have e2 := (plane_join2 (F := F) q48 q51 fs2 (k0_pay16 (xRd m ρ c)) (k0_pay17 (xRd m ρ c))).trans (plane2_eq m ρ c)
  ihave Hs0 := (Entails.of_eq (congrArg (fun f => (((Memref.whole cc0_scratch1 : Memref sig .tc .vmem S64x64 .bf16).view.loc (c : Thread nD τ) ↦[(Memref.whole cc0_scratch1 : Memref sig .tc .vmem S64x64 .bf16).view.set]{fullShare} f) : sProp 𝕄)) e0)) $$ Hs0
  ihave Hs1 := (Entails.of_eq (congrArg (fun f => (((Memref.whole cc0_scratch2 : Memref sig .tc .vmem S64x64 .bf16).view.loc (c : Thread nD τ) ↦[(Memref.whole cc0_scratch2 : Memref sig .tc .vmem S64x64 .bf16).view.set]{fullShare} f) : sProp 𝕄)) e1)) $$ Hs1
  ihave Hs2 := (Entails.of_eq (congrArg (fun f => (((Memref.whole cc0_scratch3 : Memref sig .tc .vmem S64x64 .bf16).view.loc (c : Thread nD τ) ↦[(Memref.whole cc0_scratch3 : Memref sig .tc .vmem S64x64 .bf16).view.set]{fullShare} f) : sProp 𝕄)) e2)) $$ Hs2
  clear e0 e1 e2 q36 q39 q42 q45 q48 q51
  -- the barrier's three payloads: each neighbour's receive plane
  ihave HaB_pay1 := (show (BI.sep _ (BI.sep _ _) : sProp 𝕄) ⊢ iprop(_ ∗ _ ∗ _) from BI.Entails.refl _) $$ HaB_pay1
  icases HaB_pay1 with ⟨⟨⟨%g0, Hrp0⟩, #Hq0⟩, ⟨⟨%g1, Hrp1⟩, #Hq1⟩, ⟨%g2, Hrp2⟩, #Hq2⟩
  -- the three transfers, the block's own stencil part stored, the six waits, the received planes masked and added into
  -- the faces, the rim faces put to zero, the finished block copied out and the copy waited for
  sl_exec! (disch := simp only [dev1_eq, dev2_eq, dev3_eq, dev4_eq, dev5_eq, dev6_eq])
  -- the six exchange cells close: their counters at zero are the device's again
  imod (Rounds.cell_close ER (ringRd m ρ) (Set.mem_univ (K (c, 1))) (fun h => h) (R := 1) (duties_later m ρ (sendCell0 c))) $$ [HaS0] with HzS0
  · isplitr; · iexact HIs0
    iexact HaS0
  imod (Rounds.cell_close ER (ringRd m ρ) (Set.mem_univ (K (c, 4))) (fun h => h) (R := 1) (duties_later m ρ (recvCell0 c))) $$ [HaR0] with HzR0
  · isplitr; · iexact HIr0
    iexact HaR0
  imod (Rounds.cell_close ER (ringRd m ρ) (Set.mem_univ (K (c, 2))) (fun h => h) (R := 1) (duties_later m ρ (sendCell1 c))) $$ [HaS1] with HzS1
  · isplitr; · iexact HIs1
    iexact HaS1
  imod (Rounds.cell_close ER (ringRd m ρ) (Set.mem_univ (K (c, 5))) (fun h => h) (R := 1) (duties_later m ρ (recvCell1 c))) $$ [HaR1] with HzR1
  · isplitr; · iexact HIr1
    iexact HaR1
  imod (Rounds.cell_close ER (ringRd m ρ) (Set.mem_univ (K (c, 3))) (fun h => h) (R := 1) (duties_later m ρ (sendCell2 c))) $$ [HaS2] with HzS2
  · isplitr; · iexact HIs2
    iexact HaS2
  imod (Rounds.cell_close ER (ringRd m ρ) (Set.mem_univ (K (c, 6))) (fun h => h) (R := 1) (duties_later m ρ (recvCell2 c))) $$ [HaR2] with HzR2
  · isplitr; · iexact HIr2
    iexact HaR2
  sl_step
  iapply Hk
  unfold bodyDone
  isplitl [Hov]; · iexists _; iexact Hov
  isplitl [HaS0_pay1]; · iexists _; iexact HaS0_pay1
  isplitl [HaS1_pay1]; · iexists _; iexact HaS1_pay1
  isplitl [HaS2_pay1]; · iexists _; iexact HaS2_pay1
  isplitl [HaR0_pay1]; · iexists _; iexact HaR0_pay1
  isplitl [HaR1_pay1]; · iexists _; iexact HaR1_pay1
  isplitl [HaR2_pay1]; · iexists _; iexact HaR2_pay1
  isplitl [HzS0]; · iexact HzS0
  isplitl [HzS1]; · iexact HzS1
  isplitl [HzS2]; · iexact HzS2
  isplitl [HzR0]; · iexact HzR0
  isplitl [HzR1]; · iexact HzR1
  isplitl [HzR2]; · iexact HzR2
  isplitl [Hz1]; · iexact Hz1
  isplitl [Hz2]; · iexact Hz2
  isplitl [Hout]; · iexact Hout
  isplitl [HO]; · iexists _; iexact HO
  iexact Hx

end Cert.KernelIdeal.Halo

end
-- ==== Proof.BodyDefs.lean ====
/-
  The proof data of the one pallas_call on a device: what the device holds when its body starts (the cells'
  invariants and its ghost tokens, the launch credit of its barrier and arrival cells, its scratch planes, its
  accumulator, the result block's buffer and the result copy's semaphores) and what it holds when the body ends.
-/
import proofs.«900807_g7700000000000808_dist_halo3d_v7x_xyz2x2x2_s64_bf16_1_alg».proof.Proof.Body

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The seven cells of a device, numbered: the barrier, the three departure cells, the three arrival cells. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)
abbrev sIx : Fin 3 → Fin 7 := fun | 0 => 1 | 1 => 2 | 2 => 3
abbrev rIx : Fin 3 → Fin 7 := fun | 0 => 4 | 1 => 5 | 2 => 6

/-- The finished block of device `c`: what its run of the body leaves in its block of the result. -/
def outVal (c : Dev nD) : FVec F S64x64x64 .bf16 := (bodyRun m ρ c).1

/-- The cells' invariants device `c`'s body opens, under the names `K` the launch allocated them at: its own seven,
    and of each neighbour the barrier cell (its signal) and the arrival cell of the axis (its transfer). -/
def invs (K : Dev nD × Fin 7 → ℕ) (c : Dev nD) : sProp 𝕄 :=
  iprop((bigSep Finset.univ fun k : Fin 7 => cellInv ER (ringRd m ρ) (K (c, k)) (kcell (c, k)))
    ∗ (bigSep Finset.univ fun a : Fin 3 => cellInv ER (ringRd m ρ) (K (peer a c, 0)) (barCell (peer a c)))
    ∗ (bigSep Finset.univ fun a : Fin 3 => cellInv ER (ringRd m ρ) (K (peer a c, rIx a)) (recvCell a (peer a c))))

instance invs_persistent (K : Dev nD × Fin 7 → ℕ) (c : Dev nD) : BI.Persistent (invs m ρ K c) := by unfold invs; infer_instance

/-- The persistent round facts device `c` starts from: round 0 reached at each neighbour's barrier and arrival cell
    (the cells it pays) and at its own departure and arrival cells. -/
def marks (c : Dev nD) : sProp 𝕄 :=
  iprop((bigSep Finset.univ fun a : Fin 3 => reached ER (barCell (peer a c)) 0)
    ∗ (bigSep Finset.univ fun a : Fin 3 => reached ER (recvCell a (peer a c)) 0)
    ∗ (bigSep Finset.univ fun a : Fin 3 => reached ER (sendCell a c) 0)
    ∗ (bigSep Finset.univ fun a : Fin 3 => reached ER (recvCell a c) 0))

instance marks_persistent (c : Dev nD) : BI.Persistent (marks (F := F) c) := by unfold marks; infer_instance

/-- The duty tokens device `c` pays with: duty `a` of neighbour `a`'s barrier cell, the arrival duty of neighbour `a`'s
    arrival cell `a`, its own three departure duties. -/
def payToks (c : Dev nD) : sProp 𝕄 :=
  iprop((bigSep Finset.univ fun a : Fin 3 => dutyTok ER (barCell (peer a c)) 0 a)
    ∗ (bigSep Finset.univ fun a : Fin 3 => dutyTok ER (recvCell a (peer a c)) 0 (0 : Fin 3))
    ∗ (bigSep Finset.univ fun a : Fin 3 => dutyTok ER (sendCell a c) 0 (0 : Fin 3)))

/-- Its positions: at the start of round 0 of each of its seven cells. -/
def positions (c : Dev nD) : sProp 𝕄 := bigSep Finset.univ fun k : Fin 7 => atPos ER (kcell (c, k)) 0 ∅ 0

def ghost (K : Dev nD × Fin 7 → ℕ) (c : Dev nD) : sProp 𝕄 :=
  iprop(invs m ρ K c ∗ marks c ∗ positions c ∗ payToks c)

/-- The launch credit of a device's own barrier cell (three units) and of its three arrival cells. -/
def credits (c : Dev nD) : sProp 𝕄 :=
  iprop(cred (tallyAt (barCell c) () 3) ∗ bigSep Finset.univ fun a : Fin 3 => cred (tallyAt (recvCell a c) () N))

/-- What device `c`'s body starts from besides its buffers: the ghost state at some names, the credit tokens, the
    level facts, the two semaphores of the result copy at zero, and the result block's buffer at what it held. -/
def start (c : Dev nD) : sProp 𝕄 :=
  iprop((∃ K, ghost m ρ K c) ∗ credits c ∗ levAts L lv ∗ semVal (outCell c) 0 ∗ semVal (out2Cell c) 0
    ∗ (((c : Thread nD τ).loc main_v1) ↦{fullShare} m ((c : Thread nD τ).loc main_v1)))

/-- The scoped scratch buffers, each whole at some contents: the accumulator, the three send planes, the three receive planes. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

def Φ₀ (c : Dev nD) : sProp 𝕄 := iprop(start m ρ c ∗ scratch c)

/-- After the point: the scratch buffers at some contents, the kernel's eight own semaphores at zero (the six cells
    closed), and the result block's buffer holding the finished block. -/
def Φ₁ (c : Dev nD) : sProp 𝕄 :=
  iprop(scratch c
    ∗ (bigSep Finset.univ fun a : Fin 3 => semVal (sendCell a c) 0) ∗ (bigSep Finset.univ fun a : Fin 3 => semVal (recvCell a c) 0)
    ∗ semVal (outCell c) 0 ∗ semVal (out2Cell c) 0
    ∗ (((c : Thread nD τ).loc main_v1) ↦{fullShare} outVal m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- A whole buffer `b` of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the point, and what it must leave: the pipeline's form. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 1) t₀ d)))

def bodyPost (c : Dev nD) : sProp 𝕄 :=
  iprop(Φ₁ m ρ c ∗ (dats m ρ 0 c).owesAt () t₀.succ ∗ stg c cc0_stg0_0 (xblk m ρ c))

end Cert.KernelIdeal.Halo

end
-- ==== Proof.Launch.lean ====
/-
  The launch of the halo exchange on the eight devices: the launch element funds every device's seven cells; the global
  step closes each cell's invariant over its counter at zero and deals the duty tokens to the devices that pay them; a
  device's launch credit is three units on its barrier cell and a plane's credit on each arrival cell; and the run of
  @main, from any memory with zero counters, ends with every device's argument block unchanged and its result block
  holding the finished block.
-/
import proofs.«900807_g7700000000000808_dist_halo3d_v7x_xyz2x2x2_s64_bf16_1_alg».proof.Proof.BodyDefs

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the cells -/

/-- The kernel's own scoped semaphores: the three departure, the three arrival and the two result-copy semaphores. -/
abbrev osem : Fin 8 → SemLoc sig := fun
  | 0 => .dma (sendS 0) | 1 => .dma (sendS 1) | 2 => .dma (sendS 2)
  | 3 => .dma (recvS 0) | 4 => .dma (recvS 1) | 5 => .dma (recvS 2)
  | 6 => .dma outS | 7 => .dma out2S

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- A device's own cells' duty tokens as minted: its barrier's three, its three departure cells' and its three arrival cells'. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell 0 cj.1, 0, 0) | 4 => (sendCell 1 cj.1, 0, 0) | 5 => (sendCell 2 cj.1, 0, 0)
  | 6 => (recvCell 0 cj.1, 0, 0) | 7 => (recvCell 1 cj.1, 0, 0) | 8 => (recvCell 2 cj.1, 0, 0)
/-- A token's semaphore and duty name, apart from the device. -/
abbrev tokKey : Fin 9 → SemLoc sig × Fin 3 := fun
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)
theorem tokKey_injective : Function.Injective tokKey := by decide
theorem tokOf_key (c : Dev nD) (j : Fin 9) : ((tokOf (c, j)).1.2, (tokOf (c, j)).2.2) = tokKey j := by fin_cases j <;> rfl
theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    fin_cases j <;> fin_cases j' <;> exact this
  subst h1
  have : j = j' := tokKey_injective ((tokOf_key c j).symm.trans
    ((congrArg (fun x : GSem nD τ sig × ℕ × Fin 3 => (x.1.2, x.2.2)) h).trans (tokOf_key c j')))
  subst this; rfl
def ringToks : Finset (GSem nD τ sig × ℕ × Fin 3) := Finset.univ.map ⟨tokOf, tokOf_injective⟩

/-- The launch element: the pipeline library's cells and tokens, the exchange's cells and tokens, and the exclusive
    counters' unit. -/
def u₀ : UU :=
  (initOf (Pipeline.cells cfgs cellOf_inj) (Pipeline.launchToks cfgs cellOf_inj), (initOf ringCells ringToks, 1))

/-! ## What the launch element deals -/

/-- The duty tokens of device `c`'s own cells: its barrier's three, its three arrival cells', its three departure cells'. -/
def toks (c : Dev nD) : sProp 𝕄 :=
  iprop((dutyTok ER (barCell c) 0 (0 : Fin 3) ∗ dutyTok ER (barCell c) 0 (1 : Fin 3) ∗ dutyTok ER (barCell c) 0 (2 : Fin 3))
    ∗ (dutyTok ER (recvCell 0 c) 0 (0 : Fin 3) ∗ dutyTok ER (recvCell 1 c) 0 (0 : Fin 3) ∗ dutyTok ER (recvCell 2 c) 0 (0 : Fin 3))
    ∗ (dutyTok ER (sendCell 0 c) 0 (0 : Fin 3) ∗ dutyTok ER (sendCell 1 c) 0 (0 : Fin 3) ∗ dutyTok ER (sendCell 2 c) 0 (0 : Fin 3)))

/-- What the launch element deals device `c`: its seven cells' round states, positions and round-0 marks, and its own cells' tokens. -/
def G (c : Dev nD) : sProp 𝕄 :=
  iprop((bigSep Finset.univ fun k : Fin 7 => roundState ER (ringRd m ρ) (kcell (c, k)) 0)
    ∗ (bigSep Finset.univ fun k : Fin 7 => iprop(atPos ER (kcell (c, k)) 0 ∅ 0 ∗ reached ER (kcell (c, k)) 0)) ∗ toks c)

/-- What the global step makes of it: the ghost state at some names, and the result copy's two semaphores still plain counters at zero. -/
def G' (c : Dev nD) : sProp 𝕄 := iprop((∃ K, ghost m ρ K c) ∗ semVal (outCell c) 0 ∗ semVal (out2Cell c) 0)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- Nine assertions in a row, grouped three by three with the last two groups exchanged. -/
theorem regroup9 (a0 a1 a2 a3 a4 a5 a6 a7 a8 : sProp 𝕄) :
    iprop(a0 ∗ a1 ∗ a2 ∗ a3 ∗ a4 ∗ a5 ∗ a6 ∗ a7 ∗ a8) ⊢ iprop((a0 ∗ a1 ∗ a2) ∗ (a6 ∗ a7 ∗ a8) ∗ (a3 ∗ a4 ∗ a5)) := by
  iintro ⟨H0, H1, H2, H3, H4, H5, H6, H7, H8⟩
  isplitl [H0 H1 H2]
  · isplitl [H0]; · iexact H0
    isplitl [H1] <;> iassumption
  isplitl [H6 H7 H8]
  · isplitl [H6]; · iexact H6
    isplitl [H7] <;> iassumption
  · isplitl [H3]; · iexact H3
    isplitl [H4] <;> iassumption

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => ?_
    rw [bigSep_fin9]; unfold toks
    exact regroup9 _ _ _ _ _ _ _ _ _
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The global step: the cells' invariants allocated, the tokens dealt to their payers -/

omit [FloatOps F] in
/-- The kernel's own semaphores at zero, one by one; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0 ∗ semVal (outCell c) 0 ∗ semVal (out2Cell c) 0) := by
  rw [Pipeline.ownSems0_eq_of_list c osem [0, 1, 2, 3, 4, 5, 6, 7] (by decide) (by decide)]; rfl
omit [FloatOps F] in
/-- the barrier semaphore the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ semVal (outCell c) 0 ∗ semVal (out2Cell c) 0) : sProp 𝕄) := by
  rw [ownSems0_eq, unscopedSems0_eq, bigSep_fin7]
  iintro ⟨⟨S0, S1, S2, R0, R1, R2, O1, O2⟩, HB⟩
  isplitr [O1 O2]
  · isplitl [HB]; · iexact HB
    isplitl [S0]; · iexact S0
    isplitl [S1]; · iexact S1
    isplitl [S2]; · iexact S2
    isplitl [R0]; · iexact R0
    isplitl [R1] <;> iassumption
  · isplitl [O1] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k : Fin 7 => iprop(atPos ER (kcell (c, k)) 0 ∅ 0 ∗ reached ER (kcell (c, k)) 0)) ∗ toks c
          ∗ semVal (outCell c) 0 ∗ semVal (out2Cell c) 0) := by
  unfold G
  iintro ⟨Hos, Hus, Hst, Hat, Htok⟩
  ihave Hv := (sems0_eq (F := F) c) $$ [Hos Hus]
  · isplitl [Hos] <;> iassumption
  icases Hv with ⟨Hv, HO1, HO2⟩
  imod (show iprop((bigSep Finset.univ fun k : Fin 7 => semVal (kcell (c, k)) 0) ∗ bigSep Finset.univ fun k : Fin 7 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [HO1] <;> iassumption

def records (K : Dev nD × Fin 7 → ℕ) : sProp 𝕄 :=
  iprop((bigSep Finset.univ fun ck : Dev nD × Fin 7 => cellInv ER (ringRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (ringRd m ρ) (K ck) (kcell ck) : sProp 𝕄)) ⊢ cellInv ER (ringRd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

omit [FloatOps F] in
theorem rIx_cell (a : Fin 3) (c : Dev nD) : kcell (c, rIx a) = recvCell a c := by fin_cases a <;> rfl
omit [FloatOps F] in
theorem sIx_cell (a : Fin 3) (c : Dev nD) : kcell (c, sIx a) = sendCell a c := by fin_cases a <;> rfl

/-- The invariants a device's body opens, out of all the cells' invariants. -/
theorem invs_of_records (K : Dev nD × Fin 7 → ℕ) (c : Dev nD) : records m ρ K ⊢ invs m ρ K c := by
  unfold records invs
  iintro ⟨#HI, -⟩
  isplitr
  · iapply (bigSep_intro_persistent (S := (Finset.univ : Finset (Fin 7))) fun k _ => inv_at m ρ K (c, k)); iexact HI
  isplitr
  · iapply (bigSep_intro_persistent (S := (Finset.univ : Finset (Fin 3))) fun a _ => inv_at m ρ K (peer a c, 0)); iexact HI
  · iapply (bigSep_intro_persistent (S := (Finset.univ : Finset (Fin 3))) fun a _ => by
      rw [← rIx_cell a (peer a c)]; exact inv_at m ρ K (peer a c, rIx a)); iexact HI

/-- The round-0 marks a device starts from, out of all the cells' marks. -/
theorem marks_of_records (K : Dev nD × Fin 7 → ℕ) (c : Dev nD) : records m ρ K ⊢ marks (F := F) c := by
  unfold records marks
  iintro ⟨-, #HR⟩
  isplitr
  · iapply (bigSep_intro_persistent (S := (Finset.univ : Finset (Fin 3))) fun a _ => reached_at (F := F) (peer a c, 0)); iexact HR
  isplitr
  · iapply (bigSep_intro_persistent (S := (Finset.univ : Finset (Fin 3))) fun a _ => by
      rw [← rIx_cell a (peer a c)]; exact reached_at (F := F) (peer a c, rIx a)); iexact HR
  isplitr
  · iapply (bigSep_intro_persistent (S := (Finset.univ : Finset (Fin 3))) fun a _ => by
      rw [← sIx_cell a c]; exact reached_at (F := F) (c, sIx a)); iexact HR
  · iapply (bigSep_intro_persistent (S := (Finset.univ : Finset (Fin 3))) fun a _ => by
      rw [← rIx_cell a c]; exact reached_at (F := F) (c, rIx a)); iexact HR

/-- What stays with device `c`: its positions, and the tokens of the duties it pays. -/
def linear (c : Dev nD) : sProp 𝕄 := iprop(positions c ∗ payToks c)

theorem ghost_intro (K : Dev nD × Fin 7 → ℕ) (c : Dev nD) : iprop(records m ρ K ∗ linear (F := F) c) ⊢ iprop(∃ K, ghost m ρ K c) := by
  unfold linear
  iintro ⟨#HR, Hpos, Htok⟩
  iexists K
  unfold ghost
  isplitr
  · iapply (invs_of_records m ρ K c); iexact HR
  isplitr
  · iapply (marks_of_records m ρ K c); iexact HR
  isplitl [Hpos] <;> iassumption

omit [FloatOps F] in
/-- The tokens dealt across the cuts: duty `a` of a barrier cell and the duty of arrival cell `a` go to the neighbour of axis `a`. -/
theorem toks_around : (bigSep Finset.univ fun c : Dev nD => (toks c : sProp 𝕄)) ⊢ bigSep Finset.univ fun c : Dev nD => payToks c := by
  have hp (c : Dev nD) : (payToks c : sProp 𝕄)
      = iprop((dutyTok ER (barCell (peer 0 c)) 0 (0 : Fin 3) ∗ dutyTok ER (barCell (peer 1 c)) 0 (1 : Fin 3) ∗ dutyTok ER (barCell (peer 2 c)) 0 (2 : Fin 3))
        ∗ (dutyTok ER (recvCell 0 (peer 0 c)) 0 (0 : Fin 3) ∗ dutyTok ER (recvCell 1 (peer 1 c)) 0 (0 : Fin 3) ∗ dutyTok ER (recvCell 2 (peer 2 c)) 0 (0 : Fin 3))
        ∗ (dutyTok ER (sendCell 0 c) 0 (0 : Fin 3) ∗ dutyTok ER (sendCell 1 c) 0 (0 : Fin 3) ∗ dutyTok ER (sendCell 2 c) 0 (0 : Fin 3))) := by
    unfold payToks; rw [bigSep_fin3, bigSep_fin3, bigSep_fin3]
  rw [bigSep_congr (s := Finset.univ) fun c _ => hp c]
  unfold toks
  simp only [bigSep_sep']
  rw [bigSep_univ_equiv (swap 0) (fun c : Dev nD => (dutyTok ER (barCell c) 0 (0 : Fin 3) : sProp 𝕄)),
    bigSep_univ_equiv (swap 1) (fun c : Dev nD => (dutyTok ER (barCell c) 0 (1 : Fin 3) : sProp 𝕄)),
    bigSep_univ_equiv (swap 2) (fun c : Dev nD => (dutyTok ER (barCell c) 0 (2 : Fin 3) : sProp 𝕄)),
    bigSep_univ_equiv (swap 0) (fun c : Dev nD => (dutyTok ER (recvCell 0 c) 0 (0 : Fin 3) : sProp 𝕄)),
    bigSep_univ_equiv (swap 1) (fun c : Dev nD => (dutyTok ER (recvCell 1 c) 0 (0 : Fin 3) : sProp 𝕄)),
    bigSep_univ_equiv (swap 2) (fun c : Dev nD => (dutyTok ER (recvCell 2 c) 0 (0 : Fin 3) : sProp 𝕄))]
  exact .rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Fin 7 → ℕ) (c : Dev nD) :
    iprop(records m ρ K ∗ (linear (F := F) c ∗ semVal (outCell c) 0 ∗ semVal (out2Cell c) 0)) ⊢ G' m ρ c := by
  unfold G'
  iintro ⟨#HR, Hl, HO⟩
  isplitl [Hl]
  · iapply (ghost_intro m ρ K c)
    isplitr; · iexact HR
    iexact Hl
  · iexact HO

theorem regroup :
    (bigSep Finset.univ fun c : Dev nD => iprop((bigSep Finset.univ fun k => iprop(∃ κ : ℕ, cellInv ER (ringRd m ρ) κ (kcell (c, k))))
          ∗ (bigSep Finset.univ fun k : Fin 7 => iprop(atPos ER (kcell (c, k)) 0 ∅ 0 ∗ reached ER (kcell (c, k)) 0)) ∗ toks c
          ∗ semVal (outCell c) 0 ∗ semVal (out2Cell c) 0) : sProp 𝕄)
      ⊢ bigSep Finset.univ (G' m ρ) := by
  rw [bigSep_sep', bigSep_sep', bigSep_sep', ← bigSep_univ_prod (fun ck : Dev nD × Fin 7 => iprop(∃ κ : ℕ, cellInv ER (ringRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hout⟩
  ihave HK := (BI.bigSep_exists_pi Finset.univ (fun (ck : Dev nD × Fin 7) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => G'_intro m ρ K c)
  isplitr
  · unfold records; isplitl; · iexact HI
    iexact HR
  · iapply (Entails.of_eq (bigSep_sep' Finset.univ (fun c : Dev nD => (linear (F := F) c : sProp 𝕄)) (fun c => iprop(semVal (outCell c) 0 ∗ semVal (out2Cell c) 0))).symm)
    isplitr [Hout]
    · iapply (Entails.of_eq (bigSep_sep' Finset.univ (fun c : Dev nD => (positions (F := F) c : sProp 𝕄)) payToks).symm)
      isplitl [Hat]; · iexact Hat
      iexact Htk
    · iexact Hout

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Every device owing each neighbour's barrier cell a unit and each neighbour's arrival cell a plane's credit, a device's
    own launch credit is three units on its barrier cell and a plane's credit on each arrival cell. -/
theorem creds (c : Dev nD) : (Pipeline.launchCred O₀ c : sProp 𝕄) ⊢ credits c := by
  have e : (O₀ : Dev nD → CellTallies nD τ sig Unit)
      = fun d => tallyAt (((peer 2 d : Dev nD) : Thread nD τ), SemLoc.dma (recvS 2)) () N
          + tallyAt (((peer 1 d : Dev nD) : Thread nD τ), SemLoc.dma (recvS 1)) () N
          + tallyAt (((peer 0 d : Dev nD) : Thread nD τ), SemLoc.dma (recvS 0)) () N
          + tallyAt (((peer 2 d : Dev nD) : Thread nD τ), SemLoc.reg barS) () 1
          + tallyAt (((peer 1 d : Dev nD) : Thread nD τ), SemLoc.reg barS) () 1
          + tallyAt (((peer 0 d : Dev nD) : Thread nD τ), SemLoc.reg barS) () 1 := funext fun d => rfl
  rw [e, Pipeline.launchCred_add, Pipeline.launchCred_add, Pipeline.launchCred_add, Pipeline.launchCred_add, Pipeline.launchCred_add]
  iintro ⟨⟨⟨⟨⟨HA, HB⟩, HC⟩, HD⟩, HE⟩, HF⟩
  ihave HA' := (Pipeline.launchCred_tallyAt (SemLoc.dma (recvS 2)) (peer 2) (peer 2) (peer_peer 2) (peer_peer 2) () N c) $$ HA
  ihave HB' := (Pipeline.launchCred_tallyAt (SemLoc.dma (recvS 1)) (peer 1) (peer 1) (peer_peer 1) (peer_peer 1) () N c) $$ HB
  ihave HC' := (Pipeline.launchCred_tallyAt (SemLoc.dma (recvS 0)) (peer 0) (peer 0) (peer_peer 0) (peer_peer 0) () N c) $$ HC
  ihave HD' := (Pipeline.launchCred_tallyAt (SemLoc.reg barS) (peer 2) (peer 2) (peer_peer 2) (peer_peer 2) () 1 c) $$ HD
  ihave HE' := (Pipeline.launchCred_tallyAt (SemLoc.reg barS) (peer 1) (peer 1) (peer_peer 1) (peer_peer 1) () 1 c) $$ HE
  ihave HF' := (Pipeline.launchCred_tallyAt (SemLoc.reg barS) (peer 0) (peer 0) (peer_peer 0) (peer_peer 0) () 1 c) $$ HF
  unfold credits
  have h3 : (tallyAt (barCell c) () 3 : CellTallies nD τ sig Unit)
      = tallyAt (barCell c) () 1 + tallyAt (barCell c) () 1 + tallyAt (barCell c) () 1 := by
    rw [tallyAt_add, tallyAt_add]
  rw [h3, bigSep_fin3]
  isplitl [HD' HE' HF']
  · iapply (cred_add _ _).2
    isplitr [HF']
    · iapply (cred_add _ _).2
      isplitl [HD'] <;> iassumption
    · iexact HF'
  · isplitl [HC']; · iexact HC'
    isplitl [HB'] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold G'
  iintro ⟨Hv, Hlev, Hcr, -, HG, HO1, HO2⟩
  ihave Hc := (creds (F := F) c) $$ Hcr
  imodintro
  unfold start
  isplitl
  · isplitl [HG]; · iexact HG
    isplitl [Hc]; · iexact Hc
    isplitl [Hlev]; · iexact Hlev
    isplitl [HO1]; · iexact HO1
    isplitl [HO2]; · iexact HO2
    iexact Hv
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N)
      ⊢ iprop((((c : Thread nD τ).loc main_v1) ↦{fullShare} outVal m ρ c) ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ scratch
  rw [bigSep_fin3, bigSep_fin3]
  iintro ⟨Hr, ⟨S0, S1, S2⟩, ⟨R0, R1, R2⟩, O1, O2, Hv⟩
  isplitl [Hv]; · iexact Hv
  isplitr [Hr]
  · isplitl [S0]; · iexact S0
    isplitl [S1]; · iexact S1
    isplitl [S2]; · iexact S2
    isplitl [R0]; · iexact R0
    isplitl [R1]; · iexact R1
    isplitl [R2]; · iexact R2
    isplitl [O1] <;> iassumption
  · iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

omit [FloatOps F] in
/-- The exchange's component reached through the right half of the user algebra and then its left half is the exchange's
    embedding. -/
theorem own_ER (x : UB) :
    (BI.own (((Emb.inl : Emb UB (UB × Counters)).trans (embR : Emb (UB × Counters) 𝕄)) x) : sProp 𝕄) ⊢ BI.own (ER x) := .rfl

set_option maxRecDepth 8000 in
/-- At the compiled mesh of eight devices, for any float values, from any memory with zero counters, given each device's
    body: every weakly fair execution of @main terminates, and every final state has each device's argument block
    unchanged and its result block holding the finished block. -/
theorem run_main (hbody : ∀ c, BodyObligation (dats (F := F) m ρ 0 c) (defs₀ (F := F)) 𝒱₀ () Set.univ) :
    θ_run defs (onTc (τ := τ) (main (F := F))) (s₀ m ρ)
      (fun r => ∀ c : Dev nD, r.2.mem ((c : Thread nD τ).loc main_arg0) = m ((c : Thread nD τ).loc main_arg0)
        ∧ r.2.mem ((c : Thread nD τ).loc main_v1) = outVal m ρ c) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H2 := (own_pair_emb (embR : Emb (UB × Counters) 𝕄) (initOf ringCells ringToks) (1 : Counters)) $$ HX
      icases H2 with ⟨HR, -⟩
      ihave HR' := (own_ER (F := F) (initOf ringCells ringToks)) $$ HR
      imod (fund_ring m ρ) $$ HR' with HG
      imodintro
      isplitl [HP] <;> iassumption)
    (hglob := glob m ρ)
    (hA := fun _ _ => rfl) (hpf := fun _ k => k.elim0)
    (X := start m ρ) (Y := fun c => iprop(((c : Thread nD τ).loc main_v1) ↦{fullShare} outVal m ρ c)) (Z := fun _ => iprop(emp))
    (hX := start_intro m ρ) (hin := phi0_intro m ρ) (hout := phi1_exit m ρ)
    (QY := fun c s => s.mem ((c : Thread nD τ).loc main_v1) = outVal m ρ c)
    (hY := fun c s' => by
      iintro ⟨Hy, -, HSI⟩
      icombine HSI Hy gives %hy
      imodintro
      isplitr; · ipureintro; exact Buf.eq_of_forall_mem_univ hy
      iexact HSI)
    (hQ := fun s h c => ⟨((h c).1 (0 : Fin 1)).trans ((dats (F := F) m ρ 0 c).arrAt_in (0 : Fin 1) rfl _), (h c).2.2⟩)

/-- info: 'Cert.KernelIdeal.Halo.run_main' depends on axioms: [propext, Classical.choice, Quot.sound] -/
#guard_msgs in #print axioms run_main

end Cert.KernelIdeal.Halo

end
-- ==== Proof.BodyOb.lean ====
/-
  The body's run on a device, in the form the launch asks for: from what the device holds when its body starts — the
  cells' invariants, its tokens, positions and credit, its buffers — to what it holds when the body ends.
-/
import proofs.«900807_g7700000000000808_dist_halo3d_v7x_xyz2x2x2_s64_bf16_1_alg».proof.Proof.BodyDefs

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A whole staging buffer owned at given contents is the buffer at some contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A whole buffer through its view is the buffer. -/
theorem whole_pts (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  rw [View.set_whole]

omit [FloatOps F] in
theorem open3 (Φ : Fin 3 → sProp 𝕄) : bigSep Finset.univ Φ = iprop(Φ 0 ∗ Φ 1 ∗ Φ 2) := bigSep_univ_eq_bigSepL [0, 1, 2] (by decide) (by decide) Φ
omit [FloatOps F] in
theorem open7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The staged block at the point is the device's block of the argument. -/
theorem before_x (c : Dev nD) (d : (cfg0.win (0 : Fin 1)).block.Idx → Elt F (cfg0.win (0 : Fin 1)).elt) :
    (dats m ρ 0 c).before (0 : Fin 1) t₀ d = xblk m ρ c := by
  unfold Dat.before; rw [if_pos (fetch0_0 t₀)]; rfl

/-- What the body's run leaves is what the launch asks the body to leave: the scratch buffers at some contents, the
    eight own semaphores at zero, the result block's buffer at the finished block, nothing owed, the staged block. -/
theorem done_post (c : Dev nD) : bodyDone m ρ c (outVal m ρ c) ⊢ bodyPost m ρ c := by
  unfold bodyDone bodyPost Φ₁ scratch
  rw [open3, open3]
  iintro ⟨⟨%gv, Hv⟩, ⟨%g0, Hs0⟩, ⟨%g1, Hs1⟩, ⟨%g2, Hs2⟩, ⟨%h0, Hr0⟩, ⟨%h1, Hr1⟩, ⟨%h2, Hr2⟩, Z0, Z1, Z2, Y0, Y1, Y2, O1, O2, Hout, ⟨%W', HO⟩, Hx⟩
  isplitr [HO Hx]
  · isplitl [Hv Hs0 Hs1 Hs2 Hr0 Hr1 Hr2]
    · isplitl [Hv]; · iexists gv; rw [whole_pts]; iexact Hv
      isplitl [Hs0]; · iexists g0; rw [whole_pts]; iexact Hs0
      isplitl [Hs1]; · iexists g1; rw [whole_pts]; iexact Hs1
      isplitl [Hs2]; · iexists g2; rw [whole_pts]; iexact Hs2
      isplitl [Hr0]; · iexists h0; rw [whole_pts]; iexact Hr0
      isplitl [Hr1]; · iexists h1; rw [whole_pts]; iexact Hr1
      iexists h2; rw [whole_pts]; iexact Hr2
    isplitl [Z0 Z1 Z2]
    · isplitl [Z0]; · iexact Z0
      isplitl [Z1] <;> iassumption
    isplitl [Y0 Y1 Y2]
    · isplitl [Y0]; · iexact Y0
      isplitl [Y1] <;> iassumption
    isplitl [O1]; · iexact O1
    isplitl [O2]; · iexact O2
    rw [whole_pts]; iexact Hout
  isplitl [HO]
  · iexists W'
    isplitr; · ipureintro; exact fun _ _ => Or.inl trivial
    iexact HO
  · iexists _
    isplitr; · (ipureintro; rfl)
    rw [whole_pts]; iexact Hx

set_option maxRecDepth 8000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ (bodyAt0 t₀) (fun _ => bodyPost m ρ c)
  unfold bodyPre' Φ₀ start ghost invs marks positions payToks credits scratch
  simp only [open3, open7]
  iintro ⟨⟨⟨⟨%K, ⟨⟨I0, I1, I2, I3, I4, I5, I6⟩, ⟨Ib0, Ib1, Ib2⟩, Ir0, Ir1, Ir2⟩, ⟨⟨Mb0, Mb1, Mb2⟩, ⟨Mr0, Mr1, Mr2⟩, ⟨Ms0, Ms1, Ms2⟩, Mq0, Mq1, Mq2⟩,
      ⟨P0, P1, P2, P3, P4, P5, P6⟩, ⟨Tb0, Tb1, Tb2⟩, ⟨Tr0, Tr1, Tr2⟩, Ts0, Ts1, Ts2⟩, ⟨CB, CR0, CR1, CR2⟩, Hlev, Hz1, Hz2, Hout⟩,
      ⟨%fv, Hv⟩, ⟨%fs0, Hs0⟩, ⟨%fs1, Hs1⟩, ⟨%fs2, Hs2⟩, ⟨%fr0, Hr0⟩, ⟨%fr1, Hr1⟩, ⟨%fr2, Hr2⟩⟩, ⟨%W, %hW, HO⟩, ⟨%d, %fx, %hx, Hx⟩⟩
  rw [before_x] at hx
  subst hx
  iapply ((bodyRun m ρ c).2 K (fun _ => bodyPost m ρ c) W (m ((c : Thread nD τ).loc main_v1)) fv fs0 fs1 fs2 fr0 fr1 fr2 t₀)
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [Ib0]; · iexact Ib0
  isplitl [Ib1]; · iexact Ib1
  isplitl [Ib2]; · iexact Ib2
  isplitl [Ir0]; · iexact Ir0
  isplitl [Ir1]; · iexact Ir1
  isplitl [Ir2]; · iexact Ir2
  isplitl [Mb0]; · iexact Mb0
  isplitl [Mb1]; · iexact Mb1
  isplitl [Mb2]; · iexact Mb2
  isplitl [Mr0]; · iexact Mr0
  isplitl [Mr1]; · iexact Mr1
  isplitl [Mr2]; · iexact Mr2
  isplitl [Ms0]; · iexact Ms0
  isplitl [Ms1]; · iexact Ms1
  isplitl [Ms2]; · iexact Ms2
  isplitl [Mq0]; · iexact Mq0
  isplitl [Mq1]; · iexact Mq1
  isplitl [Mq2]; · iexact Mq2
  isplitl [Hlev]; · iexact Hlev
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [Tb0]; · iexact Tb0
  isplitl [Tb1]; · iexact Tb1
  isplitl [Tb2]; · iexact Tb2
  isplitl [Tr0]; · iexact Tr0
  isplitl [Tr1]; · iexact Tr1
  isplitl [Tr2]; · iexact Tr2
  isplitl [Ts0]; · iexact Ts0
  isplitl [Ts1]; · iexact Ts1
  isplitl [Ts2]; · iexact Ts2
  isplitl [CB]; · iexact CB
  isplitl [CR0]; · iexact CR0
  isplitl [CR1]; · iexact CR1
  isplitl [CR2]; · iexact CR2
  isplitl [Hz1]; · iexact Hz1
  isplitl [Hz2]; · iexact Hz2
  isplitl [Hout]; · rw [← whole_pts]; iexact Hout
  isplitl [Hv]; · rw [← whole_pts]; iexact Hv
  isplitl [Hs0]; · rw [← whole_pts]; iexact Hs0
  isplitl [Hs1]; · rw [← whole_pts]; iexact Hs1
  isplitl [Hs2]; · rw [← whole_pts]; iexact Hs2
  isplitl [Hr0]; · rw [← whole_pts]; iexact Hr0
  isplitl [Hr1]; · rw [← whole_pts]; iexact Hr1
  isplitl [Hr2]; · rw [← whole_pts]; iexact Hr2
  isplitl [Hx]; · rw [← whole_pts]; iexact Hx
  isplitl [HO]; · iexact HO
  iintro H
  iapply (done_post m ρ c)
  iexact H

/-- info: 'Cert.KernelIdeal.Halo.body_obligation' depends on axioms: [propext, Classical.choice, Quot.sound] -/
#guard_msgs in #print axioms body_obligation

end Cert.KernelIdeal.Halo

end
-- ==== Proof.Bits.Sched.lean ====
/-
  The halo exchange's protocol on the 2 × 2 × 2 mesh. A device has three neighbours, one across each cut
  (`peer a c`: the device whose coordinate on axis `a` is the other one; an involution). Every device signals its
  three neighbours' barrier semaphore, waits for three units on its own, sends the face plane that borders neighbour
  `a` into that neighbour's receive plane `a`, and waits for its three departures and its three arrivals.
  Seven semaphore cells a device: the barrier (three duties, one paid by each neighbour, each handing over that
  neighbour's receive plane for the axis and the fact that the neighbour stands at round 0 of its receive cell),
  three departure cells (the source plane comes back) and three arrival cells (the receive plane, holding the
  neighbour's face plane). What a device owes at launch: a unit to each neighbour's barrier, a plane's credit to each
  neighbour's arrival cell. Levels: arrival cells above barrier cells above everything else.
-/
import proofs.«900807_g7700000000000808_dist_halo3d_v7x_xyz2x2x2_s64_bf16_1_alg».proof.Proof.Gen.Kernel
import proofs.«900807_g7700000000000808_dist_halo3d_v7x_xyz2x2x2_s64_bf16_1_alg».proof.Proof.Gen.Kernel.Skeleton
import proofs.«900807_g7700000000000808_dist_halo3d_v7x_xyz2x2x2_s64_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties named by axis) -/

abbrev UB : Type := URounds (GSem nD τ sig) (Fin 3)
/-- Three components side by side: the pipeline library's copy, the exchange's, and the exclusive counters the
    result copy's flight takes its tokens from. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb

instance ER_landsIn : (ER (F := F)).LandsIn (upEmb : UEmb _ (MT nD τ sig Unit (Elt F) ℕ UU ℕ)) := by
  unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The neighbour across the cut of axis `a`: device numbers are row-major over (x, y, z), so the x-neighbour is
    four away, the y-neighbour two, the z-neighbour one. -/
def peer (a : Fin 3) (c : Dev nD) : Dev nD :=
  (![![4, 5, 6, 7, 0, 1, 2, 3], ![2, 3, 0, 1, 6, 7, 4, 5], ![1, 0, 3, 2, 5, 4, 7, 6]] : Fin 3 → Fin 8 → Fin 8) a c

theorem peer_peer (a : Fin 3) (c : Dev nD) : peer a (peer a c) = c := by revert a c; decide

/-- The kernel's `device_id` chains: the three signals and the three transfers name the three neighbours in axis order. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

def swap (a : Fin 3) : Dev nD ≃ Dev nD := ⟨peer a, peer a, peer_peer a, peer_peer a⟩

/-! ## The memrefs and cells -/

abbrev xM : Memref sig .tc .vmem S64x64x64 .f32 := Memref.whole cc0_stg0_0
abbrev oM : Memref sig .tc .hbm S64x64x64 .bf16 := Memref.whole main_v1
abbrev vM : Memref sig .tc .vmem S64x64x64 .bf16 := Memref.whole cc0_scratch0
/-- The plane sent along axis `a` and the plane received along it. -/
abbrev sM : Fin 3 → Memref sig .tc .vmem S64x64 .bf16
  | 0 => Memref.whole cc0_scratch1 | 1 => Memref.whole cc0_scratch2 | 2 => Memref.whole cc0_scratch3
abbrev rM : Fin 3 → Memref sig .tc .vmem S64x64 .bf16
  | 0 => Memref.whole cc0_scratch4 | 1 => Memref.whole cc0_scratch5 | 2 => Memref.whole cc0_scratch6

/-- The runtime's barrier semaphore of collective id 0 (unscoped); the departure and arrival DMA semaphores of axis `a`. -/
abbrev barS : Sem sig := (SemArray.scalar (sig.barrier 0 rfl) : Sems sig S_).sem
abbrev sendS : Fin 3 → DmaSem sig
  | 0 => ((cc0_scratch7.slice (Rect.unit (s := S3) ![0] S1.size inb_S3_S1_0)).squeeze S_ squeezes_S1_S_).sem
  | 1 => ((cc0_scratch7.slice (Rect.unit (s := S3) ![1] S1.size inb_S3_S1_1)).squeeze S_ squeezes_S1_S_).sem
  | 2 => ((cc0_scratch7.slice (Rect.unit (s := S3) ![2] S1.size inb_S3_S1_2)).squeeze S_ squeezes_S1_S_).sem
abbrev recvS : Fin 3 → DmaSem sig
  | 0 => ((cc0_scratch8.slice (Rect.unit (s := S3) ![0] S1.size inb_S3_S1_0)).squeeze S_ squeezes_S1_S_).sem
  | 1 => ((cc0_scratch8.slice (Rect.unit (s := S3) ![1] S1.size inb_S3_S1_1)).squeeze S_ squeezes_S1_S_).sem
  | 2 => ((cc0_scratch8.slice (Rect.unit (s := S3) ![2] S1.size inb_S3_S1_2)).squeeze S_ squeezes_S1_S_).sem
/-- The semaphore of the copy of the finished block out to the result array. -/
abbrev outS : DmaSem sig := ((cc0_scratch9.slice (Rect.unit (s := S2) ![0] S1.size inb_S2_S1_0)).squeeze S_ squeezes_S1_S_).sem

abbrev barCell (c : Dev nD) : GSem nD τ sig := ((c : Thread nD τ), .reg barS)
abbrev sendCell (a : Fin 3) (c : Dev nD) : GSem nD τ sig := ((c : Thread nD τ), .dma (sendS a))
abbrev recvCell (a : Fin 3) (c : Dev nD) : GSem nD τ sig := ((c : Thread nD τ), .dma (recvS a))

theorem sendS_val (a : Fin 3) : (sendS a).val = 1 + a.val := by revert a; decide
theorem recvS_val (a : Fin 3) : (recvS a).val = 4 + a.val := by revert a; decide

abbrev N : ℕ := (rM 0 : Memref sig .tc .vmem S64x64 .bf16).view.dmaCredit
theorem N_pos : 0 < N := View.dmaCredit_pos _ (by decide)

/-! ## Contents -/

/-- A device's block of the argument, as the pipeline stages it. -/
def xblk (c : Dev nD) : (cc0_stg0_0 : Ref sig .tc).ty.Contents (Elt F) :=
  (win0_0.blk (0 : Fin 1)).view.read (Elt F) ((s₀ m ρ).mem ((c : Thread nD τ).loc main_arg0))

/-- The face plane a device sends along axis `a`: of its converted block, the last plane along the axis for a device in
    the lower half of the mesh along it (the plane that borders the neighbour above), the first plane for one in the upper. -/
def sPlane (a : Fin 3) (c : Dev nD) : FVec F S64x64 .bf16 :=
  match a with
  | 0 => if c.val / 4 = 0 then k0_pay12 (xblk m ρ c) else k0_pay13 (xblk m ρ c)
  | 1 => if c.val / 2 % 2 = 0 then k0_pay14 (xblk m ρ c) else k0_pay15 (xblk m ρ c)
  | 2 => if c.val % 2 = 0 then k0_pay16 (xblk m ρ c) else k0_pay17 (xblk m ρ c)

/-- What lands in a device's receive plane `a`: its neighbour's face plane. -/
def landed (a : Fin 3) (c : Dev nD) : FVec F S64x64 .bf16 := sPlane m ρ a (peer a c)

/-- The send plane of axis `a` on device `c`, whole, holding `f`; the receive plane likewise. -/
def sPts (a : Fin 3) (c : Dev nD) (f : FVec F S64x64 .bf16) : sProp 𝕄 :=
  match a with
  | 0 => (sM 0 : Memref sig .tc .vmem S64x64 .bf16).view.loc (c : Thread nD τ) ↦[(sM 0 : Memref sig .tc .vmem S64x64 .bf16).view.set]{fullShare} f
  | 1 => (sM 1 : Memref sig .tc .vmem S64x64 .bf16).view.loc (c : Thread nD τ) ↦[(sM 1 : Memref sig .tc .vmem S64x64 .bf16).view.set]{fullShare} f
  | 2 => (sM 2 : Memref sig .tc .vmem S64x64 .bf16).view.loc (c : Thread nD τ) ↦[(sM 2 : Memref sig .tc .vmem S64x64 .bf16).view.set]{fullShare} f
def rPts (a : Fin 3) (c : Dev nD) (f : FVec F S64x64 .bf16) : sProp 𝕄 :=
  match a with
  | 0 => (rM 0 : Memref sig .tc .vmem S64x64 .bf16).view.loc (c : Thread nD τ) ↦[(rM 0 : Memref sig .tc .vmem S64x64 .bf16).view.set]{fullShare} f
  | 1 => (rM 1 : Memref sig .tc .vmem S64x64 .bf16).view.loc (c : Thread nD τ) ↦[(rM 1 : Memref sig .tc .vmem S64x64 .bf16).view.set]{fullShare} f
  | 2 => (rM 2 : Memref sig .tc .vmem S64x64 .bf16).view.loc (c : Thread nD τ) ↦[(rM 2 : Memref sig .tc .vmem S64x64 .bf16).view.set]{fullShare} f

omit [FloatOps F] in
instance sPts_storable (a : Fin 3) (c : Dev nD) (f) : BI.Storable (upEmb : UEmb _ 𝕄) (sPts (F := F) a c f) := by
  unfold sPts; split <;> infer_instance
omit [FloatOps F] in
instance rPts_storable (a : Fin 3) (c : Dev nD) (f) : BI.Storable (upEmb : UEmb _ 𝕄) (rPts (F := F) a c f) := by
  unfold rPts; split <;> infer_instance

/-! ## The schedule -/

/-- What neighbour `peer a c`'s signal (duty `a` of `c`'s barrier cell) hands `c`: that neighbour's receive plane of
    the axis, at some contents, and that the neighbour has reached round 0 of its arrival cell of the axis. -/
def barPay (a : Fin 3) (c : Dev nD) : sProp 𝕄 := iprop((∃ f, rPts a (peer a c) f) ∗ reached ER (recvCell a (peer a c)) 0)
/-- An arrival hands over the receive plane holding the neighbour's face plane; a departure the send plane back. -/
def recvPay (a : Fin 3) (c : Dev nD) : sProp 𝕄 := rPts a c (landed m ρ a c)
def sendPay (a : Fin 3) (c : Dev nD) : sProp 𝕄 := sPts a c (sPlane m ρ a c)

/-- One round, round 0. A TensorCore's regular semaphore is the barrier: three duties, one a neighbour, a unit each.
    Its DMA semaphores 1 to 3 are the departure cells and 4 to 6 the arrival cells, one duty each of a plane's credit. -/
def ringRd : Rounds.Schedule (GSem nD τ sig) (Fin 3) 𝕄 where
  duties g r :=
    if r = 0 ∧ g.1.2 = .tc then
      (match g.2 with
        | .reg _ => Finset.univ
        | .dma q => if 1 ≤ q.val ∧ q.val ≤ 6 then {0} else ∅)
    else ∅
  unitless _ := False
  amount g _ _ := match g.2 with | .reg _ => 1 | .dma _ => N
  payload g _ d :=
    match g.2 with
    | .reg _ => barPay d g.1.1
    | .dma q =>
      if q.val = 1 then sendPay m ρ 0 g.1.1 else if q.val = 2 then sendPay m ρ 1 g.1.1 else if q.val = 3 then sendPay m ρ 2 g.1.1
      else if q.val = 4 then recvPay m ρ 0 g.1.1 else if q.val = 5 then recvPay m ρ 1 g.1.1 else if q.val = 6 then recvPay m ρ 2 g.1.1
      else iprop(emp)
  amount_pos g _ _ _ := by
    cases g.2 with
    | reg _ => exact Nat.one_pos
    | dma _ => exact N_pos

instance ringRd_payload_storable (g : GSem nD τ sig) (r : ℕ) (d : Fin 3) :
    BI.Storable (upEmb : UEmb _ 𝕄) ((ringRd (F := F) m ρ).payload g r d) := by
  show BI.Storable upEmb (match g.2 with
    | .reg _ => barPay d g.1.1
    | .dma q =>
      if q.val = 1 then sendPay m ρ 0 g.1.1 else if q.val = 2 then sendPay m ρ 1 g.1.1 else if q.val = 3 then sendPay m ρ 2 g.1.1
      else if q.val = 4 then recvPay m ρ 0 g.1.1 else if q.val = 5 then recvPay m ρ 1 g.1.1 else if q.val = 6 then recvPay m ρ 2 g.1.1
      else iprop(emp))
  unfold barPay recvPay sendPay
  (repeat' split) <;> infer_instance

section Sched
variable (c : Dev nD)

theorem duties_bar : (ringRd (F := F) m ρ).duties (barCell c) 0 = Finset.univ := rfl
theorem duties_send (a : Fin 3) : (ringRd (F := F) m ρ).duties (sendCell a c) 0 = {0} := by fin_cases a <;> rfl
theorem duties_recv (a : Fin 3) : (ringRd (F := F) m ρ).duties (recvCell a c) 0 = {0} := by fin_cases a <;> rfl
theorem duties_later (g : GSem nD τ sig) : ∀ r, 1 ≤ r → (ringRd (F := F) m ρ).duties g r = ∅ :=
  fun r hr => by dsimp only [ringRd]; rw [if_neg fun h => by omega]

theorem amount_bar (d : Fin 3) : (ringRd (F := F) m ρ).amount (barCell c) 0 d = 1 := rfl
theorem amount_send (a d : Fin 3) : (ringRd (F := F) m ρ).amount (sendCell a c) 0 d = N := rfl
theorem amount_recv (a d : Fin 3) : (ringRd (F := F) m ρ).amount (recvCell a c) 0 d = N := rfl

theorem expect_bar : (ringRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (a : Fin 3) : (ringRd (F := F) m ρ).expect (sendCell a c) 0 = N := by
  unfold Schedule.expect Schedule.amountOf; rw [duties_send, Finset.sum_singleton, amount_send]
theorem expect_recv (a : Fin 3) : (ringRd (F := F) m ρ).expect (recvCell a c) 0 = N := by
  unfold Schedule.expect Schedule.amountOf; rw [duties_recv, Finset.sum_singleton, amount_recv]

theorem payload_bar (d : Fin 3) : (ringRd (F := F) m ρ).payload (barCell c) 0 d = barPay d c := rfl
theorem payload_send (a d : Fin 3) : (ringRd (F := F) m ρ).payload (sendCell a c) 0 d = sendPay m ρ a c := by fin_cases a <;> rfl
theorem payload_recv (a d : Fin 3) : (ringRd (F := F) m ρ).payload (recvCell a c) 0 d = recvPay m ρ a c := by fin_cases a <;> rfl

/-- The rest of the barrier cell's round, no duty taken: the three neighbours' payloads. -/
theorem rest_bar : bigSep ((ringRd (F := F) m ρ).duties (barCell c) 0 \ ∅) (fun d => (ringRd (F := F) m ρ).payload (barCell c) 0 d)
    = iprop(barPay 0 c ∗ barPay 1 c ∗ barPay 2 c) := by
  rw [Finset.sdiff_empty, duties_bar, bigSep_univ_eq_bigSepL [0, 1, 2] (by decide) (by decide)]
  rfl
theorem rest_send (a : Fin 3) : bigSep ((ringRd (F := F) m ρ).duties (sendCell a c) 0 \ ∅) (fun d => (ringRd (F := F) m ρ).payload (sendCell a c) 0 d) = sendPay m ρ a c := by
  rw [Finset.sdiff_empty, duties_send, bigSep_singleton, payload_send]
theorem rest_recv (a : Fin 3) : bigSep ((ringRd (F := F) m ρ).duties (recvCell a c) 0 \ ∅) (fun d => (ringRd (F := F) m ρ).payload (recvCell a c) 0 d) = recvPay m ρ a c := by
  rw [Finset.sdiff_empty, duties_recv, bigSep_singleton, payload_recv]

end Sched

/-! ## What each device owes at launch; the levels -/

/-- A device owes each neighbour's arrival cell a plane's credit and each neighbour's barrier cell a unit — summed so
    that the signals, in axis order, peel the last three summands one after the other, and then the transfers, in
    axis order, the next three. -/
def O₃ (c : Dev nD) : CellTallies nD τ sig Unit :=
  tallyAt (recvCell 2 (peer 2 c)) () N + tallyAt (recvCell 1 (peer 1 c)) () N + tallyAt (recvCell 0 (peer 0 c)) () N
def O₂ (c : Dev nD) : CellTallies nD τ sig Unit := O₃ c + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1

def L (g : GSem nD τ sig) : Finset Unit := if g.1.2 = .tc then {()} else ∅
/-- Barrier cells at 1, arrival cells (DMA semaphores 4 to 6) at 2, everything else at 0. -/
def lv (g : GSem nD τ sig) (_ : Unit) : ℕ := match g.2 with | .reg _ => 1 | .dma q => if 4 ≤ q.val ∧ q.val ≤ 6 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (a : Fin 3) (c : Dev nD) : lv (recvCell a c) () = 2 := by fin_cases a <;> rfl

theorem tally_pos {g' g : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

/-- A cell the three arrival credits touch is a neighbour's arrival cell. -/
theorem O₃_pos {c : Dev nD} {g : GSem nD τ sig} {u : Unit} (h : 0 < O₃ c g u) : ∃ a, g = recvCell a (peer a c) := by
  unfold O₃ at h
  rcases Pipeline.add_pos_cases h with h | h
  · rcases Pipeline.add_pos_cases h with h | h
    · exact ⟨2, tally_pos h⟩
    · exact ⟨1, tally_pos h⟩
  · exact ⟨0, tally_pos h⟩

/-- A cell anything owed at launch touches is a neighbour's arrival cell or a neighbour's barrier cell. -/
theorem O₀_pos {c : Dev nD} {g : GSem nD τ sig} {u : Unit} (h : 0 < O₀ c g u) :
    (∃ a, g = recvCell a (peer a c)) ∨ (∃ a, g = barCell (peer a c)) := by
  unfold O₀ O₁ O₂ at h
  rcases Pipeline.add_pos_cases h with h | h
  · rcases Pipeline.add_pos_cases h with h | h
    · rcases Pipeline.add_pos_cases h with h | h
      · exact Or.inl (O₃_pos h)
      · exact Or.inr ⟨2, tally_pos h⟩
    · exact Or.inr ⟨1, tally_pos h⟩
  · exact Or.inr ⟨0, tally_pos h⟩

omit [FloatOps F] in
/-- A wait on a cell of level 0 (a staging, departure or result-copy cell) is allowed whatever of the launch's dues is
    still owed, or nothing. -/
theorem mayWait_low (c : Dev nD) (q : DmaSem sig) (hq : ¬ (4 ≤ q.val ∧ q.val ≤ 6)) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    have hlow : lv ((c : Thread nD τ), SemLoc.dma q) () = 0 := by dsimp only [lv]; rw [if_neg hq]
    rcases O₀_pos hg with ⟨a, rfl⟩ | ⟨a, rfl⟩
    · exact ⟨by rw [L_tc]; exact Finset.mem_singleton_self _, by rw [hlow, lv_recv]; decide⟩
    · exact ⟨by rw [L_tc]; exact Finset.mem_singleton_self _, by rw [hlow, lv_bar]; decide⟩
  · rw [MayWait_zero]; iintro -; iempintro

omit [FloatOps F] in
/-- At its barrier wait a device owes the three arrival credits only: arrival cells, above its barrier cell. -/
theorem mayWait_bar (c : Dev nD) :
    (levAts L lv : sProp 𝕄) ⊢ MayWait (c : Thread nD τ) (.reg barS) () (O₃ c) :=
  Pipeline.mayWait_of_levAts (by rw [L_tc]; exact Finset.mem_singleton_self _) fun g i hg => by
    obtain ⟨a, rfl⟩ := O₃_pos hg
    exact ⟨by rw [L_tc]; exact Finset.mem_singleton_self _, by rw [lv_recv]; show (1 : ℕ) < 2; decide⟩

/-! ## The result copy's semaphores; the variants -/

/-- The two semaphores of the result copy's array (the copy uses the first). -/
abbrev out2S : DmaSem sig := ⟨8, by decide⟩
abbrev outCell (c : Dev nD) : GSem nD τ sig := ((c : Thread nD τ), .dma outS)
abbrev out2Cell (c : Dev nD) : GSem nD τ sig := ((c : Thread nD τ), .dma out2S)

abbrev 𝒱₀ : Variants := Variants.none

end Cert.Kernel.Halo

end
-- ==== Proof.Bits.Tables.lean ====
/-
  The schedule's tables at each axis, with the planes spelt as the buffers they are and each axis's departure and
  arrival cell named by itself: what a duty of each cell hands over, seen from the device that pays it and from the
  device that waits for it.
-/
import proofs.«900807_g7700000000000808_dist_halo3d_v7x_xyz2x2x2_s64_bf16_1_alg».proof.Proof.Bits.Sched

noncomputable section

namespace Cert.Kernel.Halo

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (ρ : Dev nD → PrngReg)

theorem duties_bar3 (c : Dev nD) : (ringRd (F := F) m ρ).duties (barCell c) 0 = {0, 1, 2} := by
  rw [duties_bar]; decide

/-! ### Axis 0 -/

/-- The departure and the arrival semaphore of axis 0, and their cells on a device. -/
abbrev sendS0 : DmaSem sig := ((cc0_scratch7.slice (Rect.unit (s := S3) ![0] S1.size inb_S3_S1_0)).squeeze S_ squeezes_S1_S_).sem
abbrev recvS0 : DmaSem sig := ((cc0_scratch8.slice (Rect.unit (s := S3) ![0] S1.size inb_S3_S1_0)).squeeze S_ squeezes_S1_S_).sem
abbrev sendCell0 (c : Dev nD) : GSem nD τ sig := ((c : Thread nD τ), .dma sendS0)
abbrev recvCell0 (c : Dev nD) : GSem nD τ sig := ((c : Thread nD τ), .dma recvS0)
theorem sendCell0_eq (c : Dev nD) : sendCell0 c = sendCell 0 c := rfl
theorem recvCell0_eq (c : Dev nD) : recvCell0 c = recvCell 0 c := rfl

theorem duties_send0 (c : Dev nD) : (ringRd (F := F) m ρ).duties (sendCell0 c) 0 = {0} := duties_send m ρ c 0
theorem duties_recv0 (c : Dev nD) : (ringRd (F := F) m ρ).duties (recvCell0 c) 0 = {0} := duties_recv m ρ c 0
theorem amount_send0 (c : Dev nD) (d : Fin 3) : (ringRd (F := F) m ρ).amount (sendCell0 c) 0 d = N := amount_send m ρ c 0 d
theorem amount_recv0 (c : Dev nD) (d : Fin 3) : (ringRd (F := F) m ρ).amount (recvCell0 c) 0 d = N := amount_recv m ρ c 0 d
theorem expect_send0 (c : Dev nD) : (ringRd (F := F) m ρ).expect (sendCell0 c) 0 = N := expect_send m ρ c 0
theorem expect_recv0 (c : Dev nD) : (ringRd (F := F) m ρ).expect (recvCell0 c) 0 = N := expect_recv m ρ c 0

theorem bar_pay_peer0 (c : Dev nD) : (ringRd (F := F) m ρ).payload (barCell (peer 0 c)) 0 0
    = iprop((∃ f, ((Memref.whole cc0_scratch4 : Memref sig .tc .vmem S64x64 .bf16).view.loc (c : Thread nD τ) ↦[(Memref.whole cc0_scratch4 : Memref sig .tc .vmem S64x64 .bf16).view.set]{fullShare} f)) ∗ reached ER (recvCell0 c) 0) := by
  rw [payload_bar]; unfold barPay; rw [peer_peer]; rfl
theorem bar_pay0 (c : Dev nD) : (ringRd (F := F) m ρ).payload (barCell c) 0 0
    = iprop((∃ f, ((Memref.whole cc0_scratch4 : Memref sig .tc .vmem S64x64 .bf16).view.loc (peer 0 c : Thread nD τ) ↦[(Memref.whole cc0_scratch4 : Memref sig .tc .vmem S64x64 .bf16).view.set]{fullShare} f)) ∗ reached ER (recvCell0 (peer 0 c)) 0) := by
  rw [payload_bar]; rfl
theorem send_pay0 (c : Dev nD) : (ringRd (F := F) m ρ).payload (sendCell0 c) 0 0
    = ((Memref.whole cc0_scratch1 : Memref sig .tc .vmem S64x64 .bf16).view.loc (c : Thread nD τ) ↦[(Memref.whole cc0_scratch1 : Memref sig .tc .vmem S64x64 .bf16).view.set]{fullShare} sPlane m ρ 0 c) := by
  show (ringRd (F := F) m ρ).payload (sendCell 0 c) 0 0 = _
  rw [payload_send]; rfl
theorem recv_pay0 (c : Dev nD) : (ringRd (F := F) m ρ).payload (recvCell0 c) 0 0
    = ((Memref.whole cc0_scratch4 : Memref sig .tc .vmem S64x64 .bf16).view.loc (c : Thread nD τ) ↦[(Memref.whole cc0_scratch4 : Memref sig .tc .vmem S64x64 .bf16).view.set]{fullShare} landed m ρ 0 c) := by
  show (ringRd (F := F) m ρ).payload (recvCell 0 c) 0 0 = _
  rw [payload_recv]; rfl
theorem recv_pay_peer0 (c : Dev nD) : (ringRd (F := F) m ρ).payload (recvCell0 (peer 0 c)) 0 0
    = ((Memref.whole cc0_scratch4 : Memref sig .tc .vmem S64x64 .bf16).view.loc (peer 0 c : Thread nD τ) ↦[(Memref.whole cc0_scratch4 : Memref sig .tc .vmem S64x64 .bf16).view.set]{fullShare} sPlane m ρ 0 c) := by
  show (ringRd (F := F) m ρ).payload (recvCell 0 (peer 0 c)) 0 0 = _
  rw [payload_recv]; unfold recvPay landed; rw [peer_peer]; rfl

/-! ### Axis 1 -/

/-- The departure and the arrival semaphore of axis 1, and their cells on a device. -/
abbrev sendS1 : DmaSem sig := ((cc0_scratch7.slice (Rect.unit (s := S3) ![1] S1.size inb_S3_S1_1)).squeeze S_ squeezes_S1_S_).sem
abbrev recvS1 : DmaSem sig := ((cc0_scratch8.slice (Rect.unit (s := S3) ![1] S1.size inb_S3_S1_1)).squeeze S_ squeezes_S1_S_).sem
abbrev sendCell1 (c : Dev nD) : GSem nD τ sig := ((c : Thread nD τ), .dma sendS1)
abbrev recvCell1 (c : Dev nD) : GSem nD τ sig := ((c : Thread nD τ), .dma recvS1)
theorem sendCell1_eq (c : Dev nD) : sendCell1 c = sendCell 1 c := rfl
theorem recvCell1_eq (c : Dev nD) : recvCell1 c = recvCell 1 c := rfl

theorem duties_send1 (c : Dev nD) : (ringRd (F := F) m ρ).duties (sendCell1 c) 0 = {0} := duties_send m ρ c 1
theorem duties_recv1 (c : Dev nD) : (ringRd (F := F) m ρ).duties (recvCell1 c) 0 = {0} := duties_recv m ρ c 1
theorem amount_send1 (c : Dev nD) (d : Fin 3) : (ringRd (F := F) m ρ).amount (sendCell1 c) 0 d = N := amount_send m ρ c 1 d
theorem amount_recv1 (c : Dev nD) (d : Fin 3) : (ringRd (F := F) m ρ).amount (recvCell1 c) 0 d = N := amount_recv m ρ c 1 d
theorem expect_send1 (c : Dev nD) : (ringRd (F := F) m ρ).expect (sendCell1 c) 0 = N := expect_send m ρ c 1
theorem expect_recv1 (c : Dev nD) : (ringRd (F := F) m ρ).expect (recvCell1 c) 0 = N := expect_recv m ρ c 1

theorem bar_pay_peer1 (c : Dev nD) : (ringRd (F := F) m ρ).payload (barCell (peer 1 c)) 0 1
    = iprop((∃ f, ((Memref.whole cc0_scratch5 : Memref sig .tc .vmem S64x64 .bf16).view.loc (c : Thread nD τ) ↦[(Memref.whole cc0_scratch5 : Memref sig .tc .vmem S64x64 .bf16).view.set]{fullShare} f)) ∗ reached ER (recvCell1 c) 0) := by
  rw [payload_bar]; unfold barPay; rw [peer_peer]; rfl
theorem bar_pay1 (c : Dev nD) : (ringRd (F := F) m ρ).payload (barCell c) 0 1
    = iprop((∃ f, ((Memref.whole cc0_scratch5 : Memref sig .tc .vmem S64x64 .bf16).view.loc (peer 1 c : Thread nD τ) ↦[(Memref.whole cc0_scratch5 : Memref sig .tc .vmem S64x64 .bf16).view.set]{fullShare} f)) ∗ reached ER (recvCell1 (peer 1 c)) 0) := by
  rw [payload_bar]; rfl
theorem send_pay1 (c : Dev nD) : (ringRd (F := F) m ρ).payload (sendCell1 c) 0 0
    = ((Memref.whole cc0_scratch2 : Memref sig .tc .vmem S64x64 .bf16).view.loc (c : Thread nD τ) ↦[(Memref.whole cc0_scratch2 : Memref sig .tc .vmem S64x64 .bf16).view.set]{fullShare} sPlane m ρ 1 c) := by
  show (ringRd (F := F) m ρ).payload (sendCell 1 c) 0 0 = _
  rw [payload_send]; rfl
theorem recv_pay1 (c : Dev nD) : (ringRd (F := F) m ρ).payload (recvCell1 c) 0 0
    = ((Memref.whole cc0_scratch5 : Memref sig .tc .vmem S64x64 .bf16).view.loc (c : Thread nD τ) ↦[(Memref.whole cc0_scratch5 : Memref sig .tc .vmem S64x64 .bf16).view.set]{fullShare} landed m ρ 1 c) := by
  show (ringRd (F := F) m ρ).payload (recvCell 1 c) 0 0 = _
  rw [payload_recv]; rfl
theorem recv_pay_peer1 (c : Dev nD) : (ringRd (F := F) m ρ).payload (recvCell1 (peer 1 c)) 0 0
    = ((Memref.whole cc0_scratch5 : Memref sig .tc .vmem S64x64 .bf16).view.loc (peer 1 c : Thread nD τ) ↦[(Memref.whole cc0_scratch5 : Memref sig .tc .vmem S64x64 .bf16).view.set]{fullShare} sPlane m ρ 1 c) := by
  show (ringRd (F := F) m ρ).payload (recvCell 1 (peer 1 c)) 0 0 = _
  rw [payload_recv]; unfold recvPay landed; rw [peer_peer]; rfl

/-! ### Axis 2 -/

/-- The departure and the arrival semaphore of axis 2, and their cells on a device. -/
abbrev sendS2 : DmaSem sig := ((cc0_scratch7.slice (Rect.unit (s := S3) ![2] S1.size inb_S3_S1_2)).squeeze S_ squeezes_S1_S_).sem
abbrev recvS2 : DmaSem sig := ((cc0_scratch8.slice (Rect.unit (s := S3) ![2] S1.size inb_S3_S1_2)).squeeze S_ squeezes_S1_S_).sem
abbrev sendCell2 (c : Dev nD) : GSem nD τ sig := ((c : Thread nD τ), .dma sendS2)
abbrev recvCell2 (c : Dev nD) : GSem nD τ sig := ((c : Thread nD τ), .dma recvS2)
theorem sendCell2_eq (c : Dev nD) : sendCell2 c = sendCell 2 c := rfl
theorem recvCell2_eq (c : Dev nD) : recvCell2 c = recvCell 2 c := rfl

theorem duties_send2 (c : Dev nD) : (ringRd (F := F) m ρ).duties (sendCell2 c) 0 = {0} := duties_send m ρ c 2
theorem duties_recv2 (c : Dev nD) : (ringRd (F := F) m ρ).duties (recvCell2 c) 0 = {0} := duties_recv m ρ c 2
theorem amount_send2 (c : Dev nD) (d : Fin 3) : (ringRd (F := F) m ρ).amount (sendCell2 c) 0 d = N := amount_send m ρ c 2 d
theorem amount_recv2 (c : Dev nD) (d : Fin 3) : (ringRd (F := F) m ρ).amount (recvCell2 c) 0 d = N := amount_recv m ρ c 2 d
theorem expect_send2 (c : Dev nD) : (ringRd (F := F) m ρ).expect (sendCell2 c) 0 = N := expect_send m ρ c 2
theorem expect_recv2 (c : Dev nD) : (ringRd (F := F) m ρ).expect (recvCell2 c) 0 = N := expect_recv m ρ c 2

theorem bar_pay_peer2 (c : Dev nD) : (ringRd (F := F) m ρ).payload (barCell (peer 2 c)) 0 2
    = iprop((∃ f, ((Memref.whole cc0_scratch6 : Memref sig .tc .vmem S64x64 .bf16).view.loc (c : Thread nD τ) ↦[(Memref.whole cc0_scratch6 : Memref sig .tc .vmem S64x64 .bf16).view.set]{fullShare} f)) ∗ reached ER (recvCell2 c) 0) := by
  rw [payload_bar]; unfold barPay; rw [peer_peer]; rfl
theorem bar_pay2 (c : Dev nD) : (ringRd (F := F) m ρ).payload (barCell c) 0 2
    = iprop((∃ f, ((Memref.whole cc0_scratch6 : Memref sig .tc .vmem S64x64 .bf16).view.loc (peer 2 c : Thread nD τ) ↦[(Memref.whole cc0_scratch6 : Memref sig .tc .vmem S64x64 .bf16).view.set]{fullShare} f)) ∗ reached ER (recvCell2 (peer 2 c)) 0) := by
  rw [payload_bar]; rfl
theorem send_pay2 (c : Dev nD) : (ringRd (F := F) m ρ).payload (sendCell2 c) 0 0
    = ((Memref.whole cc0_scratch3 : Memref sig .tc .vmem S64x64 .bf16).view.loc (c : Thread nD τ) ↦[(Memref.whole cc0_scratch3 : Memref sig .tc .vmem S64x64 .bf16).view.set]{fullShare} sPlane m ρ 2 c) := by
  show (ringRd (F := F) m ρ).payload (sendCell 2 c) 0 0 = _
  rw [payload_send]; rfl
theorem recv_pay2 (c : Dev nD) : (ringRd (F := F) m ρ).payload (recvCell2 c) 0 0
    = ((Memref.whole cc0_scratch6 : Memref sig .tc .vmem S64x64 .bf16).view.loc (c : Thread nD τ) ↦[(Memref.whole cc0_scratch6 : Memref sig .tc .vmem S64x64 .bf16).view.set]{fullShare} landed m ρ 2 c) := by
  show (ringRd (F := F) m ρ).payload (recvCell 2 c) 0 0 = _
  rw [payload_recv]; rfl
theorem recv_pay_peer2 (c : Dev nD) : (ringRd (F := F) m ρ).payload (recvCell2 (peer 2 c)) 0 0
    = ((Memref.whole cc0_scratch6 : Memref sig .tc .vmem S64x64 .bf16).view.loc (peer 2 c : Thread nD τ) ↦[(Memref.whole cc0_scratch6 : Memref sig .tc .vmem S64x64 .bf16).view.set]{fullShare} sPlane m ρ 2 c) := by
  show (ringRd (F := F) m ρ).payload (recvCell 2 (peer 2 c)) 0 0 = _
  rw [payload_recv]; unfold recvPay landed; rw [peer_peer]; rfl
end Cert.Kernel.Halo

end
-- ==== Proof.Bits.Body.lean ====
import proofs.«900807_g7700000000000808_dist_halo3d_v7x_xyz2x2x2_s64_bf16_1_alg».proof.Proof.Bits.Tables
import proofs.«900807_g7700000000000808_dist_halo3d_v7x_xyz2x2x2_s64_bf16_1_alg».proof.Proof.Gen.Kernel.Points

noncomputable section

namespace Cert.Kernel.Halo

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_rounds] duties_bar3 amount_bar expect_bar
  duties_send0 duties_recv0 amount_send0 amount_recv0 expect_send0 expect_recv0 bar_pay0 send_pay0 recv_pay0
  duties_send1 duties_recv1 amount_send1 amount_recv1 expect_send1 expect_recv1 bar_pay1 send_pay1 recv_pay1
  duties_send2 duties_recv2 amount_send2 amount_recv2 expect_send2 expect_recv2 bar_pay2 send_pay2 recv_pay2
attribute [local sl_rounds high] bar_pay_peer0 bar_pay_peer1 bar_pay_peer2 recv_pay_peer0 recv_pay_peer1 recv_pay_peer2
attribute [local sl_canon] dev1_eq dev2_eq dev3_eq dev4_eq dev5_eq dev6_eq
attribute [local irreducible] peer

theorem mayWait_bar' (c : Dev nD) :
    (levAts L lv : sProp 𝕄) ⊢ MayWait (c : Thread nD τ) (.reg barS) ()
      (tallyAt (recvCell2 (peer 2 c)) () N + tallyAt (recvCell1 (peer 1 c)) () N + tallyAt (recvCell0 (peer 0 c)) () N) := mayWait_bar c

/-! ## The device's mesh coordinates as the kernel computes them, and its guards -/

/-- The coordinate words: the device's logical id divided by the product of the later axes' sizes, modulo two. -/
def wX (c : Dev nD) : BitVec 32 := Scalar.remsi (Scalar.divsi (Dev.word c) 4#32) 2#32
def wY (c : Dev nD) : BitVec 32 := Scalar.remsi (Scalar.divsi (Dev.word c) 2#32) 2#32
def wZ (c : Dev nD) : BitVec 32 := Scalar.remsi (Scalar.divsi (Dev.word c) 1#32) 2#32
/-- A guard "this coordinate word is `k`", as printed: the comparison's bit widened and compared with zero. -/
def isW (w k : BitVec 32) : BitVec 1 := Scalar.cmpi .ne (Scalar.extui (Scalar.cmpi .eq w k)) 0#32

theorem gx0 (c : Dev nD) : Iff (isW (wX c) 0#32 = 1#1) (c.val / 4 = 0) := by revert c; decide +kernel
theorem gx1 (c : Dev nD) : Iff (isW (wX c) 1#32 = 1#1) (¬ c.val / 4 = 0) := by revert c; decide +kernel
theorem gy0 (c : Dev nD) : Iff (isW (wY c) 0#32 = 1#1) (c.val / 2 % 2 = 0) := by revert c; decide +kernel
theorem gy1 (c : Dev nD) : Iff (isW (wY c) 1#32 = 1#1) (¬ c.val / 2 % 2 = 0) := by revert c; decide +kernel
theorem gz0 (c : Dev nD) : Iff (isW (wZ c) 0#32 = 1#1) (c.val % 2 = 0) := by revert c; decide +kernel
theorem gz1 (c : Dev nD) : Iff (isW (wZ c) 1#32 = 1#1) (¬ c.val % 2 = 0) := by revert c; decide +kernel

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

/-- The staged block read whole is the block. -/
theorem read_x (c : Dev nD) :
    (Memref.whole cc0_stg0_0 : Memref sig .tc .vmem S64x64x64 .f32).view.readAt (Elt F)
      (Rect.unit (s := S64x64x64) ![0, 0, 0] S64x64x64.size inb_S64x64x64_S64x64x64_0_0_0).toLoadRect (xblk m ρ c) = xblk m ρ c :=
  Memref.readAt_unit_zero (Elt F) cc0_stg0_0 hz3 _ _

/-- The two guarded stores of axis 0's send plane, joined: exactly one of the two guards holds, and the plane then
    holds the face plane that guard stores, whatever it held before. -/
theorem plane_join0 {P Q : Prop} [Decidable P] [Decidable Q] {C : Prop} [Decidable C] (hP : P ↔ C) (hQ : Q ↔ ¬C)
    (f A B : (cc0_scratch1 : Ref sig .tc).ty.Contents (Elt F)) :
    (if hc : Q then
        (Memref.whole cc0_scratch1 : Memref sig .tc .vmem S64x64 .bf16).view.writes (Elt F)
          (if hc : P then (Memref.whole cc0_scratch1 : Memref sig .tc .vmem S64x64 .bf16).view.writes (Elt F) f
              [⟨Rect.unit (s := S64x64) ![0, 0] S64x64.size inb_S64x64_S64x64_0_0, A⟩] else f)
          [⟨Rect.unit (s := S64x64) ![0, 0] S64x64.size inb_S64x64_S64x64_0_0, B⟩]
      else if hc : P then (Memref.whole cc0_scratch1 : Memref sig .tc .vmem S64x64 .bf16).view.writes (Elt F) f
          [⟨Rect.unit (s := S64x64) ![0, 0] S64x64.size inb_S64x64_S64x64_0_0, A⟩] else f)
      = if C then A else B := by
  by_cases h : C
  · rw [dif_neg (fun q => (hQ.mp q) h), dif_pos (hP.mpr h), if_pos h, View.writes_singleton]
    exact Memref.write_access_unit_zero_univ (Elt F) cc0_scratch1 hz2 _ f A
  · rw [dif_pos (hQ.mpr h), if_neg h, View.writes_singleton]
    exact Memref.write_access_unit_zero_univ (Elt F) cc0_scratch1 hz2 _ _ B

/-- The two guarded stores of axis 1's send plane, joined: exactly one of the two guards holds, and the plane then
    holds the face plane that guard stores, whatever it held before. -/
theorem plane_join1 {P Q : Prop} [Decidable P] [Decidable Q] {C : Prop} [Decidable C] (hP : P ↔ C) (hQ : Q ↔ ¬C)
    (f A B : (cc0_scratch2 : Ref sig .tc).ty.Contents (Elt F)) :
    (if hc : Q then
        (Memref.whole cc0_scratch2 : Memref sig .tc .vmem S64x64 .bf16).view.writes (Elt F)
          (if hc : P then (Memref.whole cc0_scratch2 : Memref sig .tc .vmem S64x64 .bf16).view.writes (Elt F) f
              [⟨Rect.unit (s := S64x64) ![0, 0] S64x64.size inb_S64x64_S64x64_0_0, A⟩] else f)
          [⟨Rect.unit (s := S64x64) ![0, 0] S64x64.size inb_S64x64_S64x64_0_0, B⟩]
      else if hc : P then (Memref.whole cc0_scratch2 : Memref sig .tc .vmem S64x64 .bf16).view.writes (Elt F) f
          [⟨Rect.unit (s := S64x64) ![0, 0] S64x64.size inb_S64x64_S64x64_0_0, A⟩] else f)
      = if C then A else B := by
  by_cases h : C
  · rw [dif_neg (fun q => (hQ.mp q) h), dif_pos (hP.mpr h), if_pos h, View.writes_singleton]
    exact Memref.write_access_unit_zero_univ (Elt F) cc0_scratch2 hz2 _ f A
  · rw [dif_pos (hQ.mpr h), if_neg h, View.writes_singleton]
    exact Memref.write_access_unit_zero_univ (Elt F) cc0_scratch2 hz2 _ _ B

/-- The two guarded stores of axis 2's send plane, joined: exactly one of the two guards holds, and the plane then
    holds the face plane that guard stores, whatever it held before. -/
theorem plane_join2 {P Q : Prop} [Decidable P] [Decidable Q] {C : Prop} [Decidable C] (hP : P ↔ C) (hQ : Q ↔ ¬C)
    (f A B : (cc0_scratch3 : Ref sig .tc).ty.Contents (Elt F)) :
    (if hc : Q then
        (Memref.whole cc0_scratch3 : Memref sig .tc .vmem S64x64 .bf16).view.writes (Elt F)
          (if hc : P then (Memref.whole cc0_scratch3 : Memref sig .tc .vmem S64x64 .bf16).view.writes (Elt F) f
              [⟨Rect.unit (s := S64x64) ![0, 0] S64x64.size inb_S64x64_S64x64_0_0, A⟩] else f)
          [⟨Rect.unit (s := S64x64) ![0, 0] S64x64.size inb_S64x64_S64x64_0_0, B⟩]
      else if hc : P then (Memref.whole cc0_scratch3 : Memref sig .tc .vmem S64x64 .bf16).view.writes (Elt F) f
          [⟨Rect.unit (s := S64x64) ![0, 0] S64x64.size inb_S64x64_S64x64_0_0, A⟩] else f)
      = if C then A else B := by
  by_cases h : C
  · rw [dif_neg (fun q => (hQ.mp q) h), dif_pos (hP.mpr h), if_pos h, View.writes_singleton]
    exact Memref.write_access_unit_zero_univ (Elt F) cc0_scratch3 hz2 _ f A
  · rw [dif_pos (hQ.mpr h), if_neg h, View.writes_singleton]
    exact Memref.write_access_unit_zero_univ (Elt F) cc0_scratch3 hz2 _ _ B

/-- The staged block as the body's load reads it. -/
abbrev xRd (c : Dev nD) : Vec F S64x64x64 .f32 :=
  (Memref.whole cc0_stg0_0 : Memref sig .tc .vmem S64x64x64 .f32).view.readAt (Elt F)
    (Rect.unit (s := S64x64x64) ![0, 0, 0] S64x64x64.size inb_S64x64x64_S64x64x64_0_0_0).toLoadRect (xblk m ρ c)

theorem plane0_eq (c : Dev nD) : (if c.val / 4 = 0 then k0_pay12 (xRd m ρ c) else k0_pay13 (xRd m ρ c)) = sPlane m ρ 0 c := by
  unfold xRd; rw [read_x]; rfl
theorem plane1_eq (c : Dev nD) : (if c.val / 2 % 2 = 0 then k0_pay14 (xRd m ρ c) else k0_pay15 (xRd m ρ c)) = sPlane m ρ 1 c := by
  unfold xRd; rw [read_x]; rfl
theorem plane2_eq (c : Dev nD) : (if c.val % 2 = 0 then k0_pay16 (xRd m ρ c) else k0_pay17 (xRd m ρ c)) = sPlane m ρ 2 c := by
  unfold xRd; rw [read_x]; rfl

/-- What a device holds when its body has run: its scratch buffers at some contents, its six exchange cells closed
    and the result copy's two semaphores at zero, its block of the result holding `w`, nothing owed, and its staged
    block of the argument as it was. -/
def bodyDone (c : Dev nD) (w : (main_v1 : Ref sig .tc).ty.Contents (Elt F)) : sProp 𝕄 :=
  iprop((∃ f, ((Memref.whole cc0_scratch0 : Memref sig .tc .vmem S64x64x64 .bf16).view.loc (c : Thread nD τ) ↦[(Memref.whole cc0_scratch0 : Memref sig .tc .vmem S64x64x64 .bf16).view.set]{fullShare} f))
    ∗ (∃ f, ((Memref.whole cc0_scratch1 : Memref sig .tc .vmem S64x64 .bf16).view.loc (c : Thread nD τ) ↦[(Memref.whole cc0_scratch1 : Memref sig .tc .vmem S64x64 .bf16).view.set]{fullShare} f))
    ∗ (∃ f, ((Memref.whole cc0_scratch2 : Memref sig .tc .vmem S64x64 .bf16).view.loc (c : Thread nD τ) ↦[(Memref.whole cc0_scratch2 : Memref sig .tc .vmem S64x64 .bf16).view.set]{fullShare} f))
    ∗ (∃ f, ((Memref.whole cc0_scratch3 : Memref sig .tc .vmem S64x64 .bf16).view.loc (c : Thread nD τ) ↦[(Memref.whole cc0_scratch3 : Memref sig .tc .vmem S64x64 .bf16).view.set]{fullShare} f))
    ∗ (∃ f, ((Memref.whole cc0_scratch4 : Memref sig .tc .vmem S64x64 .bf16).view.loc (c : Thread nD τ) ↦[(Memref.whole cc0_scratch4 : Memref sig .tc .vmem S64x64 .bf16).view.set]{fullShare} f))
    ∗ (∃ f, ((Memref.whole cc0_scratch5 : Memref sig .tc .vmem S64x64 .bf16).view.loc (c : Thread nD τ) ↦[(Memref.whole cc0_scratch5 : Memref sig .tc .vmem S64x64 .bf16).view.set]{fullShare} f))
    ∗ (∃ f, ((Memref.whole cc0_scratch6 : Memref sig .tc .vmem S64x64 .bf16).view.loc (c : Thread nD τ) ↦[(Memref.whole cc0_scratch6 : Memref sig .tc .vmem S64x64 .bf16).view.set]{fullShare} f))
    ∗ semVal (sendCell0 c) 0
    ∗ semVal (sendCell1 c) 0
    ∗ semVal (sendCell2 c) 0
    ∗ semVal (recvCell0 c) 0
    ∗ semVal (recvCell1 c) 0
    ∗ semVal (recvCell2 c) 0
    ∗ semVal (outCell c) 0
    ∗ semVal (out2Cell c) 0
    ∗ ((Memref.whole main_v1 : Memref sig .tc .hbm S64x64x64 .bf16).view.loc (c : Thread nD τ) ↦[(Memref.whole main_v1 : Memref sig .tc .hbm S64x64x64 .bf16).view.set]{fullShare} w)
    ∗ (∃ W' : Waits sig Unit, owes (c : Thread nD τ) (0 : CellTallies nD τ sig Unit) W')
    ∗ ((Memref.whole cc0_stg0_0 : Memref sig .tc .vmem S64x64x64 .f32).view.loc (c : Thread nD τ) ↦[(Memref.whole cc0_stg0_0 : Memref sig .tc .vmem S64x64x64 .f32).view.set]{fullShare} (xblk m ρ c)))

set_option maxHeartbeats 4000000 in
/-- One device's run of the body, from what the launch hands it (the cells' invariants, its positions, tokens and
    credit, its buffers, what it owes) to `bodyDone`, with the finished block FOUND: a term of the device's block of
    the argument and of its three neighbours' face planes only. -/
def bodyRun (c : Dev nD) :
    { w : (main_v1 : Ref sig .tc).ty.Contents (Elt F) //
      ∀ (K : Dev nD × Fin 7 → ℕ) (Kt : PUnit → sProp 𝕄) (W : Waits sig Unit)
    (fo : Buf (Elt F) ((c : Thread nD τ).loc main_v1)) (fv : Buf (Elt F) ((c : Thread nD τ).loc cc0_scratch0))
    (fs0 : Buf (Elt F) ((c : Thread nD τ).loc cc0_scratch1)) (fs1 : Buf (Elt F) ((c : Thread nD τ).loc cc0_scratch2)) (fs2 : Buf (Elt F) ((c : Thread nD τ).loc cc0_scratch3))
    (fr0 : Buf (Elt F) ((c : Thread nD τ).loc cc0_scratch4)) (fr1 : Buf (Elt F) ((c : Thread nD τ).loc cc0_scratch5)) (fr2 : Buf (Elt F) ((c : Thread nD τ).loc cc0_scratch6)) (t : Fin cfg0.N),
        iprop(cellInv ER (ringRd m ρ) (K (c, 0)) (barCell c)
        ∗ cellInv ER (ringRd m ρ) (K (c, 1)) (sendCell0 c)
        ∗ cellInv ER (ringRd m ρ) (K (c, 2)) (sendCell1 c)
        ∗ cellInv ER (ringRd m ρ) (K (c, 3)) (sendCell2 c)
        ∗ cellInv ER (ringRd m ρ) (K (c, 4)) (recvCell0 c)
        ∗ cellInv ER (ringRd m ρ) (K (c, 5)) (recvCell1 c)
        ∗ cellInv ER (ringRd m ρ) (K (c, 6)) (recvCell2 c)
        ∗ cellInv ER (ringRd m ρ) (K (peer 0 c, 0)) (barCell (peer 0 c))
        ∗ cellInv ER (ringRd m ρ) (K (peer 1 c, 0)) (barCell (peer 1 c))
        ∗ cellInv ER (ringRd m ρ) (K (peer 2 c, 0)) (barCell (peer 2 c))
        ∗ cellInv ER (ringRd m ρ) (K (peer 0 c, 4)) (recvCell0 (peer 0 c))
        ∗ cellInv ER (ringRd m ρ) (K (peer 1 c, 5)) (recvCell1 (peer 1 c))
        ∗ cellInv ER (ringRd m ρ) (K (peer 2 c, 6)) (recvCell2 (peer 2 c))
        ∗ reached ER (barCell (peer 0 c)) 0
        ∗ reached ER (barCell (peer 1 c)) 0
        ∗ reached ER (barCell (peer 2 c)) 0
        ∗ reached ER (recvCell0 (peer 0 c)) 0
        ∗ reached ER (recvCell1 (peer 1 c)) 0
        ∗ reached ER (recvCell2 (peer 2 c)) 0
        ∗ reached ER (sendCell0 c) 0
        ∗ reached ER (sendCell1 c) 0
        ∗ reached ER (sendCell2 c) 0
        ∗ reached ER (recvCell0 c) 0
        ∗ reached ER (recvCell1 c) 0
        ∗ reached ER (recvCell2 c) 0
        ∗ levAts L lv
        ∗ atPos ER (barCell c) 0 ∅ 0
        ∗ atPos ER (sendCell0 c) 0 ∅ 0
        ∗ atPos ER (sendCell1 c) 0 ∅ 0
        ∗ atPos ER (sendCell2 c) 0 ∅ 0
        ∗ atPos ER (recvCell0 c) 0 ∅ 0
        ∗ atPos ER (recvCell1 c) 0 ∅ 0
        ∗ atPos ER (recvCell2 c) 0 ∅ 0
        ∗ dutyTok ER (barCell (peer 0 c)) 0 (0 : Fin 3)
        ∗ dutyTok ER (barCell (peer 1 c)) 0 (1 : Fin 3)
        ∗ dutyTok ER (barCell (peer 2 c)) 0 (2 : Fin 3)
        ∗ dutyTok ER (recvCell0 (peer 0 c)) 0 (0 : Fin 3)
        ∗ dutyTok ER (recvCell1 (peer 1 c)) 0 (0 : Fin 3)
        ∗ dutyTok ER (recvCell2 (peer 2 c)) 0 (0 : Fin 3)
        ∗ dutyTok ER (sendCell0 c) 0 (0 : Fin 3)
        ∗ dutyTok ER (sendCell1 c) 0 (0 : Fin 3)
        ∗ dutyTok ER (sendCell2 c) 0 (0 : Fin 3)
        ∗ cred (tallyAt (barCell c) () 3)
        ∗ cred (tallyAt (recvCell0 c) () N)
        ∗ cred (tallyAt (recvCell1 c) () N)
        ∗ cred (tallyAt (recvCell2 c) () N)
        ∗ semVal (outCell c) 0
        ∗ semVal (out2Cell c) 0
        ∗ ((Memref.whole main_v1 : Memref sig .tc .hbm S64x64x64 .bf16).view.loc (c : Thread nD τ) ↦[(Memref.whole main_v1 : Memref sig .tc .hbm S64x64x64 .bf16).view.set]{fullShare} fo)
        ∗ ((Memref.whole cc0_scratch0 : Memref sig .tc .vmem S64x64x64 .bf16).view.loc (c : Thread nD τ) ↦[(Memref.whole cc0_scratch0 : Memref sig .tc .vmem S64x64x64 .bf16).view.set]{fullShare} fv)
        ∗ ((Memref.whole cc0_scratch1 : Memref sig .tc .vmem S64x64 .bf16).view.loc (c : Thread nD τ) ↦[(Memref.whole cc0_scratch1 : Memref sig .tc .vmem S64x64 .bf16).view.set]{fullShare} fs0)
        ∗ ((Memref.whole cc0_scratch2 : Memref sig .tc .vmem S64x64 .bf16).view.loc (c : Thread nD τ) ↦[(Memref.whole cc0_scratch2 : Memref sig .tc .vmem S64x64 .bf16).view.set]{fullShare} fs1)
        ∗ ((Memref.whole cc0_scratch3 : Memref sig .tc .vmem S64x64 .bf16).view.loc (c : Thread nD τ) ↦[(Memref.whole cc0_scratch3 : Memref sig .tc .vmem S64x64 .bf16).view.set]{fullShare} fs2)
        ∗ ((Memref.whole cc0_scratch4 : Memref sig .tc .vmem S64x64 .bf16).view.loc (c : Thread nD τ) ↦[(Memref.whole cc0_scratch4 : Memref sig .tc .vmem S64x64 .bf16).view.set]{fullShare} fr0)
        ∗ ((Memref.whole cc0_scratch5 : Memref sig .tc .vmem S64x64 .bf16).view.loc (c : Thread nD τ) ↦[(Memref.whole cc0_scratch5 : Memref sig .tc .vmem S64x64 .bf16).view.set]{fullShare} fr1)
        ∗ ((Memref.whole cc0_scratch6 : Memref sig .tc .vmem S64x64 .bf16).view.loc (c : Thread nD τ) ↦[(Memref.whole cc0_scratch6 : Memref sig .tc .vmem S64x64 .bf16).view.set]{fullShare} fr2)
        ∗ ((Memref.whole cc0_stg0_0 : Memref sig .tc .vmem S64x64x64 .f32).view.loc (c : Thread nD τ) ↦[(Memref.whole cc0_stg0_0 : Memref sig .tc .vmem S64x64x64 .f32).view.set]{fullShare} (xblk m ρ c))
        ∗ owes (c : Thread nD τ) (tallyAt (recvCell2 (peer 2 c)) () N + tallyAt (recvCell1 (peer 1 c)) () N + tallyAt (recvCell0 (peer 0 c)) () N
            + tallyAt (barCell (peer 2 c)) () 1 + tallyAt (barCell (peer 1 c)) () 1 + tallyAt (barCell (peer 0 c)) () 1) W
        ∗ (bodyDone m ρ c w -∗ Kt ⟨⟩))
      ⊢ wp frame (wpE (defs₀ (F := F)) 𝒱₀ c none) Set.univ (bodyAt0 t) Kt } := by
  refine ⟨?_, fun K Kt W fo fv fs0 fs1 fs2 fr0 fr1 fr2 t => ?run⟩
  case run =>
  iintro ⟨#HIb, #HIs0, #HIs1, #HIs2, #HIr0, #HIr1, #HIr2, #HIbp0, #HIbp1, #HIbp2, #HIrp0, #HIrp1, #HIrp2, #Hrbp0, #Hrbp1, #Hrbp2, #Hrrp0, #Hrrp1, #Hrrp2, #Hrs0, #Hrs1, #Hrs2, #Hrr0, #Hrr1, #Hrr2, #Hlev, HaB, HaS0, HaS1, HaS2, HaR0, HaR1, HaR2, HtB0, HtB1, HtB2, HtR0, HtR1, HtR2, HtS0, HtS1, HtS2, HcB, HcR0, HcR1, HcR2, Hz1, Hz2, Hout, Hov, Hs0, Hs1, Hs2, Hr0, Hr1, Hr2, Hx, HO, Hk⟩
  have hmw := mayWait_bar' (F := F) c
  unfold bodyAt0
  rw [cc0_body_eq_skeleton]; unfold cc0_body_skel
  -- the signals, the block read, the face planes stored under their guards, the barrier wait
  sl_exec (disch := simp only [dev1_eq, dev2_eq, dev3_eq, dev4_eq, dev5_eq, dev6_eq])
  -- which guard holds is the device's mesh coordinate: each send plane holds the device's face plane
  have q36 : Iff (_root_.Cert.Kernel.Halo.bodyRun.sl.v36 c = 1#1) (c.val / 4 = 0) := gx0 c
  have q39 : Iff (_root_.Cert.Kernel.Halo.bodyRun.sl.v39 c = 1#1) (¬ c.val / 4 = 0) := gx1 c
  have q42 : Iff (_root_.Cert.Kernel.Halo.bodyRun.sl.v42 c = 1#1) (c.val / 2 % 2 = 0) := gy0 c
  have q45 : Iff (_root_.Cert.Kernel.Halo.bodyRun.sl.v45 c = 1#1) (¬ c.val / 2 % 2 = 0) := gy1 c
  have q48 : Iff (_root_.Cert.Kernel.Halo.bodyRun.sl.v48 c = 1#1) (c.val % 2 = 0) := gz0 c
  have q51 : Iff (_root_.Cert.Kernel.Halo.bodyRun.sl.v51 c = 1#1) (¬ c.val % 2 = 0) := gz1 c
  have e0 := (plane_join0 (F := F) q36 q39 fs0 (k0_pay12 (xRd m ρ c)) (k0_pay13 (xRd m ρ c))).trans (plane0_eq m ρ c)
  have e1 := (plane_join1 (F := F) q42 q45 fs1 (k0_pay14 (xRd m ρ c)) (k0_pay15 (xRd m ρ c))).trans (plane1_eq m ρ c)
  have e2 := (plane_join2 (F := F) q48 q51 fs2 (k0_pay16 (xRd m ρ c)) (k0_pay17 (xRd m ρ c))).trans (plane2_eq m ρ c)
  ihave Hs0 := (Entails.of_eq (congrArg (fun f => (((Memref.whole cc0_scratch1 : Memref sig .tc .vmem S64x64 .bf16).view.loc (c : Thread nD τ) ↦[(Memref.whole cc0_scratch1 : Memref sig .tc .vmem S64x64 .bf16).view.set]{fullShare} f) : sProp 𝕄)) e0)) $$ Hs0
  ihave Hs1 := (Entails.of_eq (congrArg (fun f => (((Memref.whole cc0_scratch2 : Memref sig .tc .vmem S64x64 .bf16).view.loc (c : Thread nD τ) ↦[(Memref.whole cc0_scratch2 : Memref sig .tc .vmem S64x64 .bf16).view.set]{fullShare} f) : sProp 𝕄)) e1)) $$ Hs1
  ihave Hs2 := (Entails.of_eq (congrArg (fun f => (((Memref.whole cc0_scratch3 : Memref sig .tc .vmem S64x64 .bf16).view.loc (c : Thread nD τ) ↦[(Memref.whole cc0_scratch3 : Memref sig .tc .vmem S64x64 .bf16).view.set]{fullShare} f) : sProp 𝕄)) e2)) $$ Hs2
  clear e0 e1 e2 q36 q39 q42 q45 q48 q51
  -- the barrier's three payloads: each neighbour's receive plane
  ihave HaB_pay1 := (show (BI.sep _ (BI.sep _ _) : sProp 𝕄) ⊢ iprop(_ ∗ _ ∗ _) from BI.Entails.refl _) $$ HaB_pay1
  icases HaB_pay1 with ⟨⟨⟨%g0, Hrp0⟩, #Hq0⟩, ⟨⟨%g1, Hrp1⟩, #Hq1⟩, ⟨%g2, Hrp2⟩, #Hq2⟩
  -- the three transfers, the block's own stencil part stored, the six waits, the received planes masked and added into
  -- the faces, the rim faces put to zero, the finished block copied out and the copy waited for
  sl_exec! (disch := simp only [dev1_eq, dev2_eq, dev3_eq, dev4_eq, dev5_eq, dev6_eq])
  -- the six exchange cells close: their counters at zero are the device's again
  imod (Rounds.cell_close ER (ringRd m ρ) (Set.mem_univ (K (c, 1))) (fun h => h) (R := 1) (duties_later m ρ (sendCell0 c))) $$ [HaS0] with HzS0
  · isplitr; · iexact HIs0
    iexact HaS0
  imod (Rounds.cell_close ER (ringRd m ρ) (Set.mem_univ (K (c, 4))) (fun h => h) (R := 1) (duties_later m ρ (recvCell0 c))) $$ [HaR0] with HzR0
  · isplitr; · iexact HIr0
    iexact HaR0
  imod (Rounds.cell_close ER (ringRd m ρ) (Set.mem_univ (K (c, 2))) (fun h => h) (R := 1) (duties_later m ρ (sendCell1 c))) $$ [HaS1] with HzS1
  · isplitr; · iexact HIs1
    iexact HaS1
  imod (Rounds.cell_close ER (ringRd m ρ) (Set.mem_univ (K (c, 5))) (fun h => h) (R := 1) (duties_later m ρ (recvCell1 c))) $$ [HaR1] with HzR1
  · isplitr; · iexact HIr1
    iexact HaR1
  imod (Rounds.cell_close ER (ringRd m ρ) (Set.mem_univ (K (c, 3))) (fun h => h) (R := 1) (duties_later m ρ (sendCell2 c))) $$ [HaS2] with HzS2
  · isplitr; · iexact HIs2
    iexact HaS2
  imod (Rounds.cell_close ER (ringRd m ρ) (Set.mem_univ (K (c, 6))) (fun h => h) (R := 1) (duties_later m ρ (recvCell2 c))) $$ [HaR2] with HzR2
  · isplitr; · iexact HIr2
    iexact HaR2
  sl_step
  iapply Hk
  unfold bodyDone
  isplitl [Hov]; · iexists _; iexact Hov
  isplitl [HaS0_pay1]; · iexists _; iexact HaS0_pay1
  isplitl [HaS1_pay1]; · iexists _; iexact HaS1_pay1
  isplitl [HaS2_pay1]; · iexists _; iexact HaS2_pay1
  isplitl [HaR0_pay1]; · iexists _; iexact HaR0_pay1
  isplitl [HaR1_pay1]; · iexists _; iexact HaR1_pay1
  isplitl [HaR2_pay1]; · iexists _; iexact HaR2_pay1
  isplitl [HzS0]; · iexact HzS0
  isplitl [HzS1]; · iexact HzS1
  isplitl [HzS2]; · iexact HzS2
  isplitl [HzR0]; · iexact HzR0
  isplitl [HzR1]; · iexact HzR1
  isplitl [HzR2]; · iexact HzR2
  isplitl [Hz1]; · iexact Hz1
  isplitl [Hz2]; · iexact Hz2
  isplitl [Hout]; · iexact Hout
  isplitl [HO]; · iexists _; iexact HO
  iexact Hx

end Cert.Kernel.Halo

end
-- ==== Proof.Bits.BodyDefs.lean ====
/-
  The proof data of the one pallas_call on a device: what the device holds when its body starts (the cells'
  invariants and its ghost tokens, the launch credit of its barrier and arrival cells, its scratch planes, its
  accumulator, the result block's buffer and the result copy's semaphores) and what it holds when the body ends.
-/
import proofs.«900807_g7700000000000808_dist_halo3d_v7x_xyz2x2x2_s64_bf16_1_alg».proof.Proof.Bits.Body

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The seven cells of a device, numbered: the barrier, the three departure cells, the three arrival cells. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)
abbrev sIx : Fin 3 → Fin 7 := fun | 0 => 1 | 1 => 2 | 2 => 3
abbrev rIx : Fin 3 → Fin 7 := fun | 0 => 4 | 1 => 5 | 2 => 6

/-- The finished block of device `c`: what its run of the body leaves in its block of the result. -/
def outVal (c : Dev nD) : FVec F S64x64x64 .bf16 := (bodyRun m ρ c).1

/-- The cells' invariants device `c`'s body opens, under the names `K` the launch allocated them at: its own seven,
    and of each neighbour the barrier cell (its signal) and the arrival cell of the axis (its transfer). -/
def invs (K : Dev nD × Fin 7 → ℕ) (c : Dev nD) : sProp 𝕄 :=
  iprop((bigSep Finset.univ fun k : Fin 7 => cellInv ER (ringRd m ρ) (K (c, k)) (kcell (c, k)))
    ∗ (bigSep Finset.univ fun a : Fin 3 => cellInv ER (ringRd m ρ) (K (peer a c, 0)) (barCell (peer a c)))
    ∗ (bigSep Finset.univ fun a : Fin 3 => cellInv ER (ringRd m ρ) (K (peer a c, rIx a)) (recvCell a (peer a c))))

instance invs_persistent (K : Dev nD × Fin 7 → ℕ) (c : Dev nD) : BI.Persistent (invs m ρ K c) := by unfold invs; infer_instance

/-- The persistent round facts device `c` starts from: round 0 reached at each neighbour's barrier and arrival cell
    (the cells it pays) and at its own departure and arrival cells. -/
def marks (c : Dev nD) : sProp 𝕄 :=
  iprop((bigSep Finset.univ fun a : Fin 3 => reached ER (barCell (peer a c)) 0)
    ∗ (bigSep Finset.univ fun a : Fin 3 => reached ER (recvCell a (peer a c)) 0)
    ∗ (bigSep Finset.univ fun a : Fin 3 => reached ER (sendCell a c) 0)
    ∗ (bigSep Finset.univ fun a : Fin 3 => reached ER (recvCell a c) 0))

instance marks_persistent (c : Dev nD) : BI.Persistent (marks (F := F) c) := by unfold marks; infer_instance

/-- The duty tokens device `c` pays with: duty `a` of neighbour `a`'s barrier cell, the arrival duty of neighbour `a`'s
    arrival cell `a`, its own three departure duties. -/
def payToks (c : Dev nD) : sProp 𝕄 :=
  iprop((bigSep Finset.univ fun a : Fin 3 => dutyTok ER (barCell (peer a c)) 0 a)
    ∗ (bigSep Finset.univ fun a : Fin 3 => dutyTok ER (recvCell a (peer a c)) 0 (0 : Fin 3))
    ∗ (bigSep Finset.univ fun a : Fin 3 => dutyTok ER (sendCell a c) 0 (0 : Fin 3)))

/-- Its positions: at the start of round 0 of each of its seven cells. -/
def positions (c : Dev nD) : sProp 𝕄 := bigSep Finset.univ fun k : Fin 7 => atPos ER (kcell (c, k)) 0 ∅ 0

def ghost (K : Dev nD × Fin 7 → ℕ) (c : Dev nD) : sProp 𝕄 :=
  iprop(invs m ρ K c ∗ marks c ∗ positions c ∗ payToks c)

/-- The launch credit of a device's own barrier cell (three units) and of its three arrival cells. -/
def credits (c : Dev nD) : sProp 𝕄 :=
  iprop(cred (tallyAt (barCell c) () 3) ∗ bigSep Finset.univ fun a : Fin 3 => cred (tallyAt (recvCell a c) () N))

/-- What device `c`'s body starts from besides its buffers: the ghost state at some names, the credit tokens, the
    level facts, the two semaphores of the result copy at zero, and the result block's buffer at what it held. -/
def start (c : Dev nD) : sProp 𝕄 :=
  iprop((∃ K, ghost m ρ K c) ∗ credits c ∗ levAts L lv ∗ semVal (outCell c) 0 ∗ semVal (out2Cell c) 0
    ∗ (((c : Thread nD τ).loc main_v1) ↦{fullShare} m ((c : Thread nD τ).loc main_v1)))

/-- The scoped scratch buffers, each whole at some contents: the accumulator, the three send planes, the three receive planes. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

def Φ₀ (c : Dev nD) : sProp 𝕄 := iprop(start m ρ c ∗ scratch c)

/-- After the point: the scratch buffers at some contents, the kernel's eight own semaphores at zero (the six cells
    closed), and the result block's buffer holding the finished block. -/
def Φ₁ (c : Dev nD) : sProp 𝕄 :=
  iprop(scratch c
    ∗ (bigSep Finset.univ fun a : Fin 3 => semVal (sendCell a c) 0) ∗ (bigSep Finset.univ fun a : Fin 3 => semVal (recvCell a c) 0)
    ∗ semVal (outCell c) 0 ∗ semVal (out2Cell c) 0
    ∗ (((c : Thread nD τ).loc main_v1) ↦{fullShare} outVal m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- A whole buffer `b` of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the point, and what it must leave: the pipeline's form. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 1) t₀ d)))

def bodyPost (c : Dev nD) : sProp 𝕄 :=
  iprop(Φ₁ m ρ c ∗ (dats m ρ 0 c).owesAt () t₀.succ ∗ stg c cc0_stg0_0 (xblk m ρ c))

end Cert.Kernel.Halo

end
-- ==== Proof.Bits.Launch.lean ====
/-
  The launch of the halo exchange on the eight devices: the launch element funds every device's seven cells; the global
  step closes each cell's invariant over its counter at zero and deals the duty tokens to the devices that pay them; a
  device's launch credit is three units on its barrier cell and a plane's credit on each arrival cell; and the run of
  @main, from any memory with zero counters, ends with every device's argument block unchanged and its result block
  holding the finished block.
-/
import proofs.«900807_g7700000000000808_dist_halo3d_v7x_xyz2x2x2_s64_bf16_1_alg».proof.Proof.Bits.BodyDefs

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores and the cells -/

/-- The kernel's own scoped semaphores: the three departure, the three arrival and the two result-copy semaphores. -/
abbrev osem : Fin 8 → SemLoc sig := fun
  | 0 => .dma (sendS 0) | 1 => .dma (sendS 1) | 2 => .dma (sendS 2)
  | 3 => .dma (recvS 0) | 4 => .dma (recvS 1) | 5 => .dma (recvS 2)
  | 6 => .dma outS | 7 => .dma out2S

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- A device's own cells' duty tokens as minted: its barrier's three, its three departure cells' and its three arrival cells'. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell 0 cj.1, 0, 0) | 4 => (sendCell 1 cj.1, 0, 0) | 5 => (sendCell 2 cj.1, 0, 0)
  | 6 => (recvCell 0 cj.1, 0, 0) | 7 => (recvCell 1 cj.1, 0, 0) | 8 => (recvCell 2 cj.1, 0, 0)
/-- A token's semaphore and duty name, apart from the device. -/
abbrev tokKey : Fin 9 → SemLoc sig × Fin 3 := fun
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)
theorem tokKey_injective : Function.Injective tokKey := by decide
theorem tokOf_key (c : Dev nD) (j : Fin 9) : ((tokOf (c, j)).1.2, (tokOf (c, j)).2.2) = tokKey j := by fin_cases j <;> rfl
theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    fin_cases j <;> fin_cases j' <;> exact this
  subst h1
  have : j = j' := tokKey_injective ((tokOf_key c j).symm.trans
    ((congrArg (fun x : GSem nD τ sig × ℕ × Fin 3 => (x.1.2, x.2.2)) h).trans (tokOf_key c j')))
  subst this; rfl
def ringToks : Finset (GSem nD τ sig × ℕ × Fin 3) := Finset.univ.map ⟨tokOf, tokOf_injective⟩

/-- The launch element: the pipeline library's cells and tokens, the exchange's cells and tokens, and the exclusive
    counters' unit. -/
def u₀ : UU :=
  (initOf (Pipeline.cells cfgs cellOf_inj) (Pipeline.launchToks cfgs cellOf_inj), (initOf ringCells ringToks, 1))

/-! ## What the launch element deals -/

/-- The duty tokens of device `c`'s own cells: its barrier's three, its three arrival cells', its three departure cells'. -/
def toks (c : Dev nD) : sProp 𝕄 :=
  iprop((dutyTok ER (barCell c) 0 (0 : Fin 3) ∗ dutyTok ER (barCell c) 0 (1 : Fin 3) ∗ dutyTok ER (barCell c) 0 (2 : Fin 3))
    ∗ (dutyTok ER (recvCell 0 c) 0 (0 : Fin 3) ∗ dutyTok ER (recvCell 1 c) 0 (0 : Fin 3) ∗ dutyTok ER (recvCell 2 c) 0 (0 : Fin 3))
    ∗ (dutyTok ER (sendCell 0 c) 0 (0 : Fin 3) ∗ dutyTok ER (sendCell 1 c) 0 (0 : Fin 3) ∗ dutyTok ER (sendCell 2 c) 0 (0 : Fin 3)))

/-- What the launch element deals device `c`: its seven cells' round states, positions and round-0 marks, and its own cells' tokens. -/
def G (c : Dev nD) : sProp 𝕄 :=
  iprop((bigSep Finset.univ fun k : Fin 7 => roundState ER (ringRd m ρ) (kcell (c, k)) 0)
    ∗ (bigSep Finset.univ fun k : Fin 7 => iprop(atPos ER (kcell (c, k)) 0 ∅ 0 ∗ reached ER (kcell (c, k)) 0)) ∗ toks c)

/-- What the global step makes of it: the ghost state at some names, and the result copy's two semaphores still plain counters at zero. -/
def G' (c : Dev nD) : sProp 𝕄 := iprop((∃ K, ghost m ρ K c) ∗ semVal (outCell c) 0 ∗ semVal (out2Cell c) 0)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- Nine assertions in a row, grouped three by three with the last two groups exchanged. -/
theorem regroup9 (a0 a1 a2 a3 a4 a5 a6 a7 a8 : sProp 𝕄) :
    iprop(a0 ∗ a1 ∗ a2 ∗ a3 ∗ a4 ∗ a5 ∗ a6 ∗ a7 ∗ a8) ⊢ iprop((a0 ∗ a1 ∗ a2) ∗ (a6 ∗ a7 ∗ a8) ∗ (a3 ∗ a4 ∗ a5)) := by
  iintro ⟨H0, H1, H2, H3, H4, H5, H6, H7, H8⟩
  isplitl [H0 H1 H2]
  · isplitl [H0]; · iexact H0
    isplitl [H1] <;> iassumption
  isplitl [H6 H7 H8]
  · isplitl [H6]; · iexact H6
    isplitl [H7] <;> iassumption
  · isplitl [H3]; · iexact H3
    isplitl [H4] <;> iassumption

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => ?_
    rw [bigSep_fin9]; unfold toks
    exact regroup9 _ _ _ _ _ _ _ _ _
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The global step: the cells' invariants allocated, the tokens dealt to their payers -/

omit [FloatOps F] in
/-- The kernel's own semaphores at zero, one by one; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0 ∗ semVal (outCell c) 0 ∗ semVal (out2Cell c) 0) := by
  rw [Pipeline.ownSems0_eq_of_list c osem [0, 1, 2, 3, 4, 5, 6, 7] (by decide) (by decide)]; rfl
omit [FloatOps F] in
/-- the barrier semaphore the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ semVal (outCell c) 0 ∗ semVal (out2Cell c) 0) : sProp 𝕄) := by
  rw [ownSems0_eq, unscopedSems0_eq, bigSep_fin7]
  iintro ⟨⟨S0, S1, S2, R0, R1, R2, O1, O2⟩, HB⟩
  isplitr [O1 O2]
  · isplitl [HB]; · iexact HB
    isplitl [S0]; · iexact S0
    isplitl [S1]; · iexact S1
    isplitl [S2]; · iexact S2
    isplitl [R0]; · iexact R0
    isplitl [R1] <;> iassumption
  · isplitl [O1] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k : Fin 7 => iprop(atPos ER (kcell (c, k)) 0 ∅ 0 ∗ reached ER (kcell (c, k)) 0)) ∗ toks c
          ∗ semVal (outCell c) 0 ∗ semVal (out2Cell c) 0) := by
  unfold G
  iintro ⟨Hos, Hus, Hst, Hat, Htok⟩
  ihave Hv := (sems0_eq (F := F) c) $$ [Hos Hus]
  · isplitl [Hos] <;> iassumption
  icases Hv with ⟨Hv, HO1, HO2⟩
  imod (show iprop((bigSep Finset.univ fun k : Fin 7 => semVal (kcell (c, k)) 0) ∗ bigSep Finset.univ fun k : Fin 7 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [HO1] <;> iassumption

def records (K : Dev nD × Fin 7 → ℕ) : sProp 𝕄 :=
  iprop((bigSep Finset.univ fun ck : Dev nD × Fin 7 => cellInv ER (ringRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (ringRd m ρ) (K ck) (kcell ck) : sProp 𝕄)) ⊢ cellInv ER (ringRd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

omit [FloatOps F] in
theorem rIx_cell (a : Fin 3) (c : Dev nD) : kcell (c, rIx a) = recvCell a c := by fin_cases a <;> rfl
omit [FloatOps F] in
theorem sIx_cell (a : Fin 3) (c : Dev nD) : kcell (c, sIx a) = sendCell a c := by fin_cases a <;> rfl

/-- The invariants a device's body opens, out of all the cells' invariants. -/
theorem invs_of_records (K : Dev nD × Fin 7 → ℕ) (c : Dev nD) : records m ρ K ⊢ invs m ρ K c := by
  unfold records invs
  iintro ⟨#HI, -⟩
  isplitr
  · iapply (bigSep_intro_persistent (S := (Finset.univ : Finset (Fin 7))) fun k _ => inv_at m ρ K (c, k)); iexact HI
  isplitr
  · iapply (bigSep_intro_persistent (S := (Finset.univ : Finset (Fin 3))) fun a _ => inv_at m ρ K (peer a c, 0)); iexact HI
  · iapply (bigSep_intro_persistent (S := (Finset.univ : Finset (Fin 3))) fun a _ => by
      rw [← rIx_cell a (peer a c)]; exact inv_at m ρ K (peer a c, rIx a)); iexact HI

/-- The round-0 marks a device starts from, out of all the cells' marks. -/
theorem marks_of_records (K : Dev nD × Fin 7 → ℕ) (c : Dev nD) : records m ρ K ⊢ marks (F := F) c := by
  unfold records marks
  iintro ⟨-, #HR⟩
  isplitr
  · iapply (bigSep_intro_persistent (S := (Finset.univ : Finset (Fin 3))) fun a _ => reached_at (F := F) (peer a c, 0)); iexact HR
  isplitr
  · iapply (bigSep_intro_persistent (S := (Finset.univ : Finset (Fin 3))) fun a _ => by
      rw [← rIx_cell a (peer a c)]; exact reached_at (F := F) (peer a c, rIx a)); iexact HR
  isplitr
  · iapply (bigSep_intro_persistent (S := (Finset.univ : Finset (Fin 3))) fun a _ => by
      rw [← sIx_cell a c]; exact reached_at (F := F) (c, sIx a)); iexact HR
  · iapply (bigSep_intro_persistent (S := (Finset.univ : Finset (Fin 3))) fun a _ => by
      rw [← rIx_cell a c]; exact reached_at (F := F) (c, rIx a)); iexact HR

/-- What stays with device `c`: its positions, and the tokens of the duties it pays. -/
def linear (c : Dev nD) : sProp 𝕄 := iprop(positions c ∗ payToks c)

theorem ghost_intro (K : Dev nD × Fin 7 → ℕ) (c : Dev nD) : iprop(records m ρ K ∗ linear (F := F) c) ⊢ iprop(∃ K, ghost m ρ K c) := by
  unfold linear
  iintro ⟨#HR, Hpos, Htok⟩
  iexists K
  unfold ghost
  isplitr
  · iapply (invs_of_records m ρ K c); iexact HR
  isplitr
  · iapply (marks_of_records m ρ K c); iexact HR
  isplitl [Hpos] <;> iassumption

omit [FloatOps F] in
/-- The tokens dealt across the cuts: duty `a` of a barrier cell and the duty of arrival cell `a` go to the neighbour of axis `a`. -/
theorem toks_around : (bigSep Finset.univ fun c : Dev nD => (toks c : sProp 𝕄)) ⊢ bigSep Finset.univ fun c : Dev nD => payToks c := by
  have hp (c : Dev nD) : (payToks c : sProp 𝕄)
      = iprop((dutyTok ER (barCell (peer 0 c)) 0 (0 : Fin 3) ∗ dutyTok ER (barCell (peer 1 c)) 0 (1 : Fin 3) ∗ dutyTok ER (barCell (peer 2 c)) 0 (2 : Fin 3))
        ∗ (dutyTok ER (recvCell 0 (peer 0 c)) 0 (0 : Fin 3) ∗ dutyTok ER (recvCell 1 (peer 1 c)) 0 (0 : Fin 3) ∗ dutyTok ER (recvCell 2 (peer 2 c)) 0 (0 : Fin 3))
        ∗ (dutyTok ER (sendCell 0 c) 0 (0 : Fin 3) ∗ dutyTok ER (sendCell 1 c) 0 (0 : Fin 3) ∗ dutyTok ER (sendCell 2 c) 0 (0 : Fin 3))) := by
    unfold payToks; rw [bigSep_fin3, bigSep_fin3, bigSep_fin3]
  rw [bigSep_congr (s := Finset.univ) fun c _ => hp c]
  unfold toks
  simp only [bigSep_sep']
  rw [bigSep_univ_equiv (swap 0) (fun c : Dev nD => (dutyTok ER (barCell c) 0 (0 : Fin 3) : sProp 𝕄)),
    bigSep_univ_equiv (swap 1) (fun c : Dev nD => (dutyTok ER (barCell c) 0 (1 : Fin 3) : sProp 𝕄)),
    bigSep_univ_equiv (swap 2) (fun c : Dev nD => (dutyTok ER (barCell c) 0 (2 : Fin 3) : sProp 𝕄)),
    bigSep_univ_equiv (swap 0) (fun c : Dev nD => (dutyTok ER (recvCell 0 c) 0 (0 : Fin 3) : sProp 𝕄)),
    bigSep_univ_equiv (swap 1) (fun c : Dev nD => (dutyTok ER (recvCell 1 c) 0 (0 : Fin 3) : sProp 𝕄)),
    bigSep_univ_equiv (swap 2) (fun c : Dev nD => (dutyTok ER (recvCell 2 c) 0 (0 : Fin 3) : sProp 𝕄))]
  exact .rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Fin 7 → ℕ) (c : Dev nD) :
    iprop(records m ρ K ∗ (linear (F := F) c ∗ semVal (outCell c) 0 ∗ semVal (out2Cell c) 0)) ⊢ G' m ρ c := by
  unfold G'
  iintro ⟨#HR, Hl, HO⟩
  isplitl [Hl]
  · iapply (ghost_intro m ρ K c)
    isplitr; · iexact HR
    iexact Hl
  · iexact HO

theorem regroup :
    (bigSep Finset.univ fun c : Dev nD => iprop((bigSep Finset.univ fun k => iprop(∃ κ : ℕ, cellInv ER (ringRd m ρ) κ (kcell (c, k))))
          ∗ (bigSep Finset.univ fun k : Fin 7 => iprop(atPos ER (kcell (c, k)) 0 ∅ 0 ∗ reached ER (kcell (c, k)) 0)) ∗ toks c
          ∗ semVal (outCell c) 0 ∗ semVal (out2Cell c) 0) : sProp 𝕄)
      ⊢ bigSep Finset.univ (G' m ρ) := by
  rw [bigSep_sep', bigSep_sep', bigSep_sep', ← bigSep_univ_prod (fun ck : Dev nD × Fin 7 => iprop(∃ κ : ℕ, cellInv ER (ringRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hout⟩
  ihave HK := (BI.bigSep_exists_pi Finset.univ (fun (ck : Dev nD × Fin 7) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => G'_intro m ρ K c)
  isplitr
  · unfold records; isplitl; · iexact HI
    iexact HR
  · iapply (Entails.of_eq (bigSep_sep' Finset.univ (fun c : Dev nD => (linear (F := F) c : sProp 𝕄)) (fun c => iprop(semVal (outCell c) 0 ∗ semVal (out2Cell c) 0))).symm)
    isplitr [Hout]
    · iapply (Entails.of_eq (bigSep_sep' Finset.univ (fun c : Dev nD => (positions (F := F) c : sProp 𝕄)) payToks).symm)
      isplitl [Hat]; · iexact Hat
      iexact Htk
    · iexact Hout

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Every device owing each neighbour's barrier cell a unit and each neighbour's arrival cell a plane's credit, a device's
    own launch credit is three units on its barrier cell and a plane's credit on each arrival cell. -/
theorem creds (c : Dev nD) : (Pipeline.launchCred O₀ c : sProp 𝕄) ⊢ credits c := by
  have e : (O₀ : Dev nD → CellTallies nD τ sig Unit)
      = fun d => tallyAt (((peer 2 d : Dev nD) : Thread nD τ), SemLoc.dma (recvS 2)) () N
          + tallyAt (((peer 1 d : Dev nD) : Thread nD τ), SemLoc.dma (recvS 1)) () N
          + tallyAt (((peer 0 d : Dev nD) : Thread nD τ), SemLoc.dma (recvS 0)) () N
          + tallyAt (((peer 2 d : Dev nD) : Thread nD τ), SemLoc.reg barS) () 1
          + tallyAt (((peer 1 d : Dev nD) : Thread nD τ), SemLoc.reg barS) () 1
          + tallyAt (((peer 0 d : Dev nD) : Thread nD τ), SemLoc.reg barS) () 1 := funext fun d => rfl
  rw [e, Pipeline.launchCred_add, Pipeline.launchCred_add, Pipeline.launchCred_add, Pipeline.launchCred_add, Pipeline.launchCred_add]
  iintro ⟨⟨⟨⟨⟨HA, HB⟩, HC⟩, HD⟩, HE⟩, HF⟩
  ihave HA' := (Pipeline.launchCred_tallyAt (SemLoc.dma (recvS 2)) (peer 2) (peer 2) (peer_peer 2) (peer_peer 2) () N c) $$ HA
  ihave HB' := (Pipeline.launchCred_tallyAt (SemLoc.dma (recvS 1)) (peer 1) (peer 1) (peer_peer 1) (peer_peer 1) () N c) $$ HB
  ihave HC' := (Pipeline.launchCred_tallyAt (SemLoc.dma (recvS 0)) (peer 0) (peer 0) (peer_peer 0) (peer_peer 0) () N c) $$ HC
  ihave HD' := (Pipeline.launchCred_tallyAt (SemLoc.reg barS) (peer 2) (peer 2) (peer_peer 2) (peer_peer 2) () 1 c) $$ HD
  ihave HE' := (Pipeline.launchCred_tallyAt (SemLoc.reg barS) (peer 1) (peer 1) (peer_peer 1) (peer_peer 1) () 1 c) $$ HE
  ihave HF' := (Pipeline.launchCred_tallyAt (SemLoc.reg barS) (peer 0) (peer 0) (peer_peer 0) (peer_peer 0) () 1 c) $$ HF
  unfold credits
  have h3 : (tallyAt (barCell c) () 3 : CellTallies nD τ sig Unit)
      = tallyAt (barCell c) () 1 + tallyAt (barCell c) () 1 + tallyAt (barCell c) () 1 := by
    rw [tallyAt_add, tallyAt_add]
  rw [h3, bigSep_fin3]
  isplitl [HD' HE' HF']
  · iapply (cred_add _ _).2
    isplitr [HF']
    · iapply (cred_add _ _).2
      isplitl [HD'] <;> iassumption
    · iexact HF'
  · isplitl [HC']; · iexact HC'
    isplitl [HB'] <;> iassumption

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold G'
  iintro ⟨Hv, Hlev, Hcr, -, HG, HO1, HO2⟩
  ihave Hc := (creds (F := F) c) $$ Hcr
  imodintro
  unfold start
  isplitl
  · isplitl [HG]; · iexact HG
    isplitl [Hc]; · iexact Hc
    isplitl [Hlev]; · iexact Hlev
    isplitl [HO1]; · iexact HO1
    isplitl [HO2]; · iexact HO2
    iexact Hv
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N)
      ⊢ iprop((((c : Thread nD τ).loc main_v1) ↦{fullShare} outVal m ρ c) ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ scratch
  rw [bigSep_fin3, bigSep_fin3]
  iintro ⟨Hr, ⟨S0, S1, S2⟩, ⟨R0, R1, R2⟩, O1, O2, Hv⟩
  isplitl [Hv]; · iexact Hv
  isplitr [Hr]
  · isplitl [S0]; · iexact S0
    isplitl [S1]; · iexact S1
    isplitl [S2]; · iexact S2
    isplitl [R0]; · iexact R0
    isplitl [R1]; · iexact R1
    isplitl [R2]; · iexact R2
    isplitl [O1] <;> iassumption
  · iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

omit [FloatOps F] in
/-- The exchange's component reached through the right half of the user algebra and then its left half is the exchange's
    embedding. -/
theorem own_ER (x : UB) :
    (BI.own (((Emb.inl : Emb UB (UB × Counters)).trans (embR : Emb (UB × Counters) 𝕄)) x) : sProp 𝕄) ⊢ BI.own (ER x) := .rfl

set_option maxRecDepth 8000 in
/-- At the compiled mesh of eight devices, for any float values, from any memory with zero counters, given each device's
    body: every weakly fair execution of @main terminates, and every final state has each device's argument block
    unchanged and its result block holding the finished block. -/
theorem run_main (hbody : ∀ c, BodyObligation (dats (F := F) m ρ 0 c) (defs₀ (F := F)) 𝒱₀ () Set.univ) :
    θ_run defs (onTc (τ := τ) (main (F := F))) (s₀ m ρ)
      (fun r => ∀ c : Dev nD, r.2.mem ((c : Thread nD τ).loc main_arg0) = m ((c : Thread nD τ).loc main_arg0)
        ∧ r.2.mem ((c : Thread nD τ).loc main_v1) = outVal m ρ c) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H2 := (own_pair_emb (embR : Emb (UB × Counters) 𝕄) (initOf ringCells ringToks) (1 : Counters)) $$ HX
      icases H2 with ⟨HR, -⟩
      ihave HR' := (own_ER (F := F) (initOf ringCells ringToks)) $$ HR
      imod (fund_ring m ρ) $$ HR' with HG
      imodintro
      isplitl [HP] <;> iassumption)
    (hglob := glob m ρ)
    (hA := fun _ _ => rfl) (hpf := fun _ k => k.elim0)
    (X := start m ρ) (Y := fun c => iprop(((c : Thread nD τ).loc main_v1) ↦{fullShare} outVal m ρ c)) (Z := fun _ => iprop(emp))
    (hX := start_intro m ρ) (hin := phi0_intro m ρ) (hout := phi1_exit m ρ)
    (QY := fun c s => s.mem ((c : Thread nD τ).loc main_v1) = outVal m ρ c)
    (hY := fun c s' => by
      iintro ⟨Hy, -, HSI⟩
      icombine HSI Hy gives %hy
      imodintro
      isplitr; · ipureintro; exact Buf.eq_of_forall_mem_univ hy
      iexact HSI)
    (hQ := fun s h c => ⟨((h c).1 (0 : Fin 1)).trans ((dats (F := F) m ρ 0 c).arrAt_in (0 : Fin 1) rfl _), (h c).2.2⟩)

/-- info: 'Cert.Kernel.Halo.run_main' depends on axioms: [propext, Classical.choice, Quot.sound] -/
#guard_msgs in #print axioms run_main

end Cert.Kernel.Halo

end
-- ==== Proof.Bits.BodyOb.lean ====
/-
  The body's run on a device, in the form the launch asks for: from what the device holds when its body starts — the
  cells' invariants, its tokens, positions and credit, its buffers — to what it holds when the body ends.
-/
import proofs.«900807_g7700000000000808_dist_halo3d_v7x_xyz2x2x2_s64_bf16_1_alg».proof.Proof.Bits.BodyDefs

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A whole staging buffer owned at given contents is the buffer at some contents equal to them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A whole buffer through its view is the buffer. -/
theorem whole_pts (c : Dev nD) (b : Ref sig .tc) (f : Buf (Elt F) ((c : Thread nD τ).loc b)) :
    (((c : Thread nD τ).loc b) ↦{fullShare} f : sProp 𝕄)
      = ((Memref.whole b).view.loc (c : Thread nD τ) ↦[(Memref.whole b).view.set]{fullShare} f) := by
  rw [View.set_whole]

omit [FloatOps F] in
theorem open3 (Φ : Fin 3 → sProp 𝕄) : bigSep Finset.univ Φ = iprop(Φ 0 ∗ Φ 1 ∗ Φ 2) := bigSep_univ_eq_bigSepL [0, 1, 2] (by decide) (by decide) Φ
omit [FloatOps F] in
theorem open7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The staged block at the point is the device's block of the argument. -/
theorem before_x (c : Dev nD) (d : (cfg0.win (0 : Fin 1)).block.Idx → Elt F (cfg0.win (0 : Fin 1)).elt) :
    (dats m ρ 0 c).before (0 : Fin 1) t₀ d = xblk m ρ c := by
  unfold Dat.before; rw [if_pos (fetch0_0 t₀)]; rfl

/-- What the body's run leaves is what the launch asks the body to leave: the scratch buffers at some contents, the
    eight own semaphores at zero, the result block's buffer at the finished block, nothing owed, the staged block. -/
theorem done_post (c : Dev nD) : bodyDone m ρ c (outVal m ρ c) ⊢ bodyPost m ρ c := by
  unfold bodyDone bodyPost Φ₁ scratch
  rw [open3, open3]
  iintro ⟨⟨%gv, Hv⟩, ⟨%g0, Hs0⟩, ⟨%g1, Hs1⟩, ⟨%g2, Hs2⟩, ⟨%h0, Hr0⟩, ⟨%h1, Hr1⟩, ⟨%h2, Hr2⟩, Z0, Z1, Z2, Y0, Y1, Y2, O1, O2, Hout, ⟨%W', HO⟩, Hx⟩
  isplitr [HO Hx]
  · isplitl [Hv Hs0 Hs1 Hs2 Hr0 Hr1 Hr2]
    · isplitl [Hv]; · iexists gv; rw [whole_pts]; iexact Hv
      isplitl [Hs0]; · iexists g0; rw [whole_pts]; iexact Hs0
      isplitl [Hs1]; · iexists g1; rw [whole_pts]; iexact Hs1
      isplitl [Hs2]; · iexists g2; rw [whole_pts]; iexact Hs2
      isplitl [Hr0]; · iexists h0; rw [whole_pts]; iexact Hr0
      isplitl [Hr1]; · iexists h1; rw [whole_pts]; iexact Hr1
      iexists h2; rw [whole_pts]; iexact Hr2
    isplitl [Z0 Z1 Z2]
    · isplitl [Z0]; · iexact Z0
      isplitl [Z1] <;> iassumption
    isplitl [Y0 Y1 Y2]
    · isplitl [Y0]; · iexact Y0
      isplitl [Y1] <;> iassumption
    isplitl [O1]; · iexact O1
    isplitl [O2]; · iexact O2
    rw [whole_pts]; iexact Hout
  isplitl [HO]
  · iexists W'
    isplitr; · ipureintro; exact fun _ _ => Or.inl trivial
    iexact HO
  · iexists _
    isplitr; · (ipureintro; rfl)
    rw [whole_pts]; iexact Hx

set_option maxRecDepth 8000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ (bodyAt0 t₀) (fun _ => bodyPost m ρ c)
  unfold bodyPre' Φ₀ start ghost invs marks positions payToks credits scratch
  simp only [open3, open7]
  iintro ⟨⟨⟨⟨%K, ⟨⟨I0, I1, I2, I3, I4, I5, I6⟩, ⟨Ib0, Ib1, Ib2⟩, Ir0, Ir1, Ir2⟩, ⟨⟨Mb0, Mb1, Mb2⟩, ⟨Mr0, Mr1, Mr2⟩, ⟨Ms0, Ms1, Ms2⟩, Mq0, Mq1, Mq2⟩,
      ⟨P0, P1, P2, P3, P4, P5, P6⟩, ⟨Tb0, Tb1, Tb2⟩, ⟨Tr0, Tr1, Tr2⟩, Ts0, Ts1, Ts2⟩, ⟨CB, CR0, CR1, CR2⟩, Hlev, Hz1, Hz2, Hout⟩,
      ⟨%fv, Hv⟩, ⟨%fs0, Hs0⟩, ⟨%fs1, Hs1⟩, ⟨%fs2, Hs2⟩, ⟨%fr0, Hr0⟩, ⟨%fr1, Hr1⟩, ⟨%fr2, Hr2⟩⟩, ⟨%W, %hW, HO⟩, ⟨%d, %fx, %hx, Hx⟩⟩
  rw [before_x] at hx
  subst hx
  iapply ((bodyRun m ρ c).2 K (fun _ => bodyPost m ρ c) W (m ((c : Thread nD τ).loc main_v1)) fv fs0 fs1 fs2 fr0 fr1 fr2 t₀)
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [Ib0]; · iexact Ib0
  isplitl [Ib1]; · iexact Ib1
  isplitl [Ib2]; · iexact Ib2
  isplitl [Ir0]; · iexact Ir0
  isplitl [Ir1]; · iexact Ir1
  isplitl [Ir2]; · iexact Ir2
  isplitl [Mb0]; · iexact Mb0
  isplitl [Mb1]; · iexact Mb1
  isplitl [Mb2]; · iexact Mb2
  isplitl [Mr0]; · iexact Mr0
  isplitl [Mr1]; · iexact Mr1
  isplitl [Mr2]; · iexact Mr2
  isplitl [Ms0]; · iexact Ms0
  isplitl [Ms1]; · iexact Ms1
  isplitl [Ms2]; · iexact Ms2
  isplitl [Mq0]; · iexact Mq0
  isplitl [Mq1]; · iexact Mq1
  isplitl [Mq2]; · iexact Mq2
  isplitl [Hlev]; · iexact Hlev
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [Tb0]; · iexact Tb0
  isplitl [Tb1]; · iexact Tb1
  isplitl [Tb2]; · iexact Tb2
  isplitl [Tr0]; · iexact Tr0
  isplitl [Tr1]; · iexact Tr1
  isplitl [Tr2]; · iexact Tr2
  isplitl [Ts0]; · iexact Ts0
  isplitl [Ts1]; · iexact Ts1
  isplitl [Ts2]; · iexact Ts2
  isplitl [CB]; · iexact CB
  isplitl [CR0]; · iexact CR0
  isplitl [CR1]; · iexact CR1
  isplitl [CR2]; · iexact CR2
  isplitl [Hz1]; · iexact Hz1
  isplitl [Hz2]; · iexact Hz2
  isplitl [Hout]; · rw [← whole_pts]; iexact Hout
  isplitl [Hv]; · rw [← whole_pts]; iexact Hv
  isplitl [Hs0]; · rw [← whole_pts]; iexact Hs0
  isplitl [Hs1]; · rw [← whole_pts]; iexact Hs1
  isplitl [Hs2]; · rw [← whole_pts]; iexact Hs2
  isplitl [Hr0]; · rw [← whole_pts]; iexact Hr0
  isplitl [Hr1]; · rw [← whole_pts]; iexact Hr1
  isplitl [Hr2]; · rw [← whole_pts]; iexact Hr2
  isplitl [Hx]; · rw [← whole_pts]; iexact Hx
  isplitl [HO]; · iexact HO
  iintro H
  iapply (done_post m ρ c)
  iexact H

/-- info: 'Cert.Kernel.Halo.body_obligation' depends on axioms: [propext, Classical.choice, Quot.sound] -/
#guard_msgs in #print axioms body_obligation

end Cert.Kernel.Halo

end
-- ==== Proof.Spec.lean ====
/-
  The seven-point Laplacian of a 128 × 128 × 128 array with a zero rim, as ONE function of the array,
  index by index over the extended reals: at an index whose three coordinates all lie in [1, 126] the six
  axis neighbours summed in the order x−1, x+1, y−1, y+1, z−1, z+1, less six times the centre; zero on the rim.
  Coordinates are read as naturals (`at3`: the entry at three natural coordinates, zero outside the array), so
  that the same expression serves a block's view of the array, where a neighbour may lie in another block.
-/
import Idealize.ShloMosaic.Lib.ValueIdx
import Idealize.ShloMosaic.PureOps.Ideal

noncomputable section

namespace Cert.Halo

open Idealize.ShloMosaic Idealize.ShloMosaic.ValueIdx

/-- The whole array's shape and a device's block's. -/
abbrev SW : Shape := ⟨3, ![128, 128, 128]⟩
abbrev SB : Shape := ⟨3, ![64, 64, 64]⟩

/-- The entry of a whole array at three natural coordinates; zero outside the array. -/
def at3 (u : SW.Idx → EReal) (a b c : Nat) : EReal :=
  if h : a < 128 ∧ b < 128 ∧ c < 128 then u (ix3 ⟨a, h.1⟩ ⟨b, h.2.1⟩ ⟨c, h.2.2⟩) else 0

/-- A coordinate off the rim. -/
def inner (a : Nat) : Prop := 1 ≤ a ∧ a ≤ 126

instance (a : Nat) : Decidable (inner a) := by unfold inner; infer_instance

/-- The stencil at three natural coordinates. -/
def lapAt (u : SW.Idx → EReal) (a b c : Nat) : EReal :=
  if inner a ∧ inner b ∧ inner c then
    at3 u (a - 1) b c + at3 u (a + 1) b c + at3 u a (b - 1) c + at3 u a (b + 1) c + at3 u a b (c - 1) + at3 u a b (c + 1)
      - 6 * at3 u a b c
  else 0

/-- The stencil as a function of the array, index by index. -/
def lap (u : SW.Idx → EReal) : SW.Idx → EReal := fun i => lapAt u (i 0).val (i 1).val (i 2).val

theorem lap_apply (u : SW.Idx → EReal) (i : SW.Idx) : lap u i = lapAt u (i 0).val (i 1).val (i 2).val := rfl

theorem at3_of_lt (u : SW.Idx → EReal) {a b c : Nat} (ha : a < 128) (hb : b < 128) (hc : c < 128) :
    at3 u a b c = u (ix3 ⟨a, ha⟩ ⟨b, hb⟩ ⟨c, hc⟩) := by
  unfold at3; rw [dif_pos ⟨ha, hb, hc⟩]

/-- The entry of a block at three natural coordinates; zero outside the block. -/
def bat3 (v : SB.Idx → EReal) (a b c : Nat) : EReal :=
  if h : a < 64 ∧ b < 64 ∧ c < 64 then v (ix3 ⟨a, h.1⟩ ⟨b, h.2.1⟩ ⟨c, h.2.2⟩) else 0

theorem bat3_of_lt (v : SB.Idx → EReal) {a b c : Nat} (ha : a < 64) (hb : b < 64) (hc : c < 64) :
    bat3 v a b c = v (ix3 ⟨a, ha⟩ ⟨b, hb⟩ ⟨c, hc⟩) := by
  unfold bat3; rw [dif_pos ⟨ha, hb, hc⟩]

/-- The value one step below coordinate `p` along an axis, zero when `p` is the first coordinate: a block shifted by
    one with a zero plane put in front. -/
def below (p : Nat) (f : Nat → EReal) : EReal := if 0 < p then f (p - 1) else 0

/-- A block's own part of the stencil's neighbour sum at block coordinates `(p, q, r)`: each axis's two neighbours
    inside the block, a neighbour outside it read as zero; grouped axis by axis. -/
def ownSum (v : SB.Idx → EReal) (p q r : Nat) : EReal :=
  ((below p (fun a => bat3 v a q r) + bat3 v (p + 1) q r)
    + (below q (fun b => bat3 v p b r) + bat3 v p (q + 1) r))
    + (below r (fun c => bat3 v p q c) + bat3 v p q (r + 1))

end Cert.Halo

end
-- ==== Proof.LibScatterSet.lean ====
import Idealize.ShloMosaic.PureOps.ShapeOps
import Mathlib.Data.List.Basic
import Mathlib.Data.List.FinRange
import Mathlib.Logic.Equiv.Defs

/-!
Reading a scatter whose body returns the update ("set") at one operand index.

The scatter is a left fold over the update numbers in row-major order; each step overwrites
the operand element the update lands at.  When the landing indices of distinct updates are
distinct, the result at an index that some update lands at is that update's value; at an
index that no update lands at it is the operand's value.
-/

namespace Cert.LibScatter

open Idealize.ShloMosaic

variable {α : Type} {s si u : Shape} {w : Nat}

/-- One step of the fold: update number `n` overwrites the element it lands at. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

theorem scatter_eq_fold (d : ScatterDims s si u) (x : s.Idx → α) (idx : IVec si w) (upd : u.Idx → α) :
    Host.scatter d (fun _ b => b) x idx upd = (List.finRange u.numel).foldl (step d idx upd) x := rfl

theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  exact if_pos rfl

theorem step_miss (d : ScatterDims s si u) (idx : IVec si w) (upd : u.Idx → α) (r : s.Idx → α) (n : Fin u.numel)
    (i : s.Idx) (h : d.resultIdx? (u.rowMajor.symm n) idx ≠ some i) :
    step d idx upd r n i = r i := by
  unfold step
  cases h' : d.resultIdx? (u.rowMajor.symm n) idx with
  | none => rfl
  | some i' =>
    have hne : i ≠ i' := fun e => h (by rw [h', e])
    exact if_neg hne

/-- No update of the list lands at `i`: the fold leaves the start value there. -/
theorem fold_miss (d : ScatterDims s si u) (idx : IVec si w) (upd : u.Idx → α) (L : List (Fin u.numel))
    (x : s.Idx → α) (i : s.Idx) (h : ∀ n ∈ L, d.resultIdx? (u.rowMajor.symm n) idx ≠ some i) :
    (L.foldl (step d idx upd) x) i = x i := by
  induction L generalizing x with
  | nil => rfl
  | cons n L ih =>
    rw [List.foldl_cons, ih _ (fun m hm => h m (List.mem_cons_of_mem _ hm)),
      step_miss d idx upd x n i (h n List.mem_cons_self)]

/-- Update `j` is in the list and lands at `i`, and landing indices of distinct updates are
    distinct: the fold holds `upd j` there. -/
theorem fold_hit (d : ScatterDims s si u) (idx : IVec si w) (upd : u.Idx → α)
    (hinj : ∀ j j' i, d.resultIdx? j idx = some i → d.resultIdx? j' idx = some i → j = j')
    (L : List (Fin u.numel)) (x : s.Idx → α) (i : s.Idx) (j : u.Idx)
    (hj : d.resultIdx? j idx = some i) (hmem : u.rowMajor j ∈ L) :
    (L.foldl (step d idx upd) x) i = upd j := by
  induction L using List.reverseRecOn with
  | nil => exact absurd hmem List.not_mem_nil
  | append_singleton L n ih =>
    rw [List.foldl_append, List.foldl_cons, List.foldl_nil]
    by_cases hn : d.resultIdx? (u.rowMajor.symm n) idx = some i
    · rw [step_hit d idx upd _ n i hn, hinj _ _ _ hn hj]
    · rw [step_miss d idx upd _ n i hn]
      apply ih
      rcases List.mem_append.1 hmem with h | h
      · exact h
      · exfalso
        apply hn
        have hnj : n = u.rowMajor j := (List.mem_singleton.1 h).symm
        rw [hnj, Equiv.symm_apply_apply]
        exact hj

theorem scatter_set_hit {α : Type} {s si u : Shape} {w : Nat} (d : ScatterDims s si u) (x : s.Idx → α) (idx : IVec si w) (upd : u.Idx → α)
    (hinj : ∀ j j' i, d.resultIdx? j idx = some i → d.resultIdx? j' idx = some i → j = j')
    (i : s.Idx) (j : u.Idx) (hj : d.resultIdx? j idx = some i) :
    Host.scatter d (fun _ b => b) x idx upd i = upd j := by
  rw [scatter_eq_fold]
  exact fold_hit d idx upd hinj _ x i j hj (List.mem_finRange _)

theorem scatter_set_miss {α : Type} {s si u : Shape} {w : Nat} (d : ScatterDims s si u) (x : s.Idx → α) (idx : IVec si w) (upd : u.Idx → α)
    (i : s.Idx) (hi : ∀ j, d.resultIdx? j idx ≠ some i) :
    Host.scatter d (fun _ b => b) x idx upd i = x i := by
  rw [scatter_eq_fold]
  exact fold_miss d idx upd _ x i (fun n _ => hi _)

end Cert.LibScatter
-- ==== Proof.RefValue.lean ====
/-
  The reference's run read back: its result array is the seven-point stencil of its argument array.

  The reference adds six shifted 126 × 126 × 126 slices of the argument, subtracts six times the centre slice, and
  writes that update as one window at the index vector (1, 1, 1) into a 128 × 128 × 128 array of zeros. Update index
  `j` lands at `j + (1, 1, 1)`: distinct update indices land at distinct places, an index with every coordinate in
  [1, 126] is landed at by exactly one, and an index on the rim by none. So the result is the stencil off the rim and
  zero on it; the final narrowing of the element type is the identity over the extended reals.
-/
import proofs.«900807_g7700000000000808_dist_halo3d_v7x_xyz2x2x2_s64_bf16_1_alg».proof.Proof.Gen.ReferenceIdeal.Run
import proofs.«900807_g7700000000000808_dist_halo3d_v7x_xyz2x2x2_s64_bf16_1_alg».proof.Proof.Gen.ReferenceIdeal.Read
import proofs.«900807_g7700000000000808_dist_halo3d_v7x_xyz2x2x2_s64_bf16_1_alg».proof.Proof.Spec
import proofs.«900807_g7700000000000808_dist_halo3d_v7x_xyz2x2x2_s64_bf16_1_alg».proof.Proof.LibScatterSet

noncomputable section

namespace Cert.Halo.Ref

open Cert.ReferenceIdeal Cert.ReferenceIdeal.Gen Cert.ReferenceIdeal.Read Idealize.ShloMosaic Idealize.ShloMosaic.ValueIdx

/-! ## The two constants -/

/-- The pattern `0x40C00000` denotes six. -/
theorem six_eq : Ideal.ofBits .f32 0x40C00000#32 = ((6 : ℝ) : EReal) := by
  simp [Ideal.ofBits, Ideal.ieee, -EReal.coe_mul]; norm_num

/-- The pattern `0x00000000` denotes zero. -/
theorem zero_eq : Ideal.ofBits .f32 0x00000000#32 = 0 := by simp [Ideal.ofBits, Ideal.ieee]

/-! ## The index vector: three ones laid end to end -/

/-- The one index of a one-element vector. -/
abbrev pt : S1.Idx := ix1 (0 : Fin 1)

/-- Every component of the index vector is one: component `k` is the `k`-th of three one-element pieces, each the
    constant one. -/
theorem idx_apply (k : S3.Idx) : val_main_v19 (F := Ideal) k = 1#32 := by
  unfold val_main_v19
  have hk : (k 0).val < 3 := (k 0).isLt
  have hi : ∀ b : Fin S1.rank, b.cast (rfl : S1.rank = S3.rank) ≠ (0 : Fin S3.rank) → (pt b).val = (k (b.cast rfl)).val :=
    fun b hb => absurd (Subsingleton.elim _ _) hb
  rcases (by omega : (k 0).val = 0 ∨ (k 0).val = 1 ∨ (k 0).val = 2) with h | h | h
  · rw [concatenate_apply_piece (0 : Fin S3.rank)
      [⟨S1, val_main_v16 (F := Ideal)⟩, ⟨S1, val_main_v17 (F := Ideal)⟩, ⟨S1, val_main_v18 (F := Ideal)⟩]
      concatenates_S1_S1_S1_S3_d0 k 0 (by decide) S1 (val_main_v16 (F := Ideal)) rfl rfl 0 rfl pt hi (by rw [h]; rfl)]
    rw [val_main_v16_apply, val_main_c_apply]
  · rw [concatenate_apply_piece (0 : Fin S3.rank)
      [⟨S1, val_main_v16 (F := Ideal)⟩, ⟨S1, val_main_v17 (F := Ideal)⟩, ⟨S1, val_main_v18 (F := Ideal)⟩]
      concatenates_S1_S1_S1_S3_d0 k 1 (by decide) S1 (val_main_v17 (F := Ideal)) rfl rfl 1 rfl pt hi (by rw [h]; rfl)]
    rw [val_main_v17_apply, val_main_c_1_apply]
  · rw [concatenate_apply_piece (0 : Fin S3.rank)
      [⟨S1, val_main_v16 (F := Ideal)⟩, ⟨S1, val_main_v17 (F := Ideal)⟩, ⟨S1, val_main_v18 (F := Ideal)⟩]
      concatenates_S1_S1_S1_S3_d0 k 2 (by decide) S1 (val_main_v18 (F := Ideal)) rfl rfl 2 rfl pt hi (by rw [h]; rfl)]
    rw [val_main_v18_apply, val_main_c_2_apply]

/-! ## Where an update index lands -/

/-- The scatter's dimension numbers: the update is one window over all three axes, placed at one index vector. -/
abbrev D : ScatterDims S128x128x128 S3 S126x126x126 := scatter_S128x128x128_S3_S126x126x126_012_n_012_0

theorem mem_axes (a : Fin 3) : a ∈ ([0, 1, 2] : List (Fin 3)) := by revert a; decide

/-- The window starts at one on every axis. -/
theorem start_eq (j : S126x126x126.Idx) (a : Fin S128x128x128.rank) :
    D.start j (val_main_v19 (F := Ideal)) a = 1 := by
  unfold ScatterDims.start
  have h : a ∈ D.scatterDimsToOperandDims := mem_axes a
  rw [dif_pos h, idx_apply]
  rfl

/-- The window coordinate on an axis is the update index's coordinate on that axis. -/
theorem window_eq (j : S126x126x126.Idx) (a : Fin S128x128x128.rank) : D.window j a = (j a).val := by
  fin_cases a <;> rfl

/-- Where an update index lands: one step in on every axis. -/
abbrev land (j : S126x126x126.Idx) : S128x128x128.Idx := fun a =>
  ⟨1 + (j a).val, by
    have h : (j a).val < 126 := by
      have := (j a).isLt
      fin_cases a <;> exact this
    show 1 + (j a).val < S128x128x128.size a
    fin_cases a <;> (show _ < 128; omega)⟩

/-- Every update index lands inside the operand, at `land`. -/
theorem resultIdx_eq (j : S126x126x126.Idx) :
    D.resultIdx? j (val_main_v19 (F := Ideal)) = some (land j) := by
  unfold ScatterDims.resultIdx?
  have h : ∀ a, 0 ≤ D.start j (val_main_v19 (F := Ideal)) a + D.window j a
      ∧ D.start j (val_main_v19 (F := Ideal)) a + D.window j a < S128x128x128.size a := by
    intro a
    rw [start_eq, window_eq]
    have h : (j a).val < 126 := by
      have := (j a).isLt
      fin_cases a <;> exact this
    constructor
    · omega
    · fin_cases a <;> (show _ < ((128 : Nat) : Int); omega)
  rw [dif_pos h]
  congr 1
  funext a
  apply Fin.ext
  show (D.start j (val_main_v19 (F := Ideal)) a + D.window j a).toNat = 1 + (j a).val
  rw [start_eq, window_eq]
  omega

theorem land_inj (j j' : S126x126x126.Idx) (h : land j = land j') : j = j' := by
  funext a
  have e : 1 + (j a).val = 1 + (j' a).val := congrArg (fun f : S128x128x128.Idx => (f a).val) h
  apply Fin.ext
  omega

/-- Distinct update indices land at distinct operand indices. -/
theorem land_distinct (j j' : S126x126x126.Idx) (i : S128x128x128.Idx)
    (h : D.resultIdx? j (val_main_v19 (F := Ideal)) = some i) (h' : D.resultIdx? j' (val_main_v19 (F := Ideal)) = some i) :
    j = j' := by
  rw [resultIdx_eq] at h h'
  exact land_inj j j' (Option.some.inj (h.trans h'.symm))

/-- Off the rim on every axis, as one statement over the axes. -/
theorem inner_all (i : S128x128x128.Idx) (hin : inner (i 0).val ∧ inner (i 1).val ∧ inner (i 2).val) :
    ∀ a, 1 ≤ (i a).val ∧ (i a).val ≤ 126 := by
  intro a
  fin_cases a
  · exact hin.1
  · exact hin.2.1
  · exact hin.2.2

/-- The update index that lands at an operand index off the rim: one step out on every axis. -/
abbrev back (i : S128x128x128.Idx) (h : ∀ a, 1 ≤ (i a).val ∧ (i a).val ≤ 126) : S126x126x126.Idx := fun a =>
  ⟨(i a).val - 1, by
    have := h a
    show (i a).val - 1 < S126x126x126.size a
    fin_cases a <;> (show _ < 126; omega)⟩

theorem land_back (i : S128x128x128.Idx) (h : ∀ a, 1 ≤ (i a).val ∧ (i a).val ≤ 126) : land (back i h) = i := by
  funext a
  apply Fin.ext
  show 1 + ((i a).val - 1) = (i a).val
  have := h a
  omega

/-! ## The update and the scatter at an index -/

/-- The entry of the array at three natural coordinates is the array at any index with those coordinates. -/
theorem at3_eq (u : SW.Idx → EReal) (p : SW.Idx) (a b c : Nat) (h0 : (p 0).val = a) (h1 : (p 1).val = b)
    (h2 : (p 2).val = c) : at3 u a b c = u p := by
  subst h0 h1 h2
  rw [at3_of_lt u (p 0).isLt (p 1).isLt (p 2).isLt]
  exact congrArg u (eq_ix3 p).symm

/-- The update at an index: the six neighbours' sum less six times the centre, read off the argument. -/
theorem upd_apply (x0 : (⟨S128x128x128, .f32⟩ : BufTy).Contents (Elt Ideal)) (j : S126x126x126.Idx) :
    val_main_v15 (F := Ideal) x0 j
      = x0 (idx_main_v1 j) + x0 (idx_main_v2 j) + x0 (idx_main_v4 j) + x0 (idx_main_v6 j) + x0 (idx_main_v8 j)
          + x0 (idx_main_v10 j) - 6 * x0 (idx_main_v12 j) := by
  rw [val_main_v15_apply, val_main_v14_apply, val_main_v13_apply, val_main_cst_0_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply]
  simp only [Ideal.addf_def, Ideal.subf_def, Ideal.mulf_def, Ideal.ofBits_def, six_eq]
  rfl

/-- A slice offset of one undoes the step out; an offset of two goes one step further. -/
theorem one_add_pred (n : Nat) (h : 1 ≤ n) : 1 + (n - 1) = n := by omega
theorem two_add_pred (n : Nat) (h : 1 ≤ n) : 2 + (n - 1) = n + 1 := by omega

/-- The scatter read at an index: the stencil off the rim, the zero operand on it. -/
theorem scat_apply (x0 : (⟨S128x128x128, .f32⟩ : BufTy).Contents (Elt Ideal)) (i : S128x128x128.Idx) :
    val_main_v20 (F := Ideal) x0 i = lapAt x0 (i 0).val (i 1).val (i 2).val := by
  unfold val_main_v20
  by_cases hin : inner (i 0).val ∧ inner (i 1).val ∧ inner (i 2).val
  · -- off the rim: the one update index landing here is one step out, and the seven slices read the stencil's points
    have hall := inner_all i hin
    rw [LibScatter.scatter_set_hit D _ _ _ land_distinct i (back i hall) (by rw [resultIdx_eq, land_back])]
    rw [upd_apply]
    unfold lapAt
    rw [if_pos hin]
    obtain ⟨⟨l0, _⟩, ⟨l1, _⟩, ⟨l2, _⟩⟩ := hin
    rw [at3_eq x0 (idx_main_v1 (back i hall)) _ _ _ rfl (one_add_pred _ l1) (one_add_pred _ l2),
      at3_eq x0 (idx_main_v2 (back i hall)) _ _ _ (two_add_pred _ l0) (one_add_pred _ l1) (one_add_pred _ l2),
      at3_eq x0 (idx_main_v4 (back i hall)) _ _ _ (one_add_pred _ l0) rfl (one_add_pred _ l2),
      at3_eq x0 (idx_main_v6 (back i hall)) _ _ _ (one_add_pred _ l0) (two_add_pred _ l1) (one_add_pred _ l2),
      at3_eq x0 (idx_main_v8 (back i hall)) _ _ _ (one_add_pred _ l0) (one_add_pred _ l1) rfl,
      at3_eq x0 (idx_main_v10 (back i hall)) _ _ _ (one_add_pred _ l0) (one_add_pred _ l1) (two_add_pred _ l2),
      at3_eq x0 (idx_main_v12 (back i hall)) _ _ _ (one_add_pred _ l0) (one_add_pred _ l1) (one_add_pred _ l2)]
  · -- on the rim: every landing place has all coordinates in [1, 126], so none is this index
    rw [LibScatter.scatter_set_miss D _ _ _ i (fun j hj => hin (by
      rw [resultIdx_eq] at hj
      have e : ∀ a, 1 + (j a).val = (i a).val := fun a =>
        congrArg (fun f : S128x128x128.Idx => (f a).val) (Option.some.inj hj)
      have b0 : (j 0).val < 126 := (j 0).isLt
      have b1 : (j 1).val < 126 := (j 1).isLt
      have b2 : (j 2).val < 126 := (j 2).isLt
      have e0 := e 0
      have e1 := e 1
      have e2 := e 2
      unfold inner
      omega))]
    rw [val_main_v0_apply, val_main_cst_apply, Ideal.ofBits_def, zero_eq]
    unfold lapAt
    rw [if_neg hin]

/-! ## The result -/

theorem val_eq (x0 : (⟨Cert.ReferenceIdeal.S128x128x128, .f32⟩ : BufTy).Contents (Elt Ideal)) :
    Cert.ReferenceIdeal.Read.val_main_v21 (F := Ideal) x0 = Cert.Halo.lap x0 := by
  funext i
  rw [val_main_v21_apply, Ideal.truncf_def, scat_apply]
  rfl

open Idealize.SL.Sem Idealize.ShloMosaic.TcCoe in
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v21) = Cert.Halo.lap (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) :=
  (θ_run _ _ _).mono
    (fun _ h c => ⟨(h c).1.trans ((val_main_v21_eq (F := Ideal) _).trans (val_eq _)), (h c).2⟩)
    (Cert.ReferenceIdeal.Value.run m' ρ')

/-- info: 'Cert.Halo.Ref.run' depends on axioms: [propext, Classical.choice, Quot.sound] -/
#guard_msgs in #print axioms run

end Cert.Halo.Ref

end
-- ==== Proof.PayIdeal.lean ====
/-
  The kernel body's arithmetic, one named piece at a time, read at an index over the extended reals:
  the converted block, the six face planes cut from it, the block's own neighbour sum with zero planes
  put in at the block's faces, the masked received planes, and the face updates.
-/
import proofs.«900807_g7700000000000808_dist_halo3d_v7x_xyz2x2x2_s64_bf16_1_alg».proof.Proof.Gen.KernelIdeal.Skeleton
import proofs.«900807_g7700000000000808_dist_halo3d_v7x_xyz2x2x2_s64_bf16_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Predicate

noncomputable section

namespace Cert.Halo.Pay

open Idealize.ShloMosaic Idealize.ShloMosaic.ValueIdx
open Cert.KernelIdeal Cert.KernelIdeal.Gen Cert.Halo

/-- The bf16 word `0x40C0` (exponent 129, significand 1.5) is the extended real six. -/
theorem ofBits_six_bf16 : Ideal.ofBits .bf16 0x40C0#16 = 6 := by
  rw [show (6 : EReal) = ((6 : ℝ) : EReal) by norm_cast]
  simp [Ideal.ofBits, Ideal.ieee, -EReal.coe_mul]; norm_num

/-! ### Row-major positions of the unit-axis shapes, and the casts between a plane and a face -/

/-- A plane read as a face along axis 0. -/
theorem cast_plane_face0 {α : Type} (v : S64x64.Idx → α) (h : S64x64.ShapeCasts S1x64x64) (q r : Fin 64) :
    shapeCast S1x64x64 v h (ix3 0 q r) = v (ix2 q r) :=
  shapeCast_apply v h (ix3 0 q r) (ix2 q r) (by
    rw [Shape.rowMajor_val_three, Shape.rowMajor_val_two]
    show q.val * 64 + r.val = (0 * 64 + q.val) * 64 + r.val
    omega)
/-- A plane read as a face along axis 1. -/
theorem cast_plane_face1 {α : Type} (v : S64x64.Idx → α) (h : S64x64.ShapeCasts S64x1x64) (p r : Fin 64) :
    shapeCast S64x1x64 v h (ix3 p 0 r) = v (ix2 p r) :=
  shapeCast_apply v h (ix3 p 0 r) (ix2 p r) (by
    rw [Shape.rowMajor_val_three, Shape.rowMajor_val_two]
    show p.val * 64 + r.val = (p.val * 1 + 0) * 64 + r.val
    omega)
/-- A plane read as a face along axis 2. -/
theorem cast_plane_face2 {α : Type} (v : S64x64.Idx → α) (h : S64x64.ShapeCasts S64x64x1) (p q : Fin 64) :
    shapeCast S64x64x1 v h (ix3 p q 0) = v (ix2 p q) :=
  shapeCast_apply v h (ix3 p q 0) (ix2 p q) (by
    rw [Shape.rowMajor_val_three, Shape.rowMajor_val_two]
    show p.val * 64 + q.val = (p.val * 64 + q.val) * 1 + 0
    omega)
/-- A face along axis 0 read as a plane. -/
theorem cast_face0_plane {α : Type} (v : S1x64x64.Idx → α) (h : S1x64x64.ShapeCasts S64x64) (q r : Fin 64) :
    shapeCast S64x64 v h (ix2 q r) = v (ix3 0 q r) :=
  shapeCast_apply v h (ix2 q r) (ix3 0 q r) (by
    rw [Shape.rowMajor_val_three, Shape.rowMajor_val_two]
    show (0 * 64 + q.val) * 64 + r.val = q.val * 64 + r.val
    omega)
/-- A face along axis 1 read as a plane. -/
theorem cast_face1_plane {α : Type} (v : S64x1x64.Idx → α) (h : S64x1x64.ShapeCasts S64x64) (p r : Fin 64) :
    shapeCast S64x64 v h (ix2 p r) = v (ix3 p 0 r) :=
  shapeCast_apply v h (ix2 p r) (ix3 p 0 r) (by
    rw [Shape.rowMajor_val_three, Shape.rowMajor_val_two]
    show (p.val * 1 + 0) * 64 + r.val = p.val * 64 + r.val
    omega)
/-- A face along axis 2 read as a plane. -/
theorem cast_face2_plane {α : Type} (v : S64x64x1.Idx → α) (h : S64x64x1.ShapeCasts S64x64) (p q : Fin 64) :
    shapeCast S64x64 v h (ix2 p q) = v (ix3 p q 0) :=
  shapeCast_apply v h (ix2 p q) (ix3 p q 0) (by
    rw [Shape.rowMajor_val_three, Shape.rowMajor_val_two]
    show (p.val * 64 + q.val) * 1 + 0 = p.val * 64 + q.val
    omega)

/-- The conversion to the narrower format changes no entry. -/
theorem pay11_apply (x : Vec Ideal S64x64x64 .f32) (i : S64x64x64.Idx) : k0_pay11 (F := Ideal) x i = x i := by
  unfold k0_pay11
  rw [shapeCast_self]
  rfl

/-- The six face planes of the converted block: the last and first plane along each axis. -/
theorem pay12_apply (x : Vec Ideal S64x64x64 .f32) (q r : Fin 64) : k0_pay12 (F := Ideal) x (ix2 q r) = x (ix3 63 q r) := by
  unfold k0_pay12
  rw [shapeCast_self, cast_face0_plane]
  rw [extractStridedSlice_apply _ _ _ (ix3 (0 : Fin 1) q r) (ix3 (63 : Fin 64) q r) (fun a => match a with
    | ⟨0, _⟩ => by show 63 = 63 + 0; rfl
    | ⟨1, _⟩ => by show q.val = 0 + q.val; omega
    | ⟨2, _⟩ => by show r.val = 0 + r.val; omega)]
  exact pay11_apply x _
theorem pay13_apply (x : Vec Ideal S64x64x64 .f32) (q r : Fin 64) : k0_pay13 (F := Ideal) x (ix2 q r) = x (ix3 0 q r) := by
  unfold k0_pay13
  rw [shapeCast_self, cast_face0_plane]
  rw [extractStridedSlice_apply _ _ _ (ix3 (0 : Fin 1) q r) (ix3 (0 : Fin 64) q r) (fun a => match a with
    | ⟨0, _⟩ => by show 0 = 0 + 0; rfl
    | ⟨1, _⟩ => by show q.val = 0 + q.val; omega
    | ⟨2, _⟩ => by show r.val = 0 + r.val; omega)]
  exact pay11_apply x _
theorem pay14_apply (x : Vec Ideal S64x64x64 .f32) (p r : Fin 64) : k0_pay14 (F := Ideal) x (ix2 p r) = x (ix3 p 63 r) := by
  unfold k0_pay14
  rw [shapeCast_self, cast_face1_plane]
  rw [extractStridedSlice_apply _ _ _ (ix3 p (0 : Fin 1) r) (ix3 p (63 : Fin 64) r) (fun a => match a with
    | ⟨0, _⟩ => by show p.val = 0 + p.val; omega
    | ⟨1, _⟩ => by show 63 = 63 + 0; rfl
    | ⟨2, _⟩ => by show r.val = 0 + r.val; omega)]
  exact pay11_apply x _
theorem pay15_apply (x : Vec Ideal S64x64x64 .f32) (p r : Fin 64) : k0_pay15 (F := Ideal) x (ix2 p r) = x (ix3 p 0 r) := by
  unfold k0_pay15
  rw [shapeCast_self, cast_face1_plane]
  rw [extractStridedSlice_apply _ _ _ (ix3 p (0 : Fin 1) r) (ix3 p (0 : Fin 64) r) (fun a => match a with
    | ⟨0, _⟩ => by show p.val = 0 + p.val; omega
    | ⟨1, _⟩ => by show 0 = 0 + 0; rfl
    | ⟨2, _⟩ => by show r.val = 0 + r.val; omega)]
  exact pay11_apply x _
theorem pay16_apply (x : Vec Ideal S64x64x64 .f32) (p q : Fin 64) : k0_pay16 (F := Ideal) x (ix2 p q) = x (ix3 p q 63) := by
  unfold k0_pay16
  rw [shapeCast_self, cast_face2_plane]
  rw [extractStridedSlice_apply _ _ _ (ix3 p q (0 : Fin 1)) (ix3 p q (63 : Fin 64)) (fun a => match a with
    | ⟨0, _⟩ => by show p.val = 0 + p.val; omega
    | ⟨1, _⟩ => by show q.val = 0 + q.val; omega
    | ⟨2, _⟩ => by show 63 = 63 + 0; rfl)]
  exact pay11_apply x _
theorem pay17_apply (x : Vec Ideal S64x64x64 .f32) (p q : Fin 64) : k0_pay17 (F := Ideal) x (ix2 p q) = x (ix3 p q 0) := by
  unfold k0_pay17
  rw [shapeCast_self, cast_face2_plane]
  rw [extractStridedSlice_apply _ _ _ (ix3 p q (0 : Fin 1)) (ix3 p q (0 : Fin 64)) (fun a => match a with
    | ⟨0, _⟩ => by show p.val = 0 + p.val; omega
    | ⟨1, _⟩ => by show q.val = 0 + q.val; omega
    | ⟨2, _⟩ => by show 0 = 0 + 0; rfl)]
  exact pay11_apply x _

/-! ### The block shifted by one along an axis, a zero plane at the open end -/

/-- Along axis 0, a zero plane in front of the block less its last plane: the entry one step below, zero at the first plane. -/
theorem down0 (v : S64x64x64.Idx → EReal) (z : S1x64x64.Idx → EReal) (hz : ∀ i, z i = 0)
    (hs : S64x64x64.Slices ![0, 0, 0] S63x64x64) (hc : Shape.Concatenates [S1x64x64, S63x64x64] S64x64x64 0) (p q r : Fin 64) :
    concatenate S64x64x64 0 [⟨S1x64x64, z⟩, ⟨S63x64x64, extractStridedSlice S63x64x64 ![0, 0, 0] v hs⟩] hc (ix3 p q r)
      = below p.val (fun a => bat3 v a q.val r.val) := by
  unfold below
  by_cases hp : 0 < p.val
  · rw [if_pos hp]
    show _ = bat3 v (p.val - 1) q.val r.val
    rw [bat3_of_lt v (show p.val - 1 < 64 by omega) q.isLt r.isLt]
    rw [concatenate_pair_apply_right 0 _ _ hc (ix3 p q r) rfl rfl (ix3 (⟨p.val - 1, by omega⟩ : Fin 63) q r)
      (fun b => match b with
        | ⟨0, _⟩ => fun h => absurd rfl h
        | ⟨1, _⟩ => fun _ => rfl
        | ⟨2, _⟩ => fun _ => rfl)
      (by show p.val - 1 + 1 = p.val; omega)]
    exact extractStridedSlice_apply _ _ _ _ _ (fun a => match a with
      | ⟨0, _⟩ => by show p.val - 1 = 0 + (p.val - 1); omega
      | ⟨1, _⟩ => by show q.val = 0 + q.val; omega
      | ⟨2, _⟩ => by show r.val = 0 + r.val; omega)
  · rw [if_neg hp]
    rw [concatenate_pair_apply_left 0 _ _ hc (ix3 p q r) rfl (ix3 (0 : Fin 1) q r)
      (fun b => match b with
        | ⟨0, _⟩ => by show 0 = p.val; omega
        | ⟨1, _⟩ => rfl
        | ⟨2, _⟩ => rfl)]
    exact hz _

/-- Along axis 0, the block less its first plane with a zero plane behind: the entry one step above, zero at the last plane. -/
theorem up0 (v : S64x64x64.Idx → EReal) (z : S1x64x64.Idx → EReal) (hz : ∀ i, z i = 0)
    (hs : S64x64x64.Slices ![1, 0, 0] S63x64x64) (hc : Shape.Concatenates [S63x64x64, S1x64x64] S64x64x64 0) (p q r : Fin 64) :
    concatenate S64x64x64 0 [⟨S63x64x64, extractStridedSlice S63x64x64 ![1, 0, 0] v hs⟩, ⟨S1x64x64, z⟩] hc (ix3 p q r)
      = bat3 v (p.val + 1) q.val r.val := by
  by_cases hp : p.val + 1 < 64
  · rw [bat3_of_lt v hp q.isLt r.isLt]
    rw [concatenate_pair_apply_left 0 _ _ hc (ix3 p q r) rfl (ix3 (⟨p.val, by omega⟩ : Fin 63) q r)
      (fun b => match b with
        | ⟨0, _⟩ => rfl
        | ⟨1, _⟩ => rfl
        | ⟨2, _⟩ => rfl)]
    exact extractStridedSlice_apply _ _ _ _ _ (fun a => match a with
      | ⟨0, _⟩ => by show p.val + 1 = 1 + p.val; omega
      | ⟨1, _⟩ => by show q.val = 0 + q.val; omega
      | ⟨2, _⟩ => by show r.val = 0 + r.val; omega)
  · have hb : bat3 v (p.val + 1) q.val r.val = 0 := by
      unfold bat3; rw [dif_neg (fun h => hp h.1)]
    rw [hb]
    rw [concatenate_pair_apply_right 0 _ _ hc (ix3 p q r) rfl rfl (ix3 (0 : Fin 1) q r)
      (fun b => match b with
        | ⟨0, _⟩ => fun h => absurd rfl h
        | ⟨1, _⟩ => fun _ => rfl
        | ⟨2, _⟩ => fun _ => rfl)
      (by show 0 + 63 = p.val; have := p.isLt; omega)]
    exact hz _

/-- Along axis 1, a zero plane in front of the block less its last plane: the entry one step below, zero at the first plane. -/
theorem down1 (v : S64x64x64.Idx → EReal) (z : S64x1x64.Idx → EReal) (hz : ∀ i, z i = 0)
    (hs : S64x64x64.Slices ![0, 0, 0] S64x63x64) (hc : Shape.Concatenates [S64x1x64, S64x63x64] S64x64x64 1) (p q r : Fin 64) :
    concatenate S64x64x64 1 [⟨S64x1x64, z⟩, ⟨S64x63x64, extractStridedSlice S64x63x64 ![0, 0, 0] v hs⟩] hc (ix3 p q r)
      = below q.val (fun b => bat3 v p.val b r.val) := by
  unfold below
  by_cases hp : 0 < q.val
  · rw [if_pos hp]
    show _ = bat3 v p.val (q.val - 1) r.val
    rw [bat3_of_lt v p.isLt (show q.val - 1 < 64 by omega) r.isLt]
    rw [concatenate_pair_apply_right 1 _ _ hc (ix3 p q r) rfl rfl (ix3 p (⟨q.val - 1, by omega⟩ : Fin 63) r)
      (fun b => match b with
        | ⟨0, _⟩ => fun _ => rfl
        | ⟨1, _⟩ => fun h => absurd rfl h
        | ⟨2, _⟩ => fun _ => rfl)
      (by show q.val - 1 + 1 = q.val; omega)]
    exact extractStridedSlice_apply _ _ _ _ _ (fun a => match a with
      | ⟨0, _⟩ => by show p.val = 0 + p.val; omega
      | ⟨1, _⟩ => by show q.val - 1 = 0 + (q.val - 1); omega
      | ⟨2, _⟩ => by show r.val = 0 + r.val; omega)
  · rw [if_neg hp]
    rw [concatenate_pair_apply_left 1 _ _ hc (ix3 p q r) rfl (ix3 p (0 : Fin 1) r)
      (fun b => match b with
        | ⟨0, _⟩ => rfl
        | ⟨1, _⟩ => by show 0 = q.val; omega
        | ⟨2, _⟩ => rfl)]
    exact hz _

/-- Along axis 1, the block less its first plane with a zero plane behind: the entry one step above, zero at the last plane. -/
theorem up1 (v : S64x64x64.Idx → EReal) (z : S64x1x64.Idx → EReal) (hz : ∀ i, z i = 0)
    (hs : S64x64x64.Slices ![0, 1, 0] S64x63x64) (hc : Shape.Concatenates [S64x63x64, S64x1x64] S64x64x64 1) (p q r : Fin 64) :
    concatenate S64x64x64 1 [⟨S64x63x64, extractStridedSlice S64x63x64 ![0, 1, 0] v hs⟩, ⟨S64x1x64, z⟩] hc (ix3 p q r)
      = bat3 v p.val (q.val + 1) r.val := by
  by_cases hp : q.val + 1 < 64
  · rw [bat3_of_lt v p.isLt hp r.isLt]
    rw [concatenate_pair_apply_left 1 _ _ hc (ix3 p q r) rfl (ix3 p (⟨q.val, by omega⟩ : Fin 63) r)
      (fun b => match b with
        | ⟨0, _⟩ => rfl
        | ⟨1, _⟩ => rfl
        | ⟨2, _⟩ => rfl)]
    exact extractStridedSlice_apply _ _ _ _ _ (fun a => match a with
      | ⟨0, _⟩ => by show p.val = 0 + p.val; omega
      | ⟨1, _⟩ => by show q.val + 1 = 1 + q.val; omega
      | ⟨2, _⟩ => by show r.val = 0 + r.val; omega)
  · have hb : bat3 v p.val (q.val + 1) r.val = 0 := by
      unfold bat3; rw [dif_neg (fun h => hp h.2.1)]
    rw [hb]
    rw [concatenate_pair_apply_right 1 _ _ hc (ix3 p q r) rfl rfl (ix3 p (0 : Fin 1) r)
      (fun b => match b with
        | ⟨0, _⟩ => fun _ => rfl
        | ⟨1, _⟩ => fun h => absurd rfl h
        | ⟨2, _⟩ => fun _ => rfl)
      (by show 0 + 63 = q.val; have := q.isLt; omega)]
    exact hz _

/-- Along axis 2, a zero plane in front of the block less its last plane: the entry one step below, zero at the first plane. -/
theorem down2 (v : S64x64x64.Idx → EReal) (z : S64x64x1.Idx → EReal) (hz : ∀ i, z i = 0)
    (hs : S64x64x64.Slices ![0, 0, 0] S64x64x63) (hc : Shape.Concatenates [S64x64x1, S64x64x63] S64x64x64 2) (p q r : Fin 64) :
    concatenate S64x64x64 2 [⟨S64x64x1, z⟩, ⟨S64x64x63, extractStridedSlice S64x64x63 ![0, 0, 0] v hs⟩] hc (ix3 p q r)
      = below r.val (fun c => bat3 v p.val q.val c) := by
  unfold below
  by_cases hp : 0 < r.val
  · rw [if_pos hp]
    show _ = bat3 v p.val q.val (r.val - 1)
    rw [bat3_of_lt v p.isLt q.isLt (show r.val - 1 < 64 by omega)]
    rw [concatenate_pair_apply_right 2 _ _ hc (ix3 p q r) rfl rfl (ix3 p q (⟨r.val - 1, by omega⟩ : Fin 63))
      (fun b => match b with
        | ⟨0, _⟩ => fun _ => rfl
        | ⟨1, _⟩ => fun _ => rfl
        | ⟨2, _⟩ => fun h => absurd rfl h)
      (by show r.val - 1 + 1 = r.val; omega)]
    exact extractStridedSlice_apply _ _ _ _ _ (fun a => match a with
      | ⟨0, _⟩ => by show p.val = 0 + p.val; omega
      | ⟨1, _⟩ => by show q.val = 0 + q.val; omega
      | ⟨2, _⟩ => by show r.val - 1 = 0 + (r.val - 1); omega)
  · rw [if_neg hp]
    rw [concatenate_pair_apply_left 2 _ _ hc (ix3 p q r) rfl (ix3 p q (0 : Fin 1))
      (fun b => match b with
        | ⟨0, _⟩ => rfl
        | ⟨1, _⟩ => rfl
        | ⟨2, _⟩ => by show 0 = r.val; omega)]
    exact hz _

/-- Along axis 2, the block less its first plane with a zero plane behind: the entry one step above, zero at the last plane. -/
theorem up2 (v : S64x64x64.Idx → EReal) (z : S64x64x1.Idx → EReal) (hz : ∀ i, z i = 0)
    (hs : S64x64x64.Slices ![0, 0, 1] S64x64x63) (hc : Shape.Concatenates [S64x64x63, S64x64x1] S64x64x64 2) (p q r : Fin 64) :
    concatenate S64x64x64 2 [⟨S64x64x63, extractStridedSlice S64x64x63 ![0, 0, 1] v hs⟩, ⟨S64x64x1, z⟩] hc (ix3 p q r)
      = bat3 v p.val q.val (r.val + 1) := by
  by_cases hp : r.val + 1 < 64
  · rw [bat3_of_lt v p.isLt q.isLt hp]
    rw [concatenate_pair_apply_left 2 _ _ hc (ix3 p q r) rfl (ix3 p q (⟨r.val, by omega⟩ : Fin 63))
      (fun b => match b with
        | ⟨0, _⟩ => rfl
        | ⟨1, _⟩ => rfl
        | ⟨2, _⟩ => rfl)]
    exact extractStridedSlice_apply _ _ _ _ _ (fun a => match a with
      | ⟨0, _⟩ => by show p.val = 0 + p.val; omega
      | ⟨1, _⟩ => by show q.val = 0 + q.val; omega
      | ⟨2, _⟩ => by show r.val + 1 = 1 + r.val; omega)
  · have hb : bat3 v p.val q.val (r.val + 1) = 0 := by
      unfold bat3; rw [dif_neg (fun h => hp h.2.2)]
    rw [hb]
    rw [concatenate_pair_apply_right 2 _ _ hc (ix3 p q r) rfl rfl (ix3 p q (0 : Fin 1))
      (fun b => match b with
        | ⟨0, _⟩ => fun _ => rfl
        | ⟨1, _⟩ => fun _ => rfl
        | ⟨2, _⟩ => fun h => absurd rfl h)
      (by show 0 + 63 = r.val; have := r.isLt; omega)]
    exact hz _

/-- The block's own neighbour sum: along each axis the block shifted down and up by one with a zero plane at
    the open end, the three axes' pairs added. -/
theorem pay18_apply (v : FVec Ideal S64x64x64 .bf16) (p q r : Fin 64) :
    k0_pay18 (F := Ideal) v (ix3 p q r) = ownSum v p.val q.val r.val := by
  unfold k0_pay18 ownSum
  simp only [addf_apply]
  refine congrArg₂ (· + ·) (congrArg₂ (· + ·) (congrArg₂ (· + ·) ?_ ?_) (congrArg₂ (· + ·) ?_ ?_)) (congrArg₂ (· + ·) ?_ ?_)
  · exact down0 v _ (fun _ => Ideal.ofBits_zero_bf16) _ _ p q r
  · exact up0 v _ (fun _ => Ideal.ofBits_zero_bf16) _ _ p q r
  · exact down1 v _ (fun _ => Ideal.ofBits_zero_bf16) _ _ p q r
  · exact up1 v _ (fun _ => Ideal.ofBits_zero_bf16) _ _ p q r
  · exact down2 v _ (fun _ => Ideal.ofBits_zero_bf16) _ _ p q r
  · exact up2 v _ (fun _ => Ideal.ofBits_zero_bf16) _ _ p q r

/-- The constant six. -/
theorem pay19_apply (i : S64x64x64.Idx) : k0_pay19 (F := Ideal) i = (6 : EReal) := by
  unfold k0_pay19
  exact ofBits_six_bf16

/-- The neighbour sum less the constant times the centre. -/
theorem pay20_apply (v s w : FVec Ideal S64x64x64 .bf16) (i : S64x64x64.Idx) :
    k0_pay20 (F := Ideal) v s w i = s i - w i * v i := by
  unfold k0_pay20
  rw [shapeCast_self]
  rfl

/-! ### The rim masks -/

/-- Two words below 64 are equal exactly when their values are. -/
theorem word_eq_iff (a c : Nat) (ha : a < 64) (hc : c < 64) : BitVec.ofNat 32 a = BitVec.ofNat 32 c ↔ a = c := by
  constructor
  · intro e
    have h := congrArg BitVec.toNat e
    simp only [BitVec.toNat_ofNat] at h
    omega
  · intro e; rw [e]

/-- The comparison of a coordinate below 64 with the word `63 * j`, `j` below 2: the bit is set exactly at that coordinate. -/
theorem rim_bit (a : Fin 64) (j : Nat) (hj : j < 2) :
    IntOp.cmpi .eq (BitVec.ofNat 32 a.val) (Scalar.muli (BitVec.ofNat 32 j) 63#32) = if a.val = 63 * j then 1#1 else 0#1 := by
  have hw : Scalar.muli (BitVec.ofNat 32 j) 63#32 = BitVec.ofNat 32 (63 * j) := by
    interval_cases j <;> rfl
  rw [hw]
  by_cases h : a.val = 63 * j
  · rw [if_pos h]
    exact StableHlo.Predicate.cmpi_eq_iff.mpr (by rw [h])
  · rw [if_neg h]
    refine eq_zero_of_ne_one fun e => h ?_
    exact (word_eq_iff a.val (63 * j) a.isLt (by omega)).mp (StableHlo.Predicate.cmpi_eq_iff.mp e)

/-- A select on the union of two such bits against zero. -/
theorem rim_select (P Q : Prop) [Decidable P] [Decidable Q] (z y : EReal) :
    Scalar.select (IntOp.ori (if P then 1#1 else 0#1) (if Q then 1#1 else 0#1)) z y = if P ∨ Q then z else y := by
  by_cases hP : P <;> by_cases hQ : Q <;> simp [hP, hQ, IntOp.ori, Scalar.select]

/-- A received plane with the rows and columns that lie on the whole array's rim put to zero: the row (column)
    masked is the last one, 63, for a device in the upper half along that axis, the first one for a device in the lower. -/
theorem pay21_apply (j k : Nat) (hj : j < 2) (hk : k < 2) (y : Vec Ideal S64x64 .bf16) (a b : Fin 64) :
    k0_pay21 (F := Ideal) (BitVec.ofNat 32 j) (BitVec.ofNat 32 k) y (ix2 a b)
      = if a.val = 63 * j ∨ b.val = 63 * k then 0 else y (ix2 a b) := by
  unfold k0_pay21
  rw [select_apply]
  show Scalar.select (IntOp.ori (IntOp.cmpi .eq (iota .tc S64x64 32 [0] iota_S64x64_d0_w32 (ix2 a b)) (Scalar.muli (BitVec.ofNat 32 j) 63#32))
      (IntOp.cmpi .eq (iota .tc S64x64 32 [1] iota_S64x64_d1_w32 (ix2 a b)) (Scalar.muli (BitVec.ofNat 32 k) 63#32)))
      (Ideal.ofBits .bf16 0x0000#16) (y (ix2 a b)) = _
  rw [iota_single_apply, iota_single_apply, Ideal.ofBits_zero_bf16]
  show Scalar.select (IntOp.ori (IntOp.cmpi .eq (BitVec.ofNat 32 a.val) _) (IntOp.cmpi .eq (BitVec.ofNat 32 b.val) _)) 0 (y (ix2 a b)) = _
  rw [rim_bit a j hj, rim_bit b k hk, rim_select]
theorem pay22_apply (j k : Nat) (hj : j < 2) (hk : k < 2) (y : Vec Ideal S64x64 .bf16) (a b : Fin 64) :
    k0_pay22 (F := Ideal) (BitVec.ofNat 32 j) (BitVec.ofNat 32 k) y (ix2 a b)
      = if a.val = 63 * j ∨ b.val = 63 * k then 0 else y (ix2 a b) := by
  unfold k0_pay22
  rw [select_apply]
  show Scalar.select (IntOp.ori (IntOp.cmpi .eq (iota .tc S64x64 32 [0] iota_S64x64_d0_w32 (ix2 a b)) (Scalar.muli (BitVec.ofNat 32 j) 63#32))
      (IntOp.cmpi .eq (iota .tc S64x64 32 [1] iota_S64x64_d1_w32 (ix2 a b)) (Scalar.muli (BitVec.ofNat 32 k) 63#32)))
      (Ideal.ofBits .bf16 0x0000#16) (y (ix2 a b)) = _
  rw [iota_single_apply, iota_single_apply, Ideal.ofBits_zero_bf16]
  show Scalar.select (IntOp.ori (IntOp.cmpi .eq (BitVec.ofNat 32 a.val) _) (IntOp.cmpi .eq (BitVec.ofNat 32 b.val) _)) 0 (y (ix2 a b)) = _
  rw [rim_bit a j hj, rim_bit b k hk, rim_select]
theorem pay23_apply (j k : Nat) (hj : j < 2) (hk : k < 2) (y : Vec Ideal S64x64 .bf16) (a b : Fin 64) :
    k0_pay23 (F := Ideal) (BitVec.ofNat 32 j) (BitVec.ofNat 32 k) y (ix2 a b)
      = if a.val = 63 * j ∨ b.val = 63 * k then 0 else y (ix2 a b) := by
  unfold k0_pay23
  rw [select_apply]
  show Scalar.select (IntOp.ori (IntOp.cmpi .eq (iota .tc S64x64 32 [0] iota_S64x64_d0_w32 (ix2 a b)) (Scalar.muli (BitVec.ofNat 32 j) 63#32))
      (IntOp.cmpi .eq (iota .tc S64x64 32 [1] iota_S64x64_d1_w32 (ix2 a b)) (Scalar.muli (BitVec.ofNat 32 k) 63#32)))
      (Ideal.ofBits .bf16 0x0000#16) (y (ix2 a b)) = _
  rw [iota_single_apply, iota_single_apply, Ideal.ofBits_zero_bf16]
  show Scalar.select (IntOp.ori (IntOp.cmpi .eq (BitVec.ofNat 32 a.val) _) (IntOp.cmpi .eq (BitVec.ofNat 32 b.val) _)) 0 (y (ix2 a b)) = _
  rw [rim_bit a j hj, rim_bit b k hk, rim_select]

/-- The zero plane. -/
theorem pay24_apply (i : S64x64.Idx) : k0_pay24 (F := Ideal) i = (0 : EReal) := by
  unfold k0_pay24
  exact Ideal.ofBits_zero_bf16

/-- The face updates: a face plane of the accumulator plus a masked received plane, and the zero plane laid as a face. -/
theorem pay1_apply (m : FVec Ideal S64x64 .bf16) (l : Vec Ideal S1x64x64 .bf16) (q r : Fin 64) :
    k0_pay1 (F := Ideal) m l (ix3 0 q r) = l (ix3 0 q r) + m (ix2 q r) := by
  unfold k0_pay1
  rw [shapeCast_self, addf_apply, cast_plane_face0]
theorem pay2_apply (z : FVec Ideal S64x64 .bf16) (q r : Fin 64) : k0_pay2 (F := Ideal) z (ix3 0 q r) = z (ix2 q r) := by
  unfold k0_pay2
  rw [shapeCast_self, cast_plane_face0]
theorem pay3_apply (m : FVec Ideal S64x64 .bf16) (l : Vec Ideal S64x1x64 .bf16) (p r : Fin 64) :
    k0_pay3 (F := Ideal) m l (ix3 p 0 r) = l (ix3 p 0 r) + m (ix2 p r) := by
  unfold k0_pay3
  rw [cast_plane_face1, addf_apply, cast_face1_plane]
theorem pay4_apply (z : FVec Ideal S64x64 .bf16) (p r : Fin 64) : k0_pay4 (F := Ideal) z (ix3 p 0 r) = z (ix2 p r) := by
  unfold k0_pay4
  rw [cast_plane_face1]
theorem pay5_apply (m : FVec Ideal S64x64 .bf16) (l : Vec Ideal S64x1x64 .bf16) (p r : Fin 64) :
    k0_pay5 (F := Ideal) m l (ix3 p 0 r) = l (ix3 p 0 r) + m (ix2 p r) := by
  unfold k0_pay5
  rw [cast_plane_face1, addf_apply, cast_face1_plane]
theorem pay6_apply (z : FVec Ideal S64x64 .bf16) (p r : Fin 64) : k0_pay6 (F := Ideal) z (ix3 p 0 r) = z (ix2 p r) := by
  unfold k0_pay6
  rw [cast_plane_face1]
theorem pay7_apply (m : FVec Ideal S64x64 .bf16) (l : Vec Ideal S64x64x1 .bf16) (p q : Fin 64) :
    k0_pay7 (F := Ideal) m l (ix3 p q 0) = l (ix3 p q 0) + m (ix2 p q) := by
  unfold k0_pay7
  rw [cast_plane_face2, addf_apply, cast_face2_plane]
theorem pay8_apply (z : FVec Ideal S64x64 .bf16) (p q : Fin 64) : k0_pay8 (F := Ideal) z (ix3 p q 0) = z (ix2 p q) := by
  unfold k0_pay8
  rw [cast_plane_face2]
theorem pay9_apply (m : FVec Ideal S64x64 .bf16) (l : Vec Ideal S64x64x1 .bf16) (p q : Fin 64) :
    k0_pay9 (F := Ideal) m l (ix3 p q 0) = l (ix3 p q 0) + m (ix2 p q) := by
  unfold k0_pay9
  rw [cast_plane_face2, addf_apply, cast_face2_plane]
theorem pay10_apply (z : FVec Ideal S64x64 .bf16) (p q : Fin 64) : k0_pay10 (F := Ideal) z (ix3 p q 0) = z (ix2 p q) := by
  unfold k0_pay10
  rw [cast_plane_face2]

end Cert.Halo.Pay

end
-- ==== Proof.WriteAt.lean ====
/-
  The accumulator — the whole 64 × 64 × 64 scratch buffer — read at an index after a store through one of its faces,
  and a face of it read by a load: a store through a rectangle leaves the payload at the indices the rectangle
  covers, each at the rectangle's own coordinate of it, and the old contents everywhere else; a load through a
  rectangle reads the contents at the rectangle's offset plus the coordinate.
-/
import proofs.«900807_g7700000000000808_dist_halo3d_v7x_xyz2x2x2_s64_bf16_1_alg».proof.Proof.Gen.KernelIdeal
import Idealize.ShloMosaic.Lib.Writes
import Idealize.ShloMosaic.Lib.Pipeline.Value
import Idealize.ShloMosaic.Lib.ValueIdx

noncomputable section

namespace Cert.Halo.WriteAt

open Idealize.ShloMosaic Idealize.ShloMosaic.ValueIdx
open Cert.KernelIdeal Cert.KernelIdeal.Gen

variable {Val : EltTy → Type}

/-- The accumulator's view: the whole scratch buffer. -/
abbrev acc : View sig .tc .vmem S64x64x64 .bf16 := (Memref.whole cc0_scratch0 : Memref sig .tc .vmem S64x64x64 .bf16).view

/-- Reading through the whole buffer's view is reading the contents. -/
theorem read_acc (g : S64x64x64.Idx → Val .bf16) (i : S64x64x64.Idx) : acc.read Val g i = g i := rfl

/-! ### A face along the first axis: the plane `p = k` -/

/-- A store of a plane through the face at `k` along the first axis: the plane's entry on that face, the old contents elsewhere. -/
theorem write_x (k : Nat) (hk : k < 64) (inb : ∀ a, (![k, 0, 0] : Fin 3 → Nat) a + S1x64x64.size a ≤ S64x64x64.size a)
    (f : S64x64x64.Idx → Val .bf16) (w : S1x64x64.Idx → Val .bf16) (p q r : Fin 64) :
    (acc.slice (Rect.unit (s := S64x64x64) ![k, 0, 0] S1x64x64.size inb)).write Val f w Finset.univ (ix3 p q r)
      = if p.val = k then w (ix3 0 q r) else f (ix3 p q r) := by
  show acc.read Val ((acc.slice (Rect.unit (s := S64x64x64) ![k, 0, 0] S1x64x64.size inb)).write Val f w Finset.univ) (ix3 p q r) = _
  by_cases h : p.val = k
  · have he : ix3 p q r = (Rect.unit (s := S64x64x64) ![k, 0, 0] S1x64x64.size inb).emb (ix3 0 q r) :=
      funext fun a => Fin.ext (match a with
        | ⟨0, _⟩ => by show p.val = k + 1 * 0; omega
        | ⟨1, _⟩ => by show q.val = 0 + 1 * q.val; omega
        | ⟨2, _⟩ => by show r.val = 0 + 1 * r.val; omega)
    rw [if_pos h, he, View.read_slice_write_emb _ _ _ (Finset.mem_univ _)]
  · have hm : ix3 p q r ∉ Finset.univ.map (Rect.unit (s := S64x64x64) ![k, 0, 0] S1x64x64.size inb).emb := by
      rw [Rect.map_emb_univ, Rect.mem_set_unit]
      intro H
      have h1 : k ≤ p.val := (H 0).1
      have h2 : p.val < k + 1 := (H 0).2
      omega
    rw [if_neg h, View.read_slice_write_of_not_mem _ _ _ _ hm]
    rfl

/-- A load of the face at `k` along the first axis reads the contents on that plane. -/
theorem read_x (k : Nat) (hk : k < 64) (inb : ∀ a, (![k, 0, 0] : Fin 3 → Nat) a + S1x64x64.size a ≤ S64x64x64.size a)
    (f : S64x64x64.Idx → Val .bf16) (q r : Fin 64) :
    acc.readAt Val (Rect.unit (s := S64x64x64) ![k, 0, 0] S1x64x64.size inb).toLoadRect f (ix3 0 q r) = f (ix3 ⟨k, hk⟩ q r) := by
  rw [View.readAt_apply]
  show f _ = f _
  exact congrArg f (funext fun a => Fin.ext (match a with
    | ⟨0, _⟩ => by show k + 1 * 0 = k; omega
    | ⟨1, _⟩ => by show 0 + 1 * q.val = q.val; omega
    | ⟨2, _⟩ => by show 0 + 1 * r.val = r.val; omega))

/-! ### The whole rectangle -/

/-- The offsets of the whole rectangle, all zero. -/
theorem off_zero : (![0, 0, 0] : Fin 3 → Nat) = fun _ => 0 :=
  funext fun a => match a with | ⟨0, _⟩ => rfl | ⟨1, _⟩ => rfl | ⟨2, _⟩ => rfl

/-- A store through the whole rectangle leaves the payload. -/
theorem write_whole (inb : ∀ a, (![0, 0, 0] : Fin 3 → Nat) a + S64x64x64.size a ≤ S64x64x64.size a)
    (f w : S64x64x64.Idx → Val .bf16) :
    (acc.slice (Rect.unit (s := S64x64x64) ![0, 0, 0] S64x64x64.size inb)).write Val f w Finset.univ = w :=
  Memref.write_access_unit_zero_univ Val cc0_scratch0 off_zero inb f w

/-- A load through the whole rectangle reads the contents. -/
theorem read_whole (inb : ∀ a, (![0, 0, 0] : Fin 3 → Nat) a + S64x64x64.size a ≤ S64x64x64.size a)
    (f : S64x64x64.Idx → Val .bf16) :
    acc.readAt Val (Rect.unit (s := S64x64x64) ![0, 0, 0] S64x64x64.size inb).toLoadRect f = f :=
  Memref.readAt_unit_zero Val cc0_scratch0 off_zero inb f

/-! ### A face along the third axis: the plane `r = k` -/

/-- A store of a plane through the face at `k` along the third axis: the plane's entry on that face, the old contents elsewhere. -/
theorem write_z (k : Nat) (hk : k < 64) (inb : ∀ a, (![0, 0, k] : Fin 3 → Nat) a + S64x64x1.size a ≤ S64x64x64.size a)
    (f : S64x64x64.Idx → Val .bf16) (w : S64x64x1.Idx → Val .bf16) (p q r : Fin 64) :
    (acc.slice (Rect.unit (s := S64x64x64) ![0, 0, k] S64x64x1.size inb)).write Val f w Finset.univ (ix3 p q r)
      = if r.val = k then w (ix3 p q 0) else f (ix3 p q r) := by
  show acc.read Val ((acc.slice (Rect.unit (s := S64x64x64) ![0, 0, k] S64x64x1.size inb)).write Val f w Finset.univ) (ix3 p q r) = _
  by_cases h : r.val = k
  · have he : ix3 p q r = (Rect.unit (s := S64x64x64) ![0, 0, k] S64x64x1.size inb).emb (ix3 p q 0) :=
      funext fun a => Fin.ext (match a with
        | ⟨0, _⟩ => by show p.val = 0 + 1 * p.val; omega
        | ⟨1, _⟩ => by show q.val = 0 + 1 * q.val; omega
        | ⟨2, _⟩ => by show r.val = k + 1 * 0; omega)
    rw [if_pos h, he, View.read_slice_write_emb _ _ _ (Finset.mem_univ _)]
  · have hm : ix3 p q r ∉ Finset.univ.map (Rect.unit (s := S64x64x64) ![0, 0, k] S64x64x1.size inb).emb := by
      rw [Rect.map_emb_univ, Rect.mem_set_unit]
      intro H
      have h1 : k ≤ r.val := (H 2).1
      have h2 : r.val < k + 1 := (H 2).2
      omega
    rw [if_neg h, View.read_slice_write_of_not_mem _ _ _ _ hm]
    rfl

/-- A load of the face at `k` along the third axis reads the contents on that plane. -/
theorem read_z (k : Nat) (hk : k < 64) (inb : ∀ a, (![0, 0, k] : Fin 3 → Nat) a + S64x64x1.size a ≤ S64x64x64.size a)
    (f : S64x64x64.Idx → Val .bf16) (p q : Fin 64) :
    acc.readAt Val (Rect.unit (s := S64x64x64) ![0, 0, k] S64x64x1.size inb).toLoadRect f (ix3 p q 0) = f (ix3 p q ⟨k, hk⟩) := by
  rw [View.readAt_apply]
  show f _ = f _
  exact congrArg f (funext fun a => Fin.ext (match a with
    | ⟨0, _⟩ => by show 0 + 1 * p.val = p.val; omega
    | ⟨1, _⟩ => by show 0 + 1 * q.val = q.val; omega
    | ⟨2, _⟩ => by show k + 1 * 0 = k; omega))

/-! ### A face along the second axis: the plane `q = k`, read alone and stored inside the two rows that hold it -/

/-- A load of the face at `k` along the second axis reads the contents on that plane. -/
theorem read_y (k : Nat) (hk : k < 64) (inb : ∀ a, (![0, k, 0] : Fin 3 → Nat) a + S64x1x64.size a ≤ S64x64x64.size a)
    (f : S64x64x64.Idx → Val .bf16) (p r : Fin 64) :
    acc.readAt Val (Rect.unit (s := S64x64x64) ![0, k, 0] S64x1x64.size inb).toLoadRect f (ix3 p 0 r) = f (ix3 p ⟨k, hk⟩ r) := by
  rw [View.readAt_apply]
  show f _ = f _
  exact congrArg f (funext fun a => Fin.ext (match a with
    | ⟨0, _⟩ => by show 0 + 1 * p.val = p.val; omega
    | ⟨1, _⟩ => by show k + 1 * 0 = k; omega
    | ⟨2, _⟩ => by show 0 + 1 * r.val = r.val; omega))

/-- A load of the two planes from `j` along the second axis reads the contents on the plane `j + c`. -/
theorem read_y2 (j : Nat) (hj : j + 2 ≤ 64) (inb : ∀ a, (![0, j, 0] : Fin 3 → Nat) a + S64x2x64.size a ≤ S64x64x64.size a)
    (f : S64x64x64.Idx → Val .bf16) (p : Fin 64) (c : Fin 2) (r : Fin 64) :
    acc.readAt Val (Rect.unit (s := S64x64x64) ![0, j, 0] S64x2x64.size inb).toLoadRect f (ix3 p c r)
      = f (ix3 p ⟨j + c.val, by have := c.isLt; omega⟩ r) := by
  rw [View.readAt_apply]
  show f _ = f _
  exact congrArg f (funext fun a => Fin.ext (match a with
    | ⟨0, _⟩ => by show 0 + 1 * p.val = p.val; omega
    | ⟨1, _⟩ => by show j + 1 * c.val = j + c.val; omega
    | ⟨2, _⟩ => by show 0 + 1 * r.val = r.val; omega))

/-- A store of two planes from `j` along the second axis: on those two planes the payload's entry, the old contents elsewhere. -/
theorem write_y2 (j : Nat) (hj : j + 2 ≤ 64) (inb : ∀ a, (![0, j, 0] : Fin 3 → Nat) a + S64x2x64.size a ≤ S64x64x64.size a)
    (f : S64x64x64.Idx → Val .bf16) (w : S64x2x64.Idx → Val .bf16) (p q r : Fin 64) :
    (acc.slice (Rect.unit (s := S64x64x64) ![0, j, 0] S64x2x64.size inb)).write Val f w Finset.univ (ix3 p q r)
      = if h : j ≤ q.val ∧ q.val < j + 2 then w (ix3 p ⟨q.val - j, by omega⟩ r) else f (ix3 p q r) := by
  show acc.read Val ((acc.slice (Rect.unit (s := S64x64x64) ![0, j, 0] S64x2x64.size inb)).write Val f w Finset.univ) (ix3 p q r) = _
  by_cases h : j ≤ q.val ∧ q.val < j + 2
  · have he : ix3 p q r = (Rect.unit (s := S64x64x64) ![0, j, 0] S64x2x64.size inb).emb (ix3 p (⟨q.val - j, by omega⟩ : Fin 2) r) :=
      funext fun a => Fin.ext (match a with
        | ⟨0, _⟩ => by show p.val = 0 + 1 * p.val; omega
        | ⟨1, _⟩ => by show q.val = j + 1 * (q.val - j); omega
        | ⟨2, _⟩ => by show r.val = 0 + 1 * r.val; omega)
    rw [dif_pos h, he, View.read_slice_write_emb _ _ _ (Finset.mem_univ _)]
  · have hm : ix3 p q r ∉ Finset.univ.map (Rect.unit (s := S64x64x64) ![0, j, 0] S64x2x64.size inb).emb := by
      rw [Rect.map_emb_univ, Rect.mem_set_unit]
      intro H
      have h1 : j ≤ q.val := (H 1).1
      have h2 : q.val < j + 2 := (H 1).2
      exact h ⟨h1, h2⟩
    rw [dif_neg h, View.read_slice_write_of_not_mem _ _ _ _ hm]
    rfl

/-- Two loaded planes with the plane `t` of them replaced: the new plane at `t`, the loaded one at the other. -/
theorem updateSlice_y {α : Type} (old : S64x2x64.Idx → α) (w : S64x1x64.Idx → α) (t : Nat) (ht : t < 2)
    (h : S64x2x64.Slices ![0, t, 0] S64x1x64) (p : Fin 64) (c : Fin 2) (r : Fin 64) :
    updateSlice old w ![0, t, 0] h (ix3 p c r) = if c.val = t then w (ix3 p 0 r) else old (ix3 p c r) := by
  have hp := p.isLt
  have hr := r.isLt
  by_cases hc : c.val = t
  · rw [if_pos hc]
    unfold updateSlice
    split
    · exact congrArg w (funext fun b => Fin.ext (match b with
        | ⟨0, _⟩ => by show p.val - 0 = p.val; omega
        | ⟨1, _⟩ => by show c.val - t = 0; omega
        | ⟨2, _⟩ => by show r.val - 0 = r.val; omega))
    · next hin =>
      exact absurd (fun a => match a with
        | ⟨0, _⟩ => ⟨by show 0 ≤ p.val; omega, by show p.val < 0 + 64; omega⟩
        | ⟨1, _⟩ => ⟨by show t ≤ c.val; omega, by show c.val < t + 1; omega⟩
        | ⟨2, _⟩ => ⟨by show 0 ≤ r.val; omega, by show r.val < 0 + 64; omega⟩) hin
  · rw [if_neg hc]
    unfold updateSlice
    split
    · next hin =>
      have h1 : t ≤ c.val := (hin 1).1
      have h2 : c.val < t + 1 := (hin 1).2
      omega
    · rfl

/-- The two planes from `j` loaded, the plane `t` of them replaced by `w`, and the two stored back: the plane `j + t`
    holds `w`, every other entry its old contents. -/
theorem store_y (j t : Nat) (hj : j + 2 ≤ 64) (ht : t < 2)
    (inb : ∀ a, (![0, j, 0] : Fin 3 → Nat) a + S64x2x64.size a ≤ S64x64x64.size a)
    (h : S64x2x64.Slices ![0, t, 0] S64x1x64)
    (f : S64x64x64.Idx → Val .bf16) (w : S64x1x64.Idx → Val .bf16) (p q r : Fin 64) :
    (acc.slice (Rect.unit (s := S64x64x64) ![0, j, 0] S64x2x64.size inb)).write Val f
        (updateSlice (acc.readAt Val (Rect.unit (s := S64x64x64) ![0, j, 0] S64x2x64.size inb).toLoadRect f) w ![0, t, 0] h)
        Finset.univ (ix3 p q r)
      = if q.val = j + t then w (ix3 p 0 r) else f (ix3 p q r) := by
  rw [write_y2 j hj inb]
  by_cases hin : j ≤ q.val ∧ q.val < j + 2
  · rw [dif_pos hin, updateSlice_y _ _ t ht h]
    by_cases hq : q.val = j + t
    · rw [if_pos hq, if_pos (show ((⟨q.val - j, by omega⟩ : Fin 2) : Nat) = t by show q.val - j = t; omega)]
    · rw [if_neg hq, if_neg (show ¬ ((⟨q.val - j, by omega⟩ : Fin 2) : Nat) = t by show ¬ q.val - j = t; omega),
        read_y2 j hj inb]
      exact congrArg f (funext fun a => Fin.ext (match a with
        | ⟨0, _⟩ => rfl
        | ⟨1, _⟩ => by show j + (q.val - j) = q.val; omega
        | ⟨2, _⟩ => rfl))
  · rw [dif_neg hin, if_neg (by omega)]

end Cert.Halo.WriteAt

end
-- ==== Proof.Stencil.lean ====
/-
  The halo exchange as mathematics over the extended reals: what one device of the 2 × 2 × 2 mesh leaves at a
  coordinate of its 64 × 64 × 64 block — its own neighbour sum less six times the centre, the three planes received
  across the cuts added into the faces that border them, the faces on the whole array's rim put to zero — is the
  seven-point stencil of the whole 128 × 128 × 128 array at the corresponding global coordinate. Sums are regrouped by
  commutativity and associativity alone, a difference read as a sum with the negative; nothing is assumed finite.
-/
import proofs.«900807_g7700000000000808_dist_halo3d_v7x_xyz2x2x2_s64_bf16_1_alg».proof.Proof.Spec
import Mathlib.Tactic.IntervalCases

noncomputable section

namespace Cert.Halo

open Idealize.ShloMosaic Idealize.ShloMosaic.ValueIdx

/-- What a device at mesh coordinates (cx, cy, cz) (each 0 or 1) leaves at block coordinates (p, q, r) of its block: the block's own neighbour sum less six times the centre; then, axis by axis in the order x, y, z: the plane received from the neighbour across the cut (rx over (q, r), ry over (p, r), rz over (p, q)), put to zero on the rows and columns that lie on the whole array's rim, is added into the face that borders that neighbour (coordinate 63 * (1 - cx) along the axis), and the face on the whole array's rim (coordinate 63 * cx) is put to zero. -/
def kfinal (cx cy cz : Nat) (x : SB.Idx → EReal) (rx ry rz : Nat → Nat → EReal) (p q r : Nat) : EReal :=
  let v0 := ownSum x p q r - 6 * bat3 x p q r
  let v1 := if p = 63 * (1 - cx) then v0 + (if q = 63 * cy ∨ r = 63 * cz then 0 else rx q r) else v0
  let v2 := if p = 63 * cx then 0 else v1
  let v3 := if q = 63 * (1 - cy) then v2 + (if p = 63 * cx ∨ r = 63 * cz then 0 else ry p r) else v2
  let v4 := if q = 63 * cy then 0 else v3
  let v5 := if r = 63 * (1 - cz) then v4 + (if p = 63 * cx ∨ q = 63 * cy then 0 else rz p q) else v4
  if r = 63 * cz then 0 else v5
/-- The block of the whole array `u` at block coordinates (cx, cy, cz). -/
def blk (u : SW.Idx → EReal) (cx cy cz : Nat) : SB.Idx → EReal := fun i => at3 u (64 * cx + (i 0).val) (64 * cy + (i 1).val) (64 * cz + (i 2).val)

/-! ### A block's entries are the array's -/

/-- An entry of a block inside the block is the array's entry at the global coordinates. -/
theorem bat3_blk (u : SW.Idx → EReal) (cx cy cz : Nat) {a b c : Nat} (ha : a < 64) (hb : b < 64) (hc : c < 64) :
    bat3 (blk u cx cy cz) a b c = at3 u (64 * cx + a) (64 * cy + b) (64 * cz + c) := by
  rw [bat3_of_lt _ ha hb hc]; rfl

/-- Past a block's last plane along the first axis its entry reads zero. -/
theorem bat3_ge0 (v : SB.Idx → EReal) {a : Nat} (b c : Nat) (ha : 64 ≤ a) : bat3 v a b c = 0 := by
  unfold bat3; rw [dif_neg (fun h => absurd h.1 (by omega))]
/-- Past a block's last plane along the second axis its entry reads zero. -/
theorem bat3_ge1 (v : SB.Idx → EReal) (a : Nat) {b : Nat} (c : Nat) (hb : 64 ≤ b) : bat3 v a b c = 0 := by
  unfold bat3; rw [dif_neg (fun h => absurd h.2.1 (by omega))]
/-- Past a block's last plane along the third axis its entry reads zero. -/
theorem bat3_ge2 (v : SB.Idx → EReal) (a b : Nat) {c : Nat} (hc : 64 ≤ c) : bat3 v a b c = 0 := by
  unfold bat3; rw [dif_neg (fun h => absurd h.2.2 (by omega))]

/-- A global coordinate `64 * c + t` of the half `c` is off the rim exactly when `t` is not that half's rim face. -/
theorem inner_iff (c t : Nat) (hc : c < 2) (ht : t < 64) : inner (64 * c + t) ↔ t ≠ 63 * c := by
  unfold inner; interval_cases c <;> omega

/-! ### One axis: the two neighbours inside the block and the one received across the cut -/

/-- Along one axis cut in two halves of 64: `f` the array along the axis, `g` the half `c`'s view of it (zero past
    its end). Off the rim, the neighbour below and the neighbour above inside the half, plus — at the face on the cut —
    the entry received from the other half (its first entry, 64, for the lower half; its last, 63, for the upper), are the
    array's two neighbours. -/
theorem pair_axis (f g : Nat → EReal) (c t : Nat) (hc : c < 2) (ht : t < 64)
    (hg : ∀ a, a < 64 → g a = f (64 * c + a)) (hg0 : ∀ a, 64 ≤ a → g a = 0) (h : t ≠ 63 * c) :
    (below t g + g (t + 1)) + (if t = 63 * (1 - c) then f (if c = 0 then 64 else 63) else 0)
      = f (64 * c + t - 1) + f (64 * c + t + 1) := by
  unfold below
  interval_cases c
  · -- the lower half: the coordinate is not 0; at 63 the neighbour above comes across the cut
    have h0 : 0 < t := by omega
    rw [if_pos h0, hg (t - 1) (by omega)]
    by_cases h63 : t = 63
    · subst h63
      rw [hg0 64 (by omega), if_pos (by norm_num), if_pos rfl, add_zero]
    · rw [hg (t + 1) (by omega), if_neg (by omega), add_zero]
      rw [show 64 * 0 + (t - 1) = 64 * 0 + t - 1 by omega, show 64 * 0 + (t + 1) = 64 * 0 + t + 1 by omega]
  · -- the upper half: the coordinate is not 63; at 0 the neighbour below comes across the cut
    rw [hg (t + 1) (by omega)]
    by_cases h0 : t = 0
    · subst h0
      rw [if_neg (by omega), if_pos (by norm_num), if_neg (by omega), zero_add, add_comm]
    · rw [if_pos (by omega), hg (t - 1) (by omega), if_neg (by omega), add_zero]
      rw [show 64 * 1 + (t - 1) = 64 * 1 + t - 1 by omega, show 64 * 1 + (t + 1) = 64 * 1 + t + 1 by omega]

/-! ### The device's result: zero on the rim, the sum with the received planes off it -/

/-- Adding into one branch only is adding a term that is zero in the other. -/
theorem ite_add_self (c : Prop) [Decidable c] (v a : EReal) : (if c then v + a else v) = v + (if c then a else 0) := by
  by_cases h : c
  · rw [if_pos h, if_pos h]
  · rw [if_neg h, if_neg h, add_zero]

/-- On a rim face the device leaves zero. -/
theorem kfinal_rim (cx cy cz : Nat) (x : SB.Idx → EReal) (rx ry rz : Nat → Nat → EReal) (p q r : Nat)
    (h : p = 63 * cx ∨ q = 63 * cy ∨ r = 63 * cz) : kfinal cx cy cz x rx ry rz p q r = 0 := by
  rcases h with h | h | h <;> simp [kfinal, h]

/-- Off the rim no mask bites: the device leaves its own sum less six times the centre, plus each received plane at
    the face on its cut. -/
theorem kfinal_inner (cx cy cz : Nat) (x : SB.Idx → EReal) (rx ry rz : Nat → Nat → EReal) (p q r : Nat)
    (hp : p ≠ 63 * cx) (hq : q ≠ 63 * cy) (hr : r ≠ 63 * cz) :
    kfinal cx cy cz x rx ry rz p q r
      = (((ownSum x p q r - 6 * bat3 x p q r) + (if p = 63 * (1 - cx) then rx q r else 0))
          + (if q = 63 * (1 - cy) then ry p r else 0)) + (if r = 63 * (1 - cz) then rz p q else 0) := by
  unfold kfinal
  simp only [hp, hq, hr, or_self, ↓reduceIte, ite_add_self]

/-! ### Regrouping: each axis's pair with its received plane, the centre term last -/

theorem regroup_kernel (xp yp zp k rx ry rz : EReal) :
    (((((xp + yp) + zp) - k) + rx) + ry) + rz = ((xp + rx) + (yp + ry) + (zp + rz)) - k := by
  simp only [sub_eq_add_neg]; ac_rfl

theorem regroup_reference (a b c d e f k : EReal) :
    ((a + b) + (c + d) + (e + f)) - k = a + b + c + d + e + f - k := by
  simp only [sub_eq_add_neg]; ac_rfl

/-! ### The device's result is the stencil of the whole array -/

theorem kfinal_eq_lap (u : SW.Idx → EReal) (cx cy cz : Nat) (hx : cx < 2) (hy : cy < 2) (hz : cz < 2) (p q r : Nat) (hp : p < 64) (hq : q < 64) (hr : r < 64) :
    kfinal cx cy cz (blk u cx cy cz)
      (fun b c => at3 u (if cx = 0 then 64 else 63) (64 * cy + b) (64 * cz + c))
      (fun a c => at3 u (64 * cx + a) (if cy = 0 then 64 else 63) (64 * cz + c))
      (fun a b => at3 u (64 * cx + a) (64 * cy + b) (if cz = 0 then 64 else 63)) p q r
    = lapAt u (64 * cx + p) (64 * cy + q) (64 * cz + r) := by
  by_cases hrim : p = 63 * cx ∨ q = 63 * cy ∨ r = 63 * cz
  · -- a rim face: zero on both sides
    rw [kfinal_rim _ _ _ _ _ _ _ _ _ _ hrim]
    unfold lapAt
    rw [if_neg]
    rw [inner_iff cx p hx hp, inner_iff cy q hy hq, inner_iff cz r hz hr]
    tauto
  · -- off the rim
    have h1 : p ≠ 63 * cx := fun h => hrim (Or.inl h)
    have h2 : q ≠ 63 * cy := fun h => hrim (Or.inr (Or.inl h))
    have h3 : r ≠ 63 * cz := fun h => hrim (Or.inr (Or.inr h))
    have hX : (below p (fun a => bat3 (blk u cx cy cz) a q r) + bat3 (blk u cx cy cz) (p + 1) q r)
        + (if p = 63 * (1 - cx) then at3 u (if cx = 0 then 64 else 63) (64 * cy + q) (64 * cz + r) else 0)
        = at3 u (64 * cx + p - 1) (64 * cy + q) (64 * cz + r) + at3 u (64 * cx + p + 1) (64 * cy + q) (64 * cz + r) :=
      pair_axis (fun a => at3 u a (64 * cy + q) (64 * cz + r)) (fun a => bat3 (blk u cx cy cz) a q r) cx p hx hp
        (fun a ha => bat3_blk u cx cy cz ha hq hr) (fun a ha => bat3_ge0 _ q r ha) h1
    have hY : (below q (fun b => bat3 (blk u cx cy cz) p b r) + bat3 (blk u cx cy cz) p (q + 1) r)
        + (if q = 63 * (1 - cy) then at3 u (64 * cx + p) (if cy = 0 then 64 else 63) (64 * cz + r) else 0)
        = at3 u (64 * cx + p) (64 * cy + q - 1) (64 * cz + r) + at3 u (64 * cx + p) (64 * cy + q + 1) (64 * cz + r) :=
      pair_axis (fun b => at3 u (64 * cx + p) b (64 * cz + r)) (fun b => bat3 (blk u cx cy cz) p b r) cy q hy hq
        (fun b hb => bat3_blk u cx cy cz hp hb hr) (fun b hb => bat3_ge1 _ p r hb) h2
    have hZ : (below r (fun c => bat3 (blk u cx cy cz) p q c) + bat3 (blk u cx cy cz) p q (r + 1))
        + (if r = 63 * (1 - cz) then at3 u (64 * cx + p) (64 * cy + q) (if cz = 0 then 64 else 63) else 0)
        = at3 u (64 * cx + p) (64 * cy + q) (64 * cz + r - 1) + at3 u (64 * cx + p) (64 * cy + q) (64 * cz + r + 1) :=
      pair_axis (fun c => at3 u (64 * cx + p) (64 * cy + q) c) (fun c => bat3 (blk u cx cy cz) p q c) cz r hz hr
        (fun c hc => bat3_blk u cx cy cz hp hq hc) (fun c hc => bat3_ge2 _ p q hc) h3
    rw [kfinal_inner _ _ _ _ _ _ _ _ _ _ h1 h2 h3]
    unfold ownSum lapAt
    rw [if_pos (show inner (64 * cx + p) ∧ inner (64 * cy + q) ∧ inner (64 * cz + r) from
      ⟨(inner_iff cx p hx hp).mpr h1, (inner_iff cy q hy hq).mpr h2, (inner_iff cz r hz hr).mpr h3⟩)]
    rw [bat3_blk u cx cy cz hp hq hr, regroup_kernel, hX, hY, hZ, regroup_reference]

/-- info: 'Cert.Halo.kfinal_eq_lap' depends on axioms: [propext, Classical.choice, Quot.sound] -/
#guard_msgs in #print axioms kfinal_eq_lap

end Cert.Halo

end
-- ==== Proof.LayoutBridge.lean ====
/-
  A device's block of the whole array, as the layout of the 2 × 2 × 2 mesh names it — the block at the device's
  three mesh coordinates, the devices numbered row-major —, is the block of 64 × 64 × 64 entries that starts at 64
  times those coordinates; and the stencil of the whole array read through that layout is the stencil at the global
  coordinates.
-/
import proofs.«900807_g7700000000000808_dist_halo3d_v7x_xyz2x2x2_s64_bf16_1_alg».proof.Proof.Stencil
import Idealize.ShloMosaic.Lib.Layout

noncomputable section

namespace Cert.Halo

open Idealize.ShloMosaic Idealize.ShloMosaic.ValueIdx

/-! ### The device's block coordinates: its number's three binary digits, the first axis the most significant -/

theorem mesh_coord0 : ∀ c : Fin 8, ((Layout.meshBlock [2, 2, 2] ![[0], [1], [2]] c) 0).val = c.val / 4 := by decide
theorem mesh_coord1 : ∀ c : Fin 8, ((Layout.meshBlock [2, 2, 2] ![[0], [1], [2]] c) 1).val = c.val / 2 % 2 := by decide
theorem mesh_coord2 : ∀ c : Fin 8, ((Layout.meshBlock [2, 2, 2] ![[0], [1], [2]] c) 2).val = c.val % 2 := by decide

/-! ### Where an index of the device's block lies in the whole array, axis by axis -/

theorem idx_coord0 (h : Layout.TilesN ⟨3, ![64, 64, 64]⟩ ⟨3, ![128, 128, 128]⟩ (fun b => Layout.cutSize [2, 2, 2] (![[0], [1], [2]] b)))
    (c : Fin 8) (i : SB.Idx) :
    (h.idx (Layout.meshBlock [2, 2, 2] ![[0], [1], [2]] c) i 0).val = 64 * (c.val / 4) + (i 0).val := by
  show ((Layout.meshBlock [2, 2, 2] ![[0], [1], [2]] c) 0).val * 64 + (i 0).val = _
  rw [mesh_coord0]; omega
theorem idx_coord1 (h : Layout.TilesN ⟨3, ![64, 64, 64]⟩ ⟨3, ![128, 128, 128]⟩ (fun b => Layout.cutSize [2, 2, 2] (![[0], [1], [2]] b)))
    (c : Fin 8) (i : SB.Idx) :
    (h.idx (Layout.meshBlock [2, 2, 2] ![[0], [1], [2]] c) i 1).val = 64 * (c.val / 2 % 2) + (i 1).val := by
  show ((Layout.meshBlock [2, 2, 2] ![[0], [1], [2]] c) 1).val * 64 + (i 1).val = _
  rw [mesh_coord1]; omega
theorem idx_coord2 (h : Layout.TilesN ⟨3, ![64, 64, 64]⟩ ⟨3, ![128, 128, 128]⟩ (fun b => Layout.cutSize [2, 2, 2] (![[0], [1], [2]] b)))
    (c : Fin 8) (i : SB.Idx) :
    (h.idx (Layout.meshBlock [2, 2, 2] ![[0], [1], [2]] c) i 2).val = 64 * (c.val % 2) + (i 2).val := by
  show ((Layout.meshBlock [2, 2, 2] ![[0], [1], [2]] c) 2).val * 64 + (i 2).val = _
  rw [mesh_coord2]; omega

/-! ### The layout's block is the block at 64 times the mesh coordinates -/

/-- The block the layout gives device `c` is the block at mesh coordinates (c / 4, c / 2 % 2, c % 2). -/
theorem blockN_eq_blk (u : SW.Idx → EReal) (c : Fin 8) :
    Idealize.ShloMosaic.Layout.blockN ⟨3, ![64, 64, 64]⟩ ⟨3, ![128, 128, 128]⟩ (Idealize.ShloMosaic.Layout.meshBlock [2, 2, 2] ![[0], [1], [2]] c) u
      = blk u (c.val / 4) (c.val / 2 % 2) (c.val % 2) := by
  funext i
  rw [Layout.blockN_apply]
  unfold blk
  have hc := c.isLt
  have h0 : (i 0).val < 64 := (i 0).isLt
  have h1 : (i 1).val < 64 := (i 1).isLt
  have h2 : (i 2).val < 64 := (i 2).isLt
  rw [at3_of_lt u (show 64 * (c.val / 4) + (i 0).val < 128 by omega)
    (show 64 * (c.val / 2 % 2) + (i 1).val < 128 by omega) (show 64 * (c.val % 2) + (i 2).val < 128 by omega)]
  refine congrArg u (funext fun b => Fin.ext ?_)
  match b with
  | ⟨0, _⟩ => exact idx_coord0 _ c i
  | ⟨1, _⟩ => exact idx_coord1 _ c i
  | ⟨2, _⟩ => exact idx_coord2 _ c i

/-- The stencil of the whole array read through the layout is the stencil at the global coordinates. -/
theorem blockN_lap (u : SW.Idx → EReal) (c : Fin 8) (i : SB.Idx) :
    (Idealize.ShloMosaic.Layout.blockN ⟨3, ![64, 64, 64]⟩ ⟨3, ![128, 128, 128]⟩ (Idealize.ShloMosaic.Layout.meshBlock [2, 2, 2] ![[0], [1], [2]] c) (lap u)) i
      = lapAt u (64 * (c.val / 4) + (i 0).val) (64 * (c.val / 2 % 2) + (i 1).val) (64 * (c.val % 2) + (i 2).val) := by
  rw [Layout.blockN_apply, lap_apply, idx_coord0, idx_coord1, idx_coord2]

/-- info: 'Cert.Halo.blockN_lap' depends on axioms: [propext, Classical.choice, Quot.sound] -/
#guard_msgs in #print axioms blockN_lap

end Cert.Halo

end
-- ==== Proof.KVPrep.lean ====
/-
  The data at the two ends of the value proof: a device's staged block is its block of the whole array; the face plane
  it sends along an axis and the plane that lands from its neighbour, entry by entry, as entries of the whole array;
  and the device's mesh coordinates as the words the body computes, with the guards that test them.
-/
import proofs.«900807_g7700000000000808_dist_halo3d_v7x_xyz2x2x2_s64_bf16_1_alg».proof.Proof.BodyDefs
import proofs.«900807_g7700000000000808_dist_halo3d_v7x_xyz2x2x2_s64_bf16_1_alg».proof.Proof.PayIdeal
import proofs.«900807_g7700000000000808_dist_halo3d_v7x_xyz2x2x2_s64_bf16_1_alg».proof.Proof.LayoutBridge

noncomputable section

namespace Cert.Halo.KVPrep

open Cert.KernelIdeal Cert.KernelIdeal.Gen Cert.KernelIdeal.Halo Cert.Halo Idealize.ShloMosaic Idealize.ShloMosaic.ValueIdx
open Idealize.ShloMosaic.TcCoe Idealize.SL.Sem

variable (m : (ℓ : Loc nD τ sig) → Buf (Elt Ideal) ℓ) (ρ : Dev nD → PrngReg)

/-! ## The staged block -/

/-- The staged block is the device's argument block, read whole. -/
theorem xblk_eq (c : Dev nD) : xblk (F := Ideal) m ρ c = m ((c.tc : Thread nD τ).loc main_arg0) := by
  unfold xblk
  exact Memref.read_access_unit_zero (Elt Ideal) main_arg0 (funext fun a => by fin_cases a <;> rfl) _ _

/-- When every device's argument block is its block of the whole array, the staged block is the block at the device's
    mesh coordinates. -/
theorem xblk_blk (u : SW.Idx → EReal)
    (hagree : ∀ c : Dev nD, m ((c.tc : Thread nD τ).loc main_arg0)
      = Layout.blockN ⟨3, ![64, 64, 64]⟩ ⟨3, ![128, 128, 128]⟩ (Layout.meshBlock [2, 2, 2] ![[0], [1], [2]] c) u)
    (c : Dev nD) : xblk (F := Ideal) m ρ c = blk u (c.val / 4) (c.val / 2 % 2) (c.val % 2) := by
  rw [xblk_eq, hagree, blockN_eq_blk]

/-! ## The face plane a device sends along each axis -/

/-- Along the first axis: the last plane of the block for a device in the lower half, the first for one in the upper. -/
theorem sPlane0_apply (c : Dev nD) (q r : Fin 64) :
    sPlane (F := Ideal) m ρ 0 c (ix2 q r) = xblk m ρ c (ix3 (if c.val / 4 = 0 then 63 else 0) q r) := by
  show (if c.val / 4 = 0 then k0_pay12 (xblk m ρ c) else k0_pay13 (xblk m ρ c)) (ix2 q r) = _
  by_cases h : c.val / 4 = 0
  · rw [if_pos h, if_pos h]; exact Pay.pay12_apply _ q r
  · rw [if_neg h, if_neg h]; exact Pay.pay13_apply _ q r

/-- Along the second axis. -/
theorem sPlane1_apply (c : Dev nD) (p r : Fin 64) :
    sPlane (F := Ideal) m ρ 1 c (ix2 p r) = xblk m ρ c (ix3 p (if c.val / 2 % 2 = 0 then 63 else 0) r) := by
  show (if c.val / 2 % 2 = 0 then k0_pay14 (xblk m ρ c) else k0_pay15 (xblk m ρ c)) (ix2 p r) = _
  by_cases h : c.val / 2 % 2 = 0
  · rw [if_pos h, if_pos h]; exact Pay.pay14_apply _ p r
  · rw [if_neg h, if_neg h]; exact Pay.pay15_apply _ p r

/-- Along the third axis. -/
theorem sPlane2_apply (c : Dev nD) (p q : Fin 64) :
    sPlane (F := Ideal) m ρ 2 c (ix2 p q) = xblk m ρ c (ix3 p q (if c.val % 2 = 0 then 63 else 0)) := by
  show (if c.val % 2 = 0 then k0_pay16 (xblk m ρ c) else k0_pay17 (xblk m ρ c)) (ix2 p q) = _
  by_cases h : c.val % 2 = 0
  · rw [if_pos h, if_pos h]; exact Pay.pay16_apply _ p q
  · rw [if_neg h, if_neg h]; exact Pay.pay17_apply _ p q

/-! ## The plane that lands from the neighbour across each cut, as entries of the whole array

The neighbour across the cut of an axis has the other coordinate on that axis and the same two on the others; the plane
it sends is the one that borders the cut: global coordinate 64 seen from the lower half, 63 seen from the upper. -/

theorem peer0_coords (c : Dev nD) :
    (peer 0 c).val / 4 = 1 - c.val / 4 ∧ (peer 0 c).val / 2 % 2 = c.val / 2 % 2 ∧ (peer 0 c).val % 2 = c.val % 2 := by
  revert c; decide
theorem peer1_coords (c : Dev nD) :
    (peer 1 c).val / 4 = c.val / 4 ∧ (peer 1 c).val / 2 % 2 = 1 - c.val / 2 % 2 ∧ (peer 1 c).val % 2 = c.val % 2 := by
  revert c; decide
theorem peer2_coords (c : Dev nD) :
    (peer 2 c).val / 4 = c.val / 4 ∧ (peer 2 c).val / 2 % 2 = c.val / 2 % 2 ∧ (peer 2 c).val % 2 = 1 - c.val % 2 := by
  revert c; decide

/-- The bordering plane's global coordinate: 64 from the lower half, 63 from the upper. -/
theorem border (k : Nat) (hk : k = 0 ∨ k = 1) :
    64 * (1 - k) + (if 1 - k = 0 then (63 : Fin 64) else 0).val = if k = 0 then 64 else 63 := by
  rcases hk with h | h <;> subst h <;> decide

theorem landed0_apply (u : SW.Idx → EReal)
    (hagree : ∀ c : Dev nD, m ((c.tc : Thread nD τ).loc main_arg0)
      = Layout.blockN ⟨3, ![64, 64, 64]⟩ ⟨3, ![128, 128, 128]⟩ (Layout.meshBlock [2, 2, 2] ![[0], [1], [2]] c) u)
    (c : Dev nD) (q r : Fin 64) :
    landed (F := Ideal) m ρ 0 c (ix2 q r)
      = at3 u (if c.val / 4 = 0 then 64 else 63) (64 * (c.val / 2 % 2) + q.val) (64 * (c.val % 2) + r.val) := by
  show sPlane (F := Ideal) m ρ 0 (peer 0 c) (ix2 q r) = _
  rw [sPlane0_apply, xblk_blk m ρ u hagree]
  show at3 u (64 * ((peer 0 c).val / 4) + (if (peer 0 c).val / 4 = 0 then (63 : Fin 64) else 0).val)
    (64 * ((peer 0 c).val / 2 % 2) + q.val) (64 * ((peer 0 c).val % 2) + r.val) = _
  obtain ⟨h0, h1, h2⟩ := peer0_coords c
  rw [h0, h1, h2, border _ (by have : c.val < 8 := c.isLt; omega)]

theorem landed1_apply (u : SW.Idx → EReal)
    (hagree : ∀ c : Dev nD, m ((c.tc : Thread nD τ).loc main_arg0)
      = Layout.blockN ⟨3, ![64, 64, 64]⟩ ⟨3, ![128, 128, 128]⟩ (Layout.meshBlock [2, 2, 2] ![[0], [1], [2]] c) u)
    (c : Dev nD) (p r : Fin 64) :
    landed (F := Ideal) m ρ 1 c (ix2 p r)
      = at3 u (64 * (c.val / 4) + p.val) (if c.val / 2 % 2 = 0 then 64 else 63) (64 * (c.val % 2) + r.val) := by
  show sPlane (F := Ideal) m ρ 1 (peer 1 c) (ix2 p r) = _
  rw [sPlane1_apply, xblk_blk m ρ u hagree]
  show at3 u (64 * ((peer 1 c).val / 4) + p.val)
    (64 * ((peer 1 c).val / 2 % 2) + (if (peer 1 c).val / 2 % 2 = 0 then (63 : Fin 64) else 0).val) (64 * ((peer 1 c).val % 2) + r.val) = _
  obtain ⟨h0, h1, h2⟩ := peer1_coords c
  rw [h0, h1, h2, border _ (by omega)]

theorem landed2_apply (u : SW.Idx → EReal)
    (hagree : ∀ c : Dev nD, m ((c.tc : Thread nD τ).loc main_arg0)
      = Layout.blockN ⟨3, ![64, 64, 64]⟩ ⟨3, ![128, 128, 128]⟩ (Layout.meshBlock [2, 2, 2] ![[0], [1], [2]] c) u)
    (c : Dev nD) (p q : Fin 64) :
    landed (F := Ideal) m ρ 2 c (ix2 p q)
      = at3 u (64 * (c.val / 4) + p.val) (64 * (c.val / 2 % 2) + q.val) (if c.val % 2 = 0 then 64 else 63) := by
  show sPlane (F := Ideal) m ρ 2 (peer 2 c) (ix2 p q) = _
  rw [sPlane2_apply, xblk_blk m ρ u hagree]
  show at3 u (64 * ((peer 2 c).val / 4) + p.val) (64 * ((peer 2 c).val / 2 % 2) + q.val)
    (64 * ((peer 2 c).val % 2) + (if (peer 2 c).val % 2 = 0 then (63 : Fin 64) else 0).val) = _
  obtain ⟨h0, h1, h2⟩ := peer2_coords c
  rw [h0, h1, h2, border _ (by omega)]

/-! ## The mesh coordinates as the words the body computes, and the guards on them -/

theorem wX_eq (c : Dev nD) : wX c = BitVec.ofNat 32 (c.val / 4) := by revert c; decide +kernel
theorem wY_eq (c : Dev nD) : wY c = BitVec.ofNat 32 (c.val / 2 % 2) := by revert c; decide +kernel
theorem wZ_eq (c : Dev nD) : wZ c = BitVec.ofNat 32 (c.val % 2) := by revert c; decide +kernel

/-- The words the body's run names are these. -/
theorem v2_eq (c : Dev nD) : bodyRun.sl.v2 c = wX c := rfl
theorem v5_eq (c : Dev nD) : bodyRun.sl.v5 c = wY c := rfl
theorem v8_eq (c : Dev nD) : bodyRun.sl.v8 c = wZ c := rfl

/-- The four guards of the later face updates: which half of the second and of the third axis the device lies in. -/
theorem g187 (c : Dev nD) : Iff (bodyRun.sl.v187 c = 1#1) (¬ c.val / 2 % 2 = 0) := gy1 c
theorem g190 (c : Dev nD) : Iff (bodyRun.sl.v190 c = 1#1) (c.val / 2 % 2 = 0) := gy0 c
theorem g193 (c : Dev nD) : Iff (bodyRun.sl.v193 c = 1#1) (¬ c.val % 2 = 0) := gz1 c
theorem g196 (c : Dev nD) : Iff (bodyRun.sl.v196 c = 1#1) (c.val % 2 = 0) := gz0 c

/-- info: 'Cert.Halo.KVPrep.landed0_apply' depends on axioms: [propext, Classical.choice, Quot.sound] -/
#guard_msgs in #print axioms landed0_apply

end Cert.Halo.KVPrep

end
-- ==== Proof.KV.lean ====
/-
  The finished block of a device is the device's block of the seven-point stencil of the whole array, when every
  device's argument block is its block of the whole array.
-/
import proofs.«900807_g7700000000000808_dist_halo3d_v7x_xyz2x2x2_s64_bf16_1_alg».proof.Proof.BodyDefs
import proofs.«900807_g7700000000000808_dist_halo3d_v7x_xyz2x2x2_s64_bf16_1_alg».proof.Proof.PayIdeal
import proofs.«900807_g7700000000000808_dist_halo3d_v7x_xyz2x2x2_s64_bf16_1_alg».proof.Proof.WriteAt
import proofs.«900807_g7700000000000808_dist_halo3d_v7x_xyz2x2x2_s64_bf16_1_alg».proof.Proof.Stencil
import proofs.«900807_g7700000000000808_dist_halo3d_v7x_xyz2x2x2_s64_bf16_1_alg».proof.Proof.LayoutBridge
import proofs.«900807_g7700000000000808_dist_halo3d_v7x_xyz2x2x2_s64_bf16_1_alg».proof.Proof.KVPrep

noncomputable section

namespace Cert.Halo.KV

open Idealize.ShloMosaic Idealize.SL.Sem
open Idealize.ShloMosaic.ValueIdx
open Cert.KernelIdeal Cert.KernelIdeal.Gen Cert.KernelIdeal.Halo
open Cert.Halo Cert.Halo.WriteAt

section Stages

variable (m : (ℓ : Loc nD τ sig) → Buf (Elt Ideal) ℓ) (ρ : Dev nD → PrngReg)

/-! ### The device's coordinate words and its guards -/

theorem word_x (c : Dev nD) : bodyRun.sl.v2 c = BitVec.ofNat 32 (c.val / 4) := by revert c; decide +kernel
theorem word_y (c : Dev nD) : bodyRun.sl.v5 c = BitVec.ofNat 32 (c.val / 2 % 2) := by revert c; decide +kernel
theorem word_z (c : Dev nD) : bodyRun.sl.v8 c = BitVec.ofNat 32 (c.val % 2) := by revert c; decide +kernel

theorem guard_y1 (c : Dev nD) : bodyRun.sl.v187 c = 1#1 ↔ ¬ c.val / 2 % 2 = 0 := gy1 c
theorem guard_y0 (c : Dev nD) : bodyRun.sl.v190 c = 1#1 ↔ c.val / 2 % 2 = 0 := gy0 c
theorem guard_z1 (c : Dev nD) : bodyRun.sl.v193 c = 1#1 ↔ ¬ c.val % 2 = 0 := gz1 c
theorem guard_z0 (c : Dev nD) : bodyRun.sl.v196 c = 1#1 ↔ c.val % 2 = 0 := gz0 c

/-! ### The staged block and the converted block -/

/-- The staged block is the device's argument block. -/
theorem xblk_eq (c : Dev nD) : xblk m ρ c = m ((c.tc : Thread nD τ).loc main_arg0) := by
  unfold xblk
  exact Memref.read_access_unit_zero (Elt Ideal) main_arg0 (funext fun a => Nat.zero_mul _) _ _

/-- The converted block is the staged block, entry by entry. -/
theorem r_apply (c : Dev nD) (i : S64x64x64.Idx) : bodyRun.sl.r m ρ c i = xblk m ρ c i := by
  unfold bodyRun.sl.r
  rw [Pay.pay11_apply, Halo.read_x]

/-- The accumulator after the whole-block store. -/
theorem acc1_eq (c : Dev nD) :
    acc.writes (Elt Ideal) (acc.junk (Val := Elt Ideal)) (bodyRun.sl.Hov_1 m ρ c)
      = k0_pay20 (bodyRun.sl.r m ρ c) (bodyRun.sl.r_1 m ρ c) k0_pay19 := by
  unfold bodyRun.sl.Hov_1
  rw [View.writes_singleton]
  exact write_whole _ _ _

/-! ### Face stores at a spelled offset, and the two-row store with its loaded rows given -/

section Helpers
variable {Val : EltTy → Type}

theorem write_xo (off : Fin 3 → Nat) (k : Nat) (hoff : off = ![k, 0, 0]) (hk : k < 64)
    (inb : ∀ a, off a + S1x64x64.size a ≤ S64x64x64.size a)
    (f : S64x64x64.Idx → Val .bf16) (w : S1x64x64.Idx → Val .bf16) (p q r : Fin 64) :
    (acc.slice (Rect.unit (s := S64x64x64) off S1x64x64.size inb)).write Val f w Finset.univ (ix3 p q r)
      = if p.val = k then w (ix3 0 q r) else f (ix3 p q r) := by
  subst hoff; exact write_x k hk inb f w p q r

theorem read_xo (off : Fin 3 → Nat) (k : Nat) (hoff : off = ![k, 0, 0]) (hk : k < 64)
    (inb : ∀ a, off a + S1x64x64.size a ≤ S64x64x64.size a)
    (f : S64x64x64.Idx → Val .bf16) (q r : Fin 64) :
    acc.readAt Val (Rect.unit (s := S64x64x64) off S1x64x64.size inb).toLoadRect f (ix3 0 q r) = f (ix3 ⟨k, hk⟩ q r) := by
  subst hoff; exact read_x k hk inb f q r

/-- The two planes from `j` stored back with the plane `t` of them replaced by `w`, the other plane of the stored
    pair being the buffer's own: the plane `j + t` holds `w`, every other entry its old contents. -/
theorem store_y' (j t : Nat) (hj : j + 2 ≤ 64) (ht : t < 2)
    (inb : ∀ a, (![0, j, 0] : Fin 3 → Nat) a + S64x2x64.size a ≤ S64x64x64.size a)
    (h : S64x2x64.Slices ![0, t, 0] S64x1x64)
    (f : S64x64x64.Idx → Val .bf16) (old : S64x2x64.Idx → Val .bf16) (w : S64x1x64.Idx → Val .bf16)
    (hold : ∀ (p : Fin 64) (c : Fin 2) (r : Fin 64), old (ix3 p c r) = f (ix3 p ⟨j + c.val, by have := c.isLt; omega⟩ r))
    (p q r : Fin 64) :
    (acc.slice (Rect.unit (s := S64x64x64) ![0, j, 0] S64x2x64.size inb)).write Val f
        (updateSlice old w ![0, t, 0] h) Finset.univ (ix3 p q r)
      = if q.val = j + t then w (ix3 p 0 r) else f (ix3 p q r) := by
  rw [write_y2 j hj inb]
  by_cases hin : j ≤ q.val ∧ q.val < j + 2
  · rw [dif_pos hin, updateSlice_y _ _ t ht h]
    by_cases hq : q.val = j + t
    · rw [if_pos hq, if_pos (show ((⟨q.val - j, by omega⟩ : Fin 2) : Nat) = t by show q.val - j = t; omega)]
    · rw [if_neg hq, if_neg (show ¬ ((⟨q.val - j, by omega⟩ : Fin 2) : Nat) = t by show ¬ q.val - j = t; omega), hold]
      exact congrArg f (funext fun a => Fin.ext (match a with
        | ⟨0, _⟩ => rfl
        | ⟨1, _⟩ => by show j + (q.val - j) = q.val; omega
        | ⟨2, _⟩ => rfl))
  · rw [dif_neg hin, if_neg (by omega)]

end Helpers

/-! ### The accumulator's contents, stage by stage -/

/-- After the whole-block store. -/
def A1 (c : Dev nD) : S64x64x64.Idx → EReal := acc.writes (Elt Ideal) (acc.junk (Val := Elt Ideal)) (bodyRun.sl.Hov_1 m ρ c)
/-- After the stores of the first axis. -/
def A3 (c : Dev nD) : S64x64x64.Idx → EReal := acc.writes (Elt Ideal) (acc.junk (Val := Elt Ideal)) (bodyRun.sl.Hov_3 m ρ c)
/-- After the second axis's face add of a device in the upper half. -/
def A4 (c : Dev nD) : S64x64x64.Idx → EReal := acc.writes (Elt Ideal) (acc.junk (Val := Elt Ideal)) (bodyRun.sl.Hov_4 m ρ c)

theorem A1_eq (c : Dev nD) : A1 m ρ c = k0_pay20 (bodyRun.sl.r m ρ c) (bodyRun.sl.r_1 m ρ c) k0_pay19 := acc1_eq m ρ c

/-! ### The first axis: the received plane added into the face on the cut, the rim face put to zero -/

/-- The accumulator after the stores of the first axis. -/
theorem A3_apply (c : Dev nD) (p q r : Fin 64) :
    A3 m ρ c (ix3 p q r)
      = if p.val = 63 * (c.val / 4) then 0
        else if p.val = 63 - 63 * (c.val / 4) then A1 m ρ c (ix3 p q r) + bodyRun.sl.r_2 m ρ c (ix2 q r)
        else A1 m ρ c (ix3 p q r) := by
  have hc8 : c.val < 8 := c.isLt
  unfold A3 A1 bodyRun.sl.Hov_3
  rw [View.writes_cons, View.writes_cons]
  dsimp only
  rw [write_xo (k0_off2 c) (63 * (c.val / 4)) (k0_off2_eq c) (by omega)]
  by_cases h2 : p.val = 63 * (c.val / 4)
  · rw [if_pos h2, if_pos h2, Pay.pay2_apply, Pay.pay24_apply]
  · rw [if_neg h2, if_neg h2]
    rw [write_xo (k0_off1 c) (63 - 63 * (c.val / 4)) (k0_off1_eq c) (by omega)]
    by_cases h1 : p.val = 63 - 63 * (c.val / 4)
    · rw [if_pos h1, if_pos h1, Pay.pay1_apply]
      unfold bodyRun.sl.v173
      rw [read_xo (k0_off1 c) (63 - 63 * (c.val / 4)) (k0_off1_eq c) (by omega)]
      have hp : (⟨63 - 63 * (c.val / 4), by omega⟩ : Fin 64) = p := Fin.ext h1.symm
      rw [hp]
    · rw [if_neg h1, if_neg h1]

/-! ### The nest of guarded stores, level by level -/

/-- After the second axis's rim zero of a device in the upper half (its guard), else as after the first axis. -/
def AX (c : Dev nD) : S64x64x64.Idx → EReal :=
  if hc : bodyRun.sl.v187 c = 1#1 then
    acc.writes (Elt Ideal) (acc.junk (Val := Elt Ideal))
      (⟨Rect.unit (s := S64x64x64) ![0, 62, 0] S64x2x64.size inb_S64x64x64_S64x2x64_0_62_0,
          (fun old => updateSlice old (k0_pay4 (F := Ideal) k0_pay24) ![0, 1, 0] slices_S64x2x64_S64x1x64_0_1_0) (bodyRun.sl.old_1 m ρ c)⟩ ::
        bodyRun.sl.Hov_4 m ρ c)
  else A3 m ρ c

/-- After the second axis's two stores of a device in the lower half (its guard), else as before. -/
def AY (c : Dev nD) : S64x64x64.Idx → EReal :=
  if hc : bodyRun.sl.v190 c = 1#1 then
    acc.writes (Elt Ideal) (AX m ρ c)
      [⟨Rect.unit (s := S64x64x64) ![0, 0, 0] S64x2x64.size inb_S64x64x64_S64x2x64_0_0_0,
          (fun old => updateSlice old (k0_pay6 (F := Ideal) k0_pay24) ![0, 0, 0] slices_S64x2x64_S64x1x64_0_0_0) (bodyRun.sl.old_3 m ρ c)⟩,
        ⟨Rect.unit (s := S64x64x64) ![0, 62, 0] S64x2x64.size inb_S64x64x64_S64x2x64_0_62_0,
          (fun old => updateSlice old (k0_pay5 (bodyRun.sl.r_3 m ρ c) (bodyRun.sl.v201_1 m ρ c)) ![0, 1, 0] slices_S64x2x64_S64x1x64_0_1_0)
            (bodyRun.sl.old_2 m ρ c)⟩]
  else AX m ρ c

/-- After the third axis's two stores of a device in the upper half (its guard), else as before. -/
def AZ (c : Dev nD) : S64x64x64.Idx → EReal :=
  if hc : bodyRun.sl.v193 c = 1#1 then
    acc.writes (Elt Ideal) (AY m ρ c)
      [⟨Rect.unit (s := S64x64x64) ![0, 0, 63] S64x64x1.size inb_S64x64x64_S64x64x1_0_0_63, k0_pay8 (F := Ideal) k0_pay24⟩,
        ⟨Rect.unit (s := S64x64x64) ![0, 0, 0] S64x64x1.size inb_S64x64x64_S64x64x1_0_0_0,
          k0_pay7 (bodyRun.sl.r_4 m ρ c) (bodyRun.sl.v201_2 m ρ c)⟩]
  else AY m ρ c

/-- After the third axis's two stores of a device in the lower half (its guard), else as before: the finished accumulator. -/
def AD (c : Dev nD) : S64x64x64.Idx → EReal :=
  if hc : bodyRun.sl.v196 c = 1#1 then
    acc.writes (Elt Ideal) (AZ m ρ c)
      [⟨Rect.unit (s := S64x64x64) ![0, 0, 0] S64x64x1.size inb_S64x64x64_S64x64x1_0_0_0, k0_pay10 (F := Ideal) k0_pay24⟩,
        ⟨Rect.unit (s := S64x64x64) ![0, 0, 63] S64x64x1.size inb_S64x64x64_S64x64x1_0_0_63,
          k0_pay9 (bodyRun.sl.r_4 m ρ c) (bodyRun.sl.v201_3 m ρ c)⟩]
  else AZ m ρ c

/-! The values the body loads along the way are loads of these levels. -/

theorem dma34_eq (c : Dev nD) : bodyRun.sl.dma34 m ρ c = AD m ρ c := by
  funext i
  unfold bodyRun.sl.dma34
  rw [ReadAs.apply_same]
  refine (read_acc _ i).trans ?_
  unfold AD AZ AY AX A3
  rfl
theorem old_eq (c : Dev nD) : bodyRun.sl.old m ρ c
    = acc.readAt (Elt Ideal) (Rect.unit (s := S64x64x64) ![0, 0, 0] S64x2x64.size inb_S64x64x64_S64x2x64_0_0_0).toLoadRect (A3 m ρ c) := rfl
theorem v201_eq (c : Dev nD) : bodyRun.sl.v201 m ρ c
    = acc.readAt (Elt Ideal) (Rect.unit (s := S64x64x64) ![0, 0, 0] S64x1x64.size inb_S64x64x64_S64x1x64_0_0_0).toLoadRect (A3 m ρ c) := rfl
theorem old_1_eq (c : Dev nD) : bodyRun.sl.old_1 m ρ c
    = acc.readAt (Elt Ideal) (Rect.unit (s := S64x64x64) ![0, 62, 0] S64x2x64.size inb_S64x64x64_S64x2x64_0_62_0).toLoadRect (A4 m ρ c) := rfl
theorem old_2_eq (c : Dev nD) : bodyRun.sl.old_2 m ρ c
    = acc.readAt (Elt Ideal) (Rect.unit (s := S64x64x64) ![0, 62, 0] S64x2x64.size inb_S64x64x64_S64x2x64_0_62_0).toLoadRect (AX m ρ c) := rfl
theorem old_3_eq (c : Dev nD) : bodyRun.sl.old_3 m ρ c
    = acc.readAt (Elt Ideal) (Rect.unit (s := S64x64x64) ![0, 0, 0] S64x2x64.size inb_S64x64x64_S64x2x64_0_0_0).toLoadRect (AX m ρ c) := rfl
theorem v201_1_eq (c : Dev nD) : bodyRun.sl.v201_1 m ρ c
    = acc.readAt (Elt Ideal) (Rect.unit (s := S64x64x64) ![0, 63, 0] S64x1x64.size inb_S64x64x64_S64x1x64_0_63_0).toLoadRect (AX m ρ c) := rfl
theorem v201_2_eq (c : Dev nD) : bodyRun.sl.v201_2 m ρ c
    = acc.readAt (Elt Ideal) (Rect.unit (s := S64x64x64) ![0, 0, 0] S64x64x1.size inb_S64x64x64_S64x64x1_0_0_0).toLoadRect (AY m ρ c) := rfl
theorem v201_3_eq (c : Dev nD) : bodyRun.sl.v201_3 m ρ c
    = acc.readAt (Elt Ideal) (Rect.unit (s := S64x64x64) ![0, 0, 63] S64x64x1.size inb_S64x64x64_S64x64x1_0_0_63).toLoadRect (AZ m ρ c) := rfl

/-! ### The second axis -/

/-- After the face add of a device in the upper half: the received plane added into the first plane. -/
theorem A4_apply (c : Dev nD) (p q r : Fin 64) :
    A4 m ρ c (ix3 p q r)
      = if q.val = 0 then A3 m ρ c (ix3 p q r) + bodyRun.sl.r_3 m ρ c (ix2 p r) else A3 m ρ c (ix3 p q r) := by
  unfold A4 bodyRun.sl.Hov_4
  rw [View.writes_cons]
  dsimp only
  refine (store_y' (Val := Elt Ideal) 0 0 (by omega) (by omega) _ _ (A3 m ρ c) (bodyRun.sl.old m ρ c) _
    (fun p c' r => by rw [old_eq, read_y2 0 (by omega)]) p q r).trans ?_
  by_cases hq : q.val = 0
  · rw [if_pos (show q.val = 0 + 0 by omega), if_pos hq, Pay.pay3_apply, v201_eq, read_y 0 (by omega)]
    have hq' : (⟨0, by omega⟩ : Fin 64) = q := Fin.ext hq.symm
    rw [hq']
  · rw [if_neg (show ¬ q.val = 0 + 0 by omega), if_neg hq]

/-- The second level for a device in the upper half: after the face add, the last plane put to zero. -/
theorem AX_apply_hi (c : Dev nD) (h : bodyRun.sl.v187 c = 1#1) (p q r : Fin 64) :
    AX m ρ c (ix3 p q r) = if q.val = 63 then 0 else A4 m ρ c (ix3 p q r) := by
  unfold AX
  rw [dif_pos h, View.writes_cons]
  dsimp only
  refine (store_y' (Val := Elt Ideal) 62 1 (by omega) (by omega) _ _ (A4 m ρ c) (bodyRun.sl.old_1 m ρ c) _
    (fun p c' r => by rw [old_1_eq, read_y2 62 (by omega)]) p q r).trans ?_
  by_cases hq : q.val = 63
  · rw [if_pos (show q.val = 62 + 1 by omega), if_pos hq, Pay.pay4_apply, Pay.pay24_apply]
  · rw [if_neg (show ¬ q.val = 62 + 1 by omega), if_neg hq]

theorem AX_eq_lo (c : Dev nD) (h : ¬ bodyRun.sl.v187 c = 1#1) : AX m ρ c = A3 m ρ c := by
  unfold AX; rw [dif_neg h]

/-- The third level for a device in the lower half: the received plane added into the last plane, the first put to zero. -/
theorem AY_apply_lo (c : Dev nD) (h : bodyRun.sl.v190 c = 1#1) (p q r : Fin 64) :
    AY m ρ c (ix3 p q r)
      = if q.val = 0 then 0
        else if q.val = 63 then AX m ρ c (ix3 p q r) + bodyRun.sl.r_3 m ρ c (ix2 p r) else AX m ρ c (ix3 p q r) := by
  -- the add at the last plane
  have h5 : ∀ (p q r : Fin 64),
      (acc.slice (Rect.unit (s := S64x64x64) ![0, 62, 0] S64x2x64.size inb_S64x64x64_S64x2x64_0_62_0)).write (Elt Ideal) (AX m ρ c)
        (updateSlice (bodyRun.sl.old_2 m ρ c) (k0_pay5 (bodyRun.sl.r_3 m ρ c) (bodyRun.sl.v201_1 m ρ c)) ![0, 1, 0] slices_S64x2x64_S64x1x64_0_1_0)
        Finset.univ (ix3 p q r)
      = if q.val = 62 + 1 then k0_pay5 (bodyRun.sl.r_3 m ρ c) (bodyRun.sl.v201_1 m ρ c) (ix3 p 0 r) else AX m ρ c (ix3 p q r) :=
    fun p q r => store_y' (Val := Elt Ideal) 62 1 (by omega) (by omega) _ _ (AX m ρ c) (bodyRun.sl.old_2 m ρ c) _
      (fun p c' r => by rw [old_2_eq, read_y2 62 (by omega)]) p q r
  unfold AY
  rw [dif_pos h, View.writes_cons, View.writes_singleton]
  dsimp only
  refine (store_y' (Val := Elt Ideal) 0 0 (by omega) (by omega) _ _ _ (bodyRun.sl.old_3 m ρ c) _
    (fun p c' r => by
      rw [old_3_eq, read_y2 0 (by omega), h5, if_neg (by have := c'.isLt; show ¬ 0 + c'.val = 62 + 1; omega)]) p q r).trans ?_
  by_cases hq0 : q.val = 0
  · rw [if_pos (show q.val = 0 + 0 by omega), if_pos hq0, Pay.pay6_apply, Pay.pay24_apply]
  · rw [if_neg (show ¬ q.val = 0 + 0 by omega), if_neg hq0, h5]
    by_cases hq : q.val = 63
    · rw [if_pos (show q.val = 62 + 1 by omega), if_pos hq, Pay.pay5_apply, v201_1_eq, read_y 63 (by omega)]
      have hq' : (⟨63, by omega⟩ : Fin 64) = q := Fin.ext hq.symm
      rw [hq']
    · rw [if_neg (show ¬ q.val = 62 + 1 by omega), if_neg hq]

theorem AY_eq_hi (c : Dev nD) (h : ¬ bodyRun.sl.v190 c = 1#1) : AY m ρ c = AX m ρ c := by
  unfold AY; rw [dif_neg h]

/-- After the stores of the second axis. -/
theorem AY_apply (c : Dev nD) (p q r : Fin 64) :
    AY m ρ c (ix3 p q r)
      = if q.val = 63 * (c.val / 2 % 2) then 0
        else if q.val = 63 * (1 - c.val / 2 % 2) then A3 m ρ c (ix3 p q r) + bodyRun.sl.r_3 m ρ c (ix2 p r)
        else A3 m ρ c (ix3 p q r) := by
  have hcy : c.val / 2 % 2 < 2 := Nat.mod_lt _ (by decide)
  have hq := q.isLt
  by_cases h0 : c.val / 2 % 2 = 0
  · have g187 : ¬ bodyRun.sl.v187 c = 1#1 := fun h => (guard_y1 c).mp h h0
    have g190 : bodyRun.sl.v190 c = 1#1 := (guard_y0 c).mpr h0
    have e1 : 63 * (c.val / 2 % 2) = 0 := by omega
    have e2 : 63 * (1 - c.val / 2 % 2) = 63 := by omega
    rw [AY_apply_lo m ρ c g190, AX_eq_lo m ρ c g187, e1, e2]
  · have g187 : bodyRun.sl.v187 c = 1#1 := (guard_y1 c).mpr h0
    have g190 : ¬ bodyRun.sl.v190 c = 1#1 := fun h => h0 ((guard_y0 c).mp h)
    have h1 : c.val / 2 % 2 = 1 := by omega
    have e1 : 63 * (c.val / 2 % 2) = 63 := by omega
    have e2 : 63 * (1 - c.val / 2 % 2) = 0 := by omega
    rw [AY_eq_hi m ρ c g190, AX_apply_hi m ρ c g187, A4_apply, e1, e2]

/-! ### The third axis -/

/-- The fourth level for a device in the upper half: the received plane added into the first plane, the last put to zero. -/
theorem AZ_apply_hi (c : Dev nD) (h : bodyRun.sl.v193 c = 1#1) (p q r : Fin 64) :
    AZ m ρ c (ix3 p q r)
      = if r.val = 63 then 0
        else if r.val = 0 then AY m ρ c (ix3 p q r) + bodyRun.sl.r_4 m ρ c (ix2 p q) else AY m ρ c (ix3 p q r) := by
  unfold AZ
  rw [dif_pos h, View.writes_cons, View.writes_singleton]
  dsimp only
  rw [write_z 63 (by omega)]
  by_cases h63 : r.val = 63
  · rw [if_pos h63, if_pos h63, Pay.pay8_apply, Pay.pay24_apply]
  · rw [if_neg h63, if_neg h63, write_z 0 (by omega)]
    by_cases h0 : r.val = 0
    · rw [if_pos h0, if_pos h0, Pay.pay7_apply, v201_2_eq, read_z 0 (by omega)]
      have hr' : (⟨0, by omega⟩ : Fin 64) = r := Fin.ext h0.symm
      rw [hr']
    · rw [if_neg h0, if_neg h0]

theorem AZ_eq_lo (c : Dev nD) (h : ¬ bodyRun.sl.v193 c = 1#1) : AZ m ρ c = AY m ρ c := by
  unfold AZ; rw [dif_neg h]

/-- The last level for a device in the lower half: the received plane added into the last plane, the first put to zero. -/
theorem AD_apply_lo (c : Dev nD) (h : bodyRun.sl.v196 c = 1#1) (p q r : Fin 64) :
    AD m ρ c (ix3 p q r)
      = if r.val = 0 then 0
        else if r.val = 63 then AZ m ρ c (ix3 p q r) + bodyRun.sl.r_4 m ρ c (ix2 p q) else AZ m ρ c (ix3 p q r) := by
  unfold AD
  rw [dif_pos h, View.writes_cons, View.writes_singleton]
  dsimp only
  rw [write_z 0 (by omega)]
  by_cases h0 : r.val = 0
  · rw [if_pos h0, if_pos h0, Pay.pay10_apply, Pay.pay24_apply]
  · rw [if_neg h0, if_neg h0, write_z 63 (by omega)]
    by_cases h63 : r.val = 63
    · rw [if_pos h63, if_pos h63, Pay.pay9_apply, v201_3_eq, read_z 63 (by omega)]
      have hr' : (⟨63, by omega⟩ : Fin 64) = r := Fin.ext h63.symm
      rw [hr']
    · rw [if_neg h63, if_neg h63]

theorem AD_eq_hi (c : Dev nD) (h : ¬ bodyRun.sl.v196 c = 1#1) : AD m ρ c = AZ m ρ c := by
  unfold AD; rw [dif_neg h]

/-- After the stores of the third axis: the finished accumulator. -/
theorem AD_apply (c : Dev nD) (p q r : Fin 64) :
    AD m ρ c (ix3 p q r)
      = if r.val = 63 * (c.val % 2) then 0
        else if r.val = 63 * (1 - c.val % 2) then AY m ρ c (ix3 p q r) + bodyRun.sl.r_4 m ρ c (ix2 p q)
        else AY m ρ c (ix3 p q r) := by
  have hcz : c.val % 2 < 2 := Nat.mod_lt _ (by decide)
  by_cases h0 : c.val % 2 = 0
  · have g193 : ¬ bodyRun.sl.v193 c = 1#1 := fun h => (guard_z1 c).mp h h0
    have g196 : bodyRun.sl.v196 c = 1#1 := (guard_z0 c).mpr h0
    have e1 : 63 * (c.val % 2) = 0 := by omega
    have e2 : 63 * (1 - c.val % 2) = 63 := by omega
    rw [AD_apply_lo m ρ c g196, AZ_eq_lo m ρ c g193, e1, e2]
  · have g193 : bodyRun.sl.v193 c = 1#1 := (guard_z1 c).mpr h0
    have g196 : ¬ bodyRun.sl.v196 c = 1#1 := fun h => h0 ((guard_z0 c).mp h)
    have e1 : 63 * (c.val % 2) = 63 := by omega
    have e2 : 63 * (1 - c.val % 2) = 0 := by omega
    rw [AD_eq_hi m ρ c g196, AZ_apply_hi m ρ c g193, e1, e2]

/-! ### The received planes, masked -/

section Planes
variable (u : SW.Idx → EReal)
  (hagree : ∀ c : Dev nD, m ((c.tc : Thread nD τ).loc main_arg0)
    = Layout.blockN ⟨3, ![64, 64, 64]⟩ ⟨3, ![128, 128, 128]⟩ (Layout.meshBlock [2, 2, 2] ![[0], [1], [2]] c) u)
include hagree

theorem r_2_apply (c : Dev nD) (q r : Fin 64) :
    bodyRun.sl.r_2 m ρ c (ix2 q r)
      = if q.val = 63 * (c.val / 2 % 2) ∨ r.val = 63 * (c.val % 2) then 0
        else at3 u (if c.val / 4 = 0 then 64 else 63) (64 * (c.val / 2 % 2) + q.val) (64 * (c.val % 2) + r.val) := by
  unfold bodyRun.sl.r_2
  rw [word_y, word_z, Pay.pay21_apply _ _ (Nat.mod_lt _ (by decide)) (Nat.mod_lt _ (by decide))]
  rw [show (Memref.whole cc0_scratch4 : Memref sig .tc .vmem S64x64 .bf16).view.readAt (Elt Ideal)
      (Rect.unit (s := S64x64) ![0, 0] S64x64.size inb_S64x64_S64x64_0_0).toLoadRect (landed m ρ 0 c) = landed m ρ 0 c from
    Memref.readAt_unit_zero (Elt Ideal) cc0_scratch4 Halo.hz2 _ _]
  rw [KVPrep.landed0_apply m ρ u hagree]

theorem r_3_apply (c : Dev nD) (p r : Fin 64) :
    bodyRun.sl.r_3 m ρ c (ix2 p r)
      = if p.val = 63 * (c.val / 4) ∨ r.val = 63 * (c.val % 2) then 0
        else at3 u (64 * (c.val / 4) + p.val) (if c.val / 2 % 2 = 0 then 64 else 63) (64 * (c.val % 2) + r.val) := by
  have hc8 : c.val < 8 := c.isLt
  unfold bodyRun.sl.r_3
  rw [word_x, word_z, Pay.pay22_apply _ _ (by omega) (Nat.mod_lt _ (by decide))]
  rw [show (Memref.whole cc0_scratch5 : Memref sig .tc .vmem S64x64 .bf16).view.readAt (Elt Ideal)
      (Rect.unit (s := S64x64) ![0, 0] S64x64.size inb_S64x64_S64x64_0_0).toLoadRect (landed m ρ 1 c) = landed m ρ 1 c from
    Memref.readAt_unit_zero (Elt Ideal) cc0_scratch5 Halo.hz2 _ _]
  rw [KVPrep.landed1_apply m ρ u hagree]

theorem r_4_apply (c : Dev nD) (p q : Fin 64) :
    bodyRun.sl.r_4 m ρ c (ix2 p q)
      = if p.val = 63 * (c.val / 4) ∨ q.val = 63 * (c.val / 2 % 2) then 0
        else at3 u (64 * (c.val / 4) + p.val) (64 * (c.val / 2 % 2) + q.val) (if c.val % 2 = 0 then 64 else 63) := by
  have hc8 : c.val < 8 := c.isLt
  unfold bodyRun.sl.r_4
  rw [word_x, word_y, Pay.pay23_apply _ _ (by omega) (Nat.mod_lt _ (by decide))]
  rw [show (Memref.whole cc0_scratch6 : Memref sig .tc .vmem S64x64 .bf16).view.readAt (Elt Ideal)
      (Rect.unit (s := S64x64) ![0, 0] S64x64.size inb_S64x64_S64x64_0_0).toLoadRect (landed m ρ 2 c) = landed m ρ 2 c from
    Memref.readAt_unit_zero (Elt Ideal) cc0_scratch6 Halo.hz2 _ _]
  rw [KVPrep.landed2_apply m ρ u hagree]

/-- The converted block is the device's block of the whole array. -/
theorem r_eq (c : Dev nD) : bodyRun.sl.r m ρ c = blk u (c.val / 4) (c.val / 2 % 2) (c.val % 2) :=
  funext fun i => (r_apply m ρ c i).trans (congrFun (KVPrep.xblk_blk m ρ u hagree c) i)

/-! ### The finished accumulator is the device's result as the stencil's mathematics writes it -/

theorem AD_kfinal (c : Dev nD) (p q r : Fin 64) :
    AD m ρ c (ix3 p q r)
      = kfinal (c.val / 4) (c.val / 2 % 2) (c.val % 2) (blk u (c.val / 4) (c.val / 2 % 2) (c.val % 2))
          (fun b c' => at3 u (if c.val / 4 = 0 then 64 else 63) (64 * (c.val / 2 % 2) + b) (64 * (c.val % 2) + c'))
          (fun a c' => at3 u (64 * (c.val / 4) + a) (if c.val / 2 % 2 = 0 then 64 else 63) (64 * (c.val % 2) + c'))
          (fun a b => at3 u (64 * (c.val / 4) + a) (64 * (c.val / 2 % 2) + b) (if c.val % 2 = 0 then 64 else 63))
          p.val q.val r.val := by
  have hc8 : c.val < 8 := c.isLt
  have ex : 63 - 63 * (c.val / 4) = 63 * (1 - c.val / 4) := by omega
  have hb : bat3 (blk u (c.val / 4) (c.val / 2 % 2) (c.val % 2)) p.val q.val r.val
      = blk u (c.val / 4) (c.val / 2 % 2) (c.val % 2) (ix3 p q r) := bat3_of_lt _ p.isLt q.isLt r.isLt
  rw [AD_apply, AY_apply, A3_apply, A1_eq, Pay.pay20_apply, Pay.pay19_apply, ex]
  unfold bodyRun.sl.r_1
  rw [Pay.pay18_apply, r_eq m ρ u hagree, r_2_apply m ρ u hagree, r_3_apply m ρ u hagree, r_4_apply m ρ u hagree]
  unfold kfinal
  dsimp only
  rw [hb]

end Planes

/-! ### The finished block -/

/-- The finished block is the finished accumulator: the result copy moves it whole. -/
theorem outVal_AD (c : Dev nD) : outVal (F := Ideal) m ρ c = AD m ρ c := by
  have h : outVal (F := Ideal) m ρ c
      = (Memref.whole main_v1 : Memref sig .tc .hbm S64x64x64 .bf16).view.writes (Elt Ideal)
          ((Memref.whole main_v1 : Memref sig .tc .hbm S64x64x64 .bf16).view.junk (Val := Elt Ideal))
          [⟨Rect.whole main_v1.ty.shape, bodyRun.sl.dma34 m ρ c⟩] := rfl
  rw [h, View.writes_singleton, dma34_eq]
  exact Memref.write_access_whole_univ (Elt Ideal) main_v1 _ _

end Stages

theorem outVal_eq (m : (ℓ : Loc Cert.KernelIdeal.nD Cert.KernelIdeal.τ Cert.KernelIdeal.sig) → Buf (Elt Ideal) ℓ) (ρ : Dev Cert.KernelIdeal.nD → PrngReg)
    (u : Cert.Halo.SW.Idx → EReal)
    (hagree : ∀ c : Dev Cert.KernelIdeal.nD,
      m ((c.tc : Thread Cert.KernelIdeal.nD Cert.KernelIdeal.τ).loc Cert.KernelIdeal.main_arg0)
        = Layout.blockN ⟨3, ![64, 64, 64]⟩ ⟨3, ![128, 128, 128]⟩ (Layout.meshBlock [2, 2, 2] ![[0], [1], [2]] c) u)
    (c : Dev Cert.KernelIdeal.nD) :
    Cert.KernelIdeal.Halo.outVal (F := Ideal) m ρ c
      = Layout.blockN ⟨3, ![64, 64, 64]⟩ ⟨3, ![128, 128, 128]⟩ (Layout.meshBlock [2, 2, 2] ![[0], [1], [2]] c) (Cert.Halo.lap u) := by
  have hc8 : c.val < 8 := c.isLt
  funext i
  obtain ⟨p, q, r, rfl⟩ : ∃ (p q r : Fin 64), i = ix3 p q r := ⟨i 0, i 1, i 2, eq_ix3 i⟩
  rw [outVal_AD, AD_kfinal m ρ u hagree,
    kfinal_eq_lap u (c.val / 4) (c.val / 2 % 2) (c.val % 2) (by omega) (Nat.mod_lt _ (by decide)) (Nat.mod_lt _ (by decide))
      p.val q.val r.val p.isLt q.isLt r.isLt]
  exact (blockN_lap u c (ix3 p q r)).symm

end Cert.Halo.KV

end
-- ==== Proof.lean ====
/- The halo exchange on the 2 × 2 × 2 mesh computes, block by block, the seven-point stencil with a zero rim that the
   reference computes on the whole array; both programs run and leave their arguments unchanged. -/
import proofs.«900807_g7700000000000808_dist_halo3d_v7x_xyz2x2x2_s64_bf16_1_alg».proof.Defs
import proofs.«900807_g7700000000000808_dist_halo3d_v7x_xyz2x2x2_s64_bf16_1_alg».proof.Proof.Gen.Kernel
import proofs.«900807_g7700000000000808_dist_halo3d_v7x_xyz2x2x2_s64_bf16_1_alg».proof.Proof.Gen.Kernel.Skeleton
import proofs.«900807_g7700000000000808_dist_halo3d_v7x_xyz2x2x2_s64_bf16_1_alg».proof.Proof.Gen.Kernel.Launch
import proofs.«900807_g7700000000000808_dist_halo3d_v7x_xyz2x2x2_s64_bf16_1_alg».proof.Proof.Gen.Kernel.Points
import proofs.«900807_g7700000000000808_dist_halo3d_v7x_xyz2x2x2_s64_bf16_1_alg».proof.Proof.Gen.Kernel.Frame
import proofs.«900807_g7700000000000808_dist_halo3d_v7x_xyz2x2x2_s64_bf16_1_alg».proof.Proof.Gen.KernelIdeal
import proofs.«900807_g7700000000000808_dist_halo3d_v7x_xyz2x2x2_s64_bf16_1_alg».proof.Proof.Gen.KernelIdeal.Skeleton
import proofs.«900807_g7700000000000808_dist_halo3d_v7x_xyz2x2x2_s64_bf16_1_alg».proof.Proof.Gen.KernelIdeal.Launch
import proofs.«900807_g7700000000000808_dist_halo3d_v7x_xyz2x2x2_s64_bf16_1_alg».proof.Proof.Gen.KernelIdeal.Points
import proofs.«900807_g7700000000000808_dist_halo3d_v7x_xyz2x2x2_s64_bf16_1_alg».proof.Proof.Gen.KernelIdeal.Frame
import proofs.«900807_g7700000000000808_dist_halo3d_v7x_xyz2x2x2_s64_bf16_1_alg».proof.Proof.Gen.ReferenceIdeal
import proofs.«900807_g7700000000000808_dist_halo3d_v7x_xyz2x2x2_s64_bf16_1_alg».proof.Proof.Gen.Pre_finite_inputs_Kernel
import proofs.«900807_g7700000000000808_dist_halo3d_v7x_xyz2x2x2_s64_bf16_1_alg».proof.Proof.Gen.Pre_finite_inputs_ReferenceIdeal
import proofs.«900807_g7700000000000808_dist_halo3d_v7x_xyz2x2x2_s64_bf16_1_alg».proof.Proof.Launch
import proofs.«900807_g7700000000000808_dist_halo3d_v7x_xyz2x2x2_s64_bf16_1_alg».proof.Proof.BodyOb
import proofs.«900807_g7700000000000808_dist_halo3d_v7x_xyz2x2x2_s64_bf16_1_alg».proof.Proof.Bits.Launch
import proofs.«900807_g7700000000000808_dist_halo3d_v7x_xyz2x2x2_s64_bf16_1_alg».proof.Proof.Bits.BodyOb
import proofs.«900807_g7700000000000808_dist_halo3d_v7x_xyz2x2x2_s64_bf16_1_alg».proof.Proof.RefValue
import proofs.«900807_g7700000000000808_dist_halo3d_v7x_xyz2x2x2_s64_bf16_1_alg».proof.Proof.KV
import Idealize.ShloMosaic.Adequacy
import Idealize.ShloMosaic.Init

noncomputable section

namespace Cert.Proof

open Idealize.ShloMosaic Idealize.SL.Sem Cert.Kernel

/-- The kernel's run at the word level, its values dropped. -/
theorem frame_k : Cert.frame_Kernel := fun m ρ _ =>
  (θ_run _ _ _).mono (fun _ h c => (h c).1)
    (Cert.Kernel.Halo.run_main (F := Bits) m ρ (Cert.Kernel.Halo.body_obligation m ρ))

/-- The kernel's run over the extended reals, its values dropped. -/
theorem frame_ki : Cert.frame_KernelIdeal := fun m ρ _ =>
  (θ_run _ _ _).mono (fun _ h c => (h c).1)
    (Cert.KernelIdeal.Halo.run_main (F := Ideal) m ρ (Cert.KernelIdeal.Halo.body_obligation m ρ))

/-- The reference's run, its value dropped. -/
theorem frame_ri : Cert.frame_ReferenceIdeal := fun m' ρ' _ =>
  (θ_run _ _ _).mono (fun _ h c => (h c).2) (Cert.Halo.Ref.run m' ρ')

/-- The reference's result is the stencil of its argument, and each device's result block is its block of that. -/
theorem algebraic : Cert.algebraic_KernelIdeal_ReferenceIdeal := by
  intro m ρ m' ρ' _ hagree
  refine ⟨Cert.Halo.lap (m' (((0 : Dev Cert.ReferenceIdeal.nD).tc : Thread Cert.ReferenceIdeal.nD Cert.ReferenceIdeal.τ).loc Cert.ReferenceIdeal.main_arg0)), ?_, ?_⟩
  · exact (θ_run _ _ _).mono (fun _ h c => ⟨(h c).2.trans (Cert.Halo.KV.outVal_eq m ρ _ hagree c), (h c).1⟩)
      (Cert.KernelIdeal.Halo.run_main (F := Ideal) m ρ (Cert.KernelIdeal.Halo.body_obligation m ρ))
  · exact (θ_run _ _ _).mono (fun _ h => h 0) (Cert.Halo.Ref.run m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
